-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x8x16384x2x2 : Shape := ⟨5, ![16, 8, 16384, 2, 2]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S16x8x16384x2x2 : S_.BroadcastsInDim S16x8x16384x2x2 (![] : Fin 0 → Fin S16x8x16384x2x2.rank)
  reducesTo_S16x8x16384x2x2_S_d0_1_2_3_4 : S16x8x16384x2x2.ReducesTo [0, 1, 2, 3, 4] S_

variable [Facts]

def fn_part1 {F : FTy → Type} [FloatOps F] (main_v10 : IVec S_ 1) (main_v15 : IVec S16x8x16384x2x2 1) (main_c_5 : IVec S_ 1) : IVec S_ 1 :=
  let main_v16 : IVec S_ 1 := (fun x v => Host.reduce IntOp.andi x v reducesTo_S16x8x16384x2x2_S_d0_1_2_3_4 h_S_) main_v15 main_c_5
  let main_v17 : IVec S_ 1 := andi main_v10 main_v16
  main_v17

def fn {F : FTy → Type} [FloatOps F] (main_arg0 : FVec F S16x8x512x512 .f32) (main_arg1 : IVec S16x8x16384x2x2 32) (main_arg2 : IVec S16x8x16384x2x2 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_c_0 : IVec S_ 32 := constantI S_ 32 0#32
  let main_v4 : IVec S16x8x16384x2x2 32 := broadcastInDim S16x8x16384x2x2 ![] bcast_S_S16x8x16384x2x2 main_c_0
  let main_v5 : IVec S16x8x16384x2x2 1 := cmpi .sge main_arg1 main_v4
  let main_c_1 : IVec S_ 32 := constantI S_ 32 512#32
  let main_v6 : IVec S16x8x16384x2x2 32 := broadcastInDim S16x8x16384x2x2 ![] bcast_S_S16x8x16384x2x2 main_c_1
  let main_v7 : IVec S16x8x16384x2x2 1 := cmpi .slt main_arg1 main_v6
  let main_v8 : IVec S16x8x16384x2x2 1 := andi main_v5 main_v7
  let main_c_2 : IVec S_ 1 := constantI S_ 1 1#1
  let main_v9 : IVec S_ 1 := (fun x v => Host.reduce IntOp.andi x v reducesTo_S16x8x16384x2x2_S_d0_1_2_3_4 h_S_) main_v8 main_c_2
  let main_v10 : IVec S_ 1 := andi main_v3 main_v9
  let main_c_3 : IVec S_ 32 := constantI S_ 32 0#32
  let main_v11 : IVec S16x8x16384x2x2 32 := broadcastInDim S16x8x16384x2x2 ![] bcast_S_S16x8x16384x2x2 main_c_3
  let main_v12 : IVec S16x8x16384x2x2 1 := cmpi .sge main_arg2 main_v11
  let main_c_4 : IVec S_ 32 := constantI S_ 32 512#32
  let main_v13 : IVec S16x8x16384x2x2 32 := broadcastInDim S16x8x16384x2x2 ![] bcast_S_S16x8x16384x2x2 main_c_4
  let main_v14 : IVec S16x8x16384x2x2 1 := cmpi .slt main_arg2 main_v13
  let main_v15 : IVec S16x8x16384x2x2 1 := andi main_v12 main_v14
  let main_c_5 : IVec S_ 1 := constantI S_ 1 1#1
  fn_part1 (F := F) main_v10 main_v15 main_c_5
-- ==== Kernel.lean ====
abbrev S16x8x512x512 : Shape := ⟨4, ![16, 8, 512, 512]⟩
abbrev S16x8x16384x2x2 : Shape := ⟨5, ![16, 8, 16384, 2, 2]⟩
abbrev S16x8x16384x4 : Shape := ⟨4, ![16, 8, 16384, 4]⟩
abbrev S16x8x4x16384 : Shape := ⟨4, ![16, 8, 4, 16384]⟩
abbrev S16x8x128 : Shape := ⟨3, ![16, 8, 128]⟩
abbrev S1x1x512x512 : Shape := ⟨4, ![1, 1, 512, 512]⟩
abbrev S1x1x4x2048 : Shape := ⟨4, ![1, 1, 4, 2048]⟩
abbrev S1x8x128 : Shape := ⟨3, ![1, 8, 128]⟩
abbrev S512x512 : Shape := ⟨2, ![512, 512]⟩
abbrev S8x128 : Shape := ⟨2, ![8, 128]⟩
abbrev S4x2048 : Shape := ⟨2, ![4, 2048]⟩
abbrev S1x512 : Shape := ⟨2, ![1, 512]⟩
abbrev S1x2048 : Shape := ⟨2, ![1, 2048]⟩
abbrev S2048 : Shape := ⟨1, ![2048]⟩
abbrev S2048x1 : Shape := ⟨2, ![2048, 1]⟩
abbrev S2048x512 : Shape := ⟨2, ![2048, 512]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S16x8x512x512, .f32⟩
  | .hbm, ⟨1, _⟩ => ⟨S16x8x16384x2x2, .i32⟩
  | .hbm, ⟨2, _⟩ => ⟨S16x8x16384x2x2, .i32⟩
  | .hbm, ⟨3, _⟩ => ⟨S16x8x16384x4, .i32⟩
  | .hbm, ⟨4, _⟩ => ⟨S16x8x4x16384, .i32⟩
  | .hbm, ⟨5, _⟩ => ⟨S16x8x16384x4, .i32⟩
  | .hbm, ⟨6, _⟩ => ⟨S16x8x4x16384, .i32⟩
  | .hbm, ⟨7, _⟩ => ⟨S16x8x128, .f32⟩
  | .hbm, ⟨8, _⟩ => ⟨S16x8x128, .f32⟩
  | .hbm, ⟨9, _⟩ => ⟨S16x1x1, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S16x1x1, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x4x2048, .i32⟩
  | .local _ .vmem, ⟨3, _⟩ => ⟨S1x1x4x2048, .i32⟩
  | .local _ .vmem, ⟨4, _⟩ => ⟨S1x1x4x2048, .i32⟩
  | .local _ .vmem, ⟨5, _⟩ => ⟨S1x1x4x2048, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S512x512, .bf16⟩
  | .local _ .vmem, ⟨11, _⟩ => ⟨S512x512, .bf16⟩
  | .local _ .vmem, ⟨12, _⟩ => ⟨S8x128, .f32⟩
  | .local _ .vmem, ⟨13, _⟩ => ⟨S8x128, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 8], ![false, false, false]⟩

def k0_cond3 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c7_i32_1 : BitVec 32 := 7#32
  let v4 : BitVec 1 := Scalar.cmpi .eq arg2 c7_i32_1
  let v5 : BitVec 1 := Scalar.andi v3 v4
  let v139 : BitVec 32 := Scalar.extui v5
  let c0_i32_49 : BitVec 32 := 0#32
  let v140 : BitVec 1 := Scalar.cmpi .ne v139 c0_i32_49
  v140

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x4x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S16x8x16384x2x2_S16x8x16384x4 : S16x8x16384x2x2.ShapeCasts S16x8x16384x4
  transposes_S16x8x16384x4_S16x8x4x16384_0_1_3_2 : S16x8x16384x4.Transposes [0, 1, 3, 2] S16x8x4x16384
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x4x2048_S1x1x4x2048_0_0_0_0 : ∀ a, (![0, 0, 0, 0] : Fin 4 → Nat) a + S1x1x4x2048.size a ≤ S1x1x4x2048.size a
  h_S1x1x4x2048 : 0 < S1x1x4x2048.numel
  shapeCasts_S1x1x4x2048_S4x2048 : S1x1x4x2048.ShapeCasts S4x2048
  iota_S1x512_d1_w32 : S1x512.Iotas .tc 32 [1]
  slices_S4x2048_o0_0_S1x2048 : S4x2048.Slices ![0, 0] S1x2048
  shapeCasts_S1x2048_S2048 : S1x2048.ShapeCasts S2048
  slices_S4x2048_o1_0_S1x2048 : S4x2048.Slices ![1, 0] S1x2048
  shapeCasts_S2048_S2048x1 : S2048.ShapeCasts S2048x1
  broadcasts_S2048x1_S2048x512 : S2048x1.Broadcasts S2048x512
  broadcasts_S1x512_S2048x512 : S1x512.Broadcasts S2048x512
  natLt_1_32 : 1 < 32
  reduces_S2048x512_S2048 : S2048x512.Reduces [1] S2048
  slices_S4x2048_o2_0_S1x2048 : S4x2048.Slices ![2, 0] S1x2048
  slices_S4x2048_o3_0_S1x2048 : S4x2048.Slices ![3, 0] S1x2048
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x8x512x512.size a
  hwx0_0 : ∀ i : grid0.Coords, EltTy.bits .f32 = 32 ∨ (Rect.block (s := S16x8x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4x2048.size a ≤ S16x8x4x16384.size a
  hwx0_1 : ∀ i : grid0.Coords, EltTy.bits .i32 = 32 ∨ (Rect.block (s := S16x8x4x16384) S1x1x4x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4x2048.size a ≤ S16x8x4x16384.size a
  hwx0_2 : ∀ i : grid0.Coords, EltTy.bits .i32 = 32 ∨ (Rect.block (s := S16x8x4x16384) S1x1x4x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond3 i == 1#1) | ⟨_ + 5, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S16x8x16384x2x2 : Shape := ⟨5, ![16, 8, 16384, 2, 2]⟩
abbrev S2097152x2x2 : Shape := ⟨3, ![2097152, 2, 2]⟩
abbrev S16 : Shape := ⟨1, ![16]⟩
abbrev S16x131072 : Shape := ⟨2, ![16, 131072]⟩
abbrev S2097152 : Shape := ⟨1, ![2097152]⟩
abbrev S8 : Shape := ⟨1, ![8]⟩
abbrev S8x16384 : Shape := ⟨2, ![8, 16384]⟩
abbrev S131072 : Shape := ⟨1, ![131072]⟩
abbrev S1x131072 : Shape := ⟨2, ![1, 131072]⟩
abbrev S2097152x1x1 : Shape := ⟨3, ![2097152, 1, 1]⟩
abbrev S_ : Shape := ⟨0, ![]⟩
abbrev S2097152x1 : Shape := ⟨2, ![2097152, 1]⟩
abbrev S2097152x4 : Shape := ⟨2, ![2097152, 4]⟩

abbrev nBuf : Space → Nat
  | .hbm => 188
  | .vmem => 0
  | .smem => 0
  | _ => 0

abbrev hbmTy0_0 (i : Nat) : BufTy := match i % 128 with
  | 0 => ⟨S16x8x512x512, .f32⟩
  | 1 => ⟨S16x8x16384x2x2, .i32⟩
  | 2 => ⟨S16x8x16384x2x2, .i32⟩
  | 3 => ⟨S2097152x2x2, .i32⟩
  | 4 => ⟨S16, .i32⟩
  | 5 => ⟨S16x131072, .i32⟩
  | 6 => ⟨S2097152, .i32⟩
  | 7 => ⟨S8, .i32⟩
  | 8 => ⟨S8x16384, .i32⟩
  | 9 => ⟨S131072, .i32⟩
  | 10 => ⟨S1x131072, .i32⟩
  | 11 => ⟨S16x131072, .i32⟩
  | 12 => ⟨S2097152, .i32⟩
  | 13 => ⟨S2097152x1x1, .i32⟩
  | 14 => ⟨S2097152, .i32⟩
  | 15 => ⟨S2097152x1x1, .i32⟩
  | 16 => ⟨S2097152, .i32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S2097152x1, .i32⟩
  | 46 => ⟨S2097152x1, .i32⟩
  | 47 => ⟨S2097152x1, .i32⟩
  | 48 => ⟨S2097152x1, .i32⟩
  | 49 => ⟨S2097152x4, .i32⟩
  | 50 => ⟨S2097152, .f32⟩
  | 51 => ⟨S2097152x1x1, .i32⟩
  | 52 => ⟨S2097152, .i32⟩
  | 53 => ⟨S2097152x1x1, .i32⟩
  | 54 => ⟨S2097152, .i32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x1, .i32⟩
  | 86 => ⟨S2097152x1, .i32⟩
  | 87 => ⟨S2097152x4, .i32⟩
  | 88 => ⟨S2097152, .f32⟩
  | 89 => ⟨S2097152, .f32⟩
  | 90 => ⟨S2097152, .f32⟩
  | 91 => ⟨S_, .f32⟩
  | 92 => ⟨S_, .f32⟩
  | 93 => ⟨S_, .f32⟩
  | 94 => ⟨S_, .f32⟩
  | 95 => ⟨S2097152x2x2, .i32⟩
  | 96 => ⟨S16, .i32⟩
  | 97 => ⟨S16x131072, .i32⟩
  | 98 => ⟨S2097152, .i32⟩
  | 99 => ⟨S8, .i32⟩
  | 100 => ⟨S8x16384, .i32⟩
  | 101 => ⟨S131072, .i32⟩
  | 102 => ⟨S1x131072, .i32⟩
  | 103 => ⟨S16x131072, .i32⟩
  | 104 => ⟨S2097152, .i32⟩
  | 105 => ⟨S2097152x1x1, .i32⟩
  | 106 => ⟨S2097152, .i32⟩
  | 107 => ⟨S2097152x1x1, .i32⟩
  | 108 => ⟨S2097152, .i32⟩
  | 109 => ⟨S_, .i32⟩
  | 110 => ⟨S2097152, .i32⟩
  | 111 => ⟨S2097152, .i1⟩
  | 112 => ⟨S_, .i32⟩
  | 113 => ⟨S2097152, .i32⟩
  | 114 => ⟨S2097152, .i32⟩
  | 115 => ⟨S2097152, .i32⟩
  | 116 => ⟨S_, .i32⟩
  | 117 => ⟨S2097152, .i32⟩
  | 118 => ⟨S2097152, .i1⟩
  | 119 => ⟨S_, .i32⟩
  | 120 => ⟨S2097152, .i32⟩
  | 121 => ⟨S2097152, .i32⟩
  | 122 => ⟨S2097152, .i32⟩
  | 123 => ⟨S_, .i32⟩
  | 124 => ⟨S2097152, .i32⟩
  | 125 => ⟨S2097152, .i1⟩
  | 126 => ⟨S_, .i32⟩
  | 127 => ⟨S2097152, .i32⟩
  | _ => ⟨S16x8x512x512, .f32⟩

abbrev hbmTy0_1 (i : Nat) : BufTy := match i % 128 with
  | 0 => ⟨S2097152, .i32⟩
  | 1 => ⟨S2097152, .i32⟩
  | 2 => ⟨S_, .i32⟩
  | 3 => ⟨S2097152, .i32⟩
  | 4 => ⟨S2097152, .i1⟩
  | 5 => ⟨S_, .i32⟩
  | 6 => ⟨S2097152, .i32⟩
  | 7 => ⟨S2097152, .i32⟩
  | 8 => ⟨S2097152, .i32⟩
  | 9 => ⟨S2097152x1, .i32⟩
  | 10 => ⟨S2097152x1, .i32⟩
  | 11 => ⟨S2097152x1, .i32⟩
  | 12 => ⟨S2097152x1, .i32⟩
  | 13 => ⟨S2097152x4, .i32⟩
  | 14 => ⟨S2097152, .f32⟩
  | 15 => ⟨S2097152x1x1, .i32⟩
  | 16 => ⟨S2097152, .i32⟩
  | 17 => ⟨S2097152x1x1, .i32⟩
  | 18 => ⟨S2097152, .i32⟩
  | 19 => ⟨S_, .i32⟩
  | 20 => ⟨S2097152, .i32⟩
  | 21 => ⟨S2097152, .i1⟩
  | 22 => ⟨S_, .i32⟩
  | 23 => ⟨S2097152, .i32⟩
  | 24 => ⟨S2097152, .i32⟩
  | 25 => ⟨S2097152, .i32⟩
  | 26 => ⟨S_, .i32⟩
  | 27 => ⟨S2097152, .i32⟩
  | 28 => ⟨S2097152, .i1⟩
  | 29 => ⟨S_, .i32⟩
  | 30 => ⟨S2097152, .i32⟩
  | 31 => ⟨S2097152, .i32⟩
  | 32 => ⟨S2097152, .i32⟩
  | 33 => ⟨S_, .i32⟩
  | 34 => ⟨S2097152, .i32⟩
  | 35 => ⟨S2097152, .i1⟩
  | 36 => ⟨S_, .i32⟩
  | 37 => ⟨S2097152, .i32⟩
  | 38 => ⟨S2097152, .i32⟩
  | 39 => ⟨S2097152, .i32⟩
  | 40 => ⟨S_, .i32⟩
  | 41 => ⟨S2097152, .i32⟩
  | 42 => ⟨S2097152, .i1⟩
  | 43 => ⟨S_, .i32⟩
  | 44 => ⟨S2097152, .i32⟩
  | 45 => ⟨S2097152, .i32⟩
  | 46 => ⟨S2097152, .i32⟩
  | 47 => ⟨S2097152x1, .i32⟩
  | 48 => ⟨S2097152x1, .i32⟩
  | 49 => ⟨S2097152x1, .i32⟩
  | 50 => ⟨S2097152x1, .i32⟩
  | 51 => ⟨S2097152x4, .i32⟩
  | 52 => ⟨S2097152, .f32⟩
  | 53 => ⟨S2097152, .f32⟩
  | 54 => ⟨S2097152, .f32⟩
  | 55 => ⟨S_, .f32⟩
  | 56 => ⟨S_, .f32⟩
  | 57 => ⟨S_, .f32⟩
  | 58 => ⟨S_, .f32⟩
  | 59 => ⟨S_, .f32⟩
  | _ => ⟨S16x8x512x512, .f32⟩

abbrev hbmTy (i : Nat) : BufTy := match i / 128 with
  | 0 => hbmTy0_0 i
  | 1 => hbmTy0_1 i
  | _ => ⟨S16x8x512x512, .f32⟩

abbrev bufTy : (tb : Table) → Fin (tcTables nBuf tb) → BufTy
  | .hbm, ⟨i, _⟩ => hbmTy i
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_7 : Ref sig .tc := ⟨.hbm, 55, rfl⟩
abbrev main_v44 : Ref sig .tc := ⟨.hbm, 56, rfl⟩
abbrev main_v45 : Ref sig .tc := ⟨.hbm, 57, rfl⟩
abbrev main_c_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_11 : Ref sig .tc := ⟨.hbm, 69, rfl⟩
abbrev main_v54 : Ref sig .tc := ⟨.hbm, 70, rfl⟩
abbrev main_v55 : Ref sig .tc := ⟨.hbm, 71, rfl⟩
abbrev main_c_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_13 : Ref sig .tc := ⟨.hbm, 76, rfl⟩
abbrev main_v59 : Ref sig .tc := ⟨.hbm, 77, rfl⟩
abbrev main_v60 : Ref sig .tc := ⟨.hbm, 78, rfl⟩
abbrev main_c_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_16 : Ref sig .tc := ⟨.hbm, 109, rfl⟩
abbrev main_v88 : Ref sig .tc := ⟨.hbm, 110, rfl⟩
abbrev main_v89 : Ref sig .tc := ⟨.hbm, 111, rfl⟩
abbrev main_c_17 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_c_18 : Ref sig .tc := ⟨.hbm, 116, rfl⟩
abbrev main_v93 : Ref sig .tc := ⟨.hbm, 117, rfl⟩
abbrev main_v94 : Ref sig .tc := ⟨.hbm, 118, rfl⟩
abbrev main_c_19 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_20 : Ref sig .tc := ⟨.hbm, 123, rfl⟩
abbrev main_v98 : Ref sig .tc := ⟨.hbm, 124, rfl⟩
abbrev main_v99 : Ref sig .tc := ⟨.hbm, 125, rfl⟩
abbrev main_c_21 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_22 : Ref sig .tc := ⟨.hbm, 130, rfl⟩
abbrev main_v103 : Ref sig .tc := ⟨.hbm, 131, rfl⟩
abbrev main_v104 : Ref sig .tc := ⟨.hbm, 132, rfl⟩
abbrev main_c_23 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_c_24 : Ref sig .tc := ⟨.hbm, 147, rfl⟩
abbrev main_v118 : Ref sig .tc := ⟨.hbm, 148, rfl⟩
abbrev main_v119 : Ref sig .tc := ⟨.hbm, 149, rfl⟩
abbrev main_c_25 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_c_26 : Ref sig .tc := ⟨.hbm, 154, rfl⟩
abbrev main_v123 : Ref sig .tc := ⟨.hbm, 155, rfl⟩
abbrev main_v124 : Ref sig .tc := ⟨.hbm, 156, rfl⟩
abbrev main_c_27 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_28 : Ref sig .tc := ⟨.hbm, 161, rfl⟩
abbrev main_v128 : Ref sig .tc := ⟨.hbm, 162, rfl⟩
abbrev main_v129 : Ref sig .tc := ⟨.hbm, 163, rfl⟩
abbrev main_c_29 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_c_30 : Ref sig .tc := ⟨.hbm, 168, rfl⟩
abbrev main_v133 : Ref sig .tc := ⟨.hbm, 169, rfl⟩
abbrev main_v134 : Ref sig .tc := ⟨.hbm, 170, rfl⟩
abbrev main_c_31 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_32 : Ref sig .tc := ⟨.hbm, 183, rfl⟩
abbrev main_v146 : Ref sig .tc := ⟨.hbm, 184, rfl⟩
abbrev main_cst_33 : Ref sig .tc := ⟨.hbm, 185, rfl⟩
abbrev main_v147 : Ref sig .tc := ⟨.hbm, 186, rfl⟩
abbrev main_v148 : Ref sig .tc := ⟨.hbm, 187, rfl⟩

abbrev nD : Nat := 1
abbrev τ : Topo := Topo.v7x

variable {F : FTy → Type} [FloatOps F]

class Facts₀ : Prop where
  shapeCasts_S16x8x16384x2x2_S2097152x2x2 : S16x8x16384x2x2.ShapeCasts S2097152x2x2
  bcast_S16_S16x131072_0 : S16.BroadcastsInDim S16x131072 (![0] : Fin 1 → Fin S16x131072.rank)
  shapeCasts_S16x131072_S2097152 : S16x131072.ShapeCasts S2097152
  bcast_S8_S8x16384_0 : S8.BroadcastsInDim S8x16384 (![0] : Fin 1 → Fin S8x16384.rank)
  shapeCasts_S8x16384_S131072 : S8x16384.ShapeCasts S131072
  shapeCasts_S131072_S1x131072 : S131072.ShapeCasts S1x131072
  bcast_S1x131072_S16x131072_0_1 : S1x131072.BroadcastsInDim S16x131072 (![0, 1] : Fin 2 → Fin S16x131072.rank)
  slices_S2097152x2x2_S2097152x1x1_0_0_0 : S2097152x2x2.Slices ![0, 0, 0] S2097152x1x1
  shapeCasts_S2097152x1x1_S2097152 : S2097152x1x1.ShapeCasts S2097152
  slices_S2097152x2x2_S2097152x1x1_0_0_1 : S2097152x2x2.Slices ![0, 0, 1] S2097152x1x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x1_S2097152x1_S2097152x4_d1 : Shape.Concatenates [S2097152x1, S2097152x1, S2097152x1, S2097152x1] S2097152x4 1
  slices_S2097152x2x2_S2097152x1x1_0_1_0 : S2097152x2x2.Slices ![0, 1, 0] S2097152x1x1
  slices_S2097152x2x2_S2097152x1x1_0_1_1 : S2097152x2x2.Slices ![0, 1, 1] S2097152x1x1
  reducesTo_S2097152_S_d0 : S2097152.ReducesTo [0] S_
  h_S_ : 0 < S_.numel
  gather_S16x8x512x512_S2097152x4_S2097152_n_0123_n_n_0123_1_1111_wf : GatherDims.WF S16x8x512x512 S2097152x4 S2097152 [] [0, 1, 2, 3] [] [0, 1, 2, 3] [] 1 ![1, 1, 1, 1]

variable [Facts₀]

def gather_S16x8x512x512_S2097152x4_S2097152_n_0123_n_n_0123_1_1111 : GatherDims S16x8x512x512 S2097152x4 S2097152 where
  offsetDims := []
  collapsedSliceDims := [0, 1, 2, 3]
  operandBatchingDims := []
  startIndicesBatchingDims := []
  startIndexMap := [0, 1, 2, 3]
  indexVectorDim := 1
  sliceSizes := ![1, 1, 1, 1]
  wf := gather_S16x8x512x512_S2097152x4_S2097152_n_0123_n_n_0123_1_1111_wf

class Facts : Prop extends Facts₀ where

variable [Facts]
-- ==== Proof.LibRealArith.lean ====
/-
  Arithmetic on extended reals that are reals, as the ideal reading of float operations needs it.

  The ideal values are Mathlib's `EReal`; its `+`, `-`, `*`, `max` restrict to the real operations
  on (coerced) reals, and so do a division by a nonzero real, a finite sum, and the reciprocal
  square root of a positive real. `IsReal x` says "`x` is the coercion of a real"; the lemmas
  below close it under those operations, move a finite sum through the coercion (`coe_sum`), and
  state the one law of batch statistics used downstream: the mean of the squares minus the square
  of the mean IS the mean of the squared deviations (`var_real` over `ℝ`; `var_ereal` on extended
  reals that are reals, in the operations' own spelling), which is nonnegative
  (`var_real_nonneg`, `var_ereal_isReal_nonneg`). Last, three evaluations of `f32` literals.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Fin
import Mathlib.Algebra.Order.BigOperators.Group.Finset
import Mathlib.Analysis.SpecialFunctions.Pow.Real
import Mathlib.Tactic.Ring
import Mathlib.Tactic.FieldSimp
import Mathlib.Tactic.NormNum
import Mathlib.Tactic.Positivity

namespace Cert.Lib.RealArith

open Idealize.ShloMosaic
open scoped BigOperators

/-- An extended real that is (the coercion of) a real: neither infinity. -/
def IsReal (x : EReal) : Prop := ∃ r : ℝ, x = (r : EReal)

/-- A coerced real is a real. -/
theorem isReal_coe (r : ℝ) : IsReal (r : EReal) := ⟨r, rfl⟩

/-- Zero is a real. -/
theorem isReal_zero : IsReal 0 := ⟨0, rfl⟩

/-- One is a real. -/
theorem isReal_one : IsReal 1 := ⟨1, rfl⟩

/-- A real is not the top element. -/
theorem IsReal.ne_top {x : EReal} (hx : IsReal x) : x ≠ ⊤ := by
  obtain ⟨a, rfl⟩ := hx; exact EReal.coe_ne_top a

/-- A real is not the bottom element. -/
theorem IsReal.ne_bot {x : EReal} (hx : IsReal x) : x ≠ ⊥ := by
  obtain ⟨a, rfl⟩ := hx; exact EReal.coe_ne_bot a

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  obtain ⟨a, rfl⟩ := hx; obtain ⟨b, rfl⟩ := hy; exact ⟨Max.max a b, EReal.coe_strictMono.monotone.map_max.symm⟩

/-- The minimum of two reals is a real. -/
theorem IsReal.min {x y : EReal} (hx : IsReal x) (hy : IsReal y) : IsReal (min x y) := by
  obtain ⟨a, rfl⟩ := hx; obtain ⟨b, rfl⟩ := hy; exact ⟨Min.min a b, EReal.coe_strictMono.monotone.map_min.symm⟩

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A real divided (the float division of the ideal reading) by a nonzero real is a real. -/
theorem IsReal.div_coe {y : ℝ} (hy : y ≠ 0) {x : EReal} (hx : IsReal x) :
    IsReal (Ideal.div x (y : EReal)) := by
  rw [Ideal.div_coe hy]; exact hx.mul (isReal_coe _)

/-- The float division of a coerced real by a nonzero coerced real is the coerced real quotient. -/
theorem div_coe_coe {y : ℝ} (hy : y ≠ 0) (x : ℝ) :
    Ideal.div (x : EReal) (y : EReal) = ((x / y : ℝ) : EReal) := by
  rw [Ideal.div_coe hy, ← EReal.coe_mul, mul_one_div]

/-- The reciprocal square root of a positive real, as a value: the coerced `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real is a real. -/
theorem IsReal.rsqrt_of_pos {r : ℝ} (hr : 0 < r) : IsReal (Ideal.rsqrt (r : EReal)) :=
  ⟨_, rsqrt_coe_of_pos hr⟩

/-- The reciprocal square root of a nonnegative real plus a positive real, as a value. -/
theorem rsqrt_add_coe_of_nonneg_of_pos {v e : ℝ} (hv : 0 ≤ v) (he : 0 < e) :
    Ideal.rsqrt ((v : EReal) + (e : EReal)) = (((Real.sqrt (v + e))⁻¹ : ℝ) : EReal) := by
  rw [← EReal.coe_add]; exact rsqrt_coe_of_pos (add_pos_of_nonneg_of_pos hv he)

/-- The reciprocal square root of a nonnegative real plus a positive real is a real. -/
theorem IsReal.rsqrt_add_of_nonneg_of_pos {v e : ℝ} (hv : 0 ≤ v) (he : 0 < e) :
    IsReal (Ideal.rsqrt ((v : EReal) + (e : EReal))) :=
  ⟨_, rsqrt_add_coe_of_nonneg_of_pos hv he⟩

/-- Over `ℝ`, for `n ≥ 1` entries: the mean of the squares minus the square of the mean is the mean
    of the squared deviations from the mean. -/
theorem var_real {n : ℕ} (hn : 0 < n) (a : Fin n → ℝ) :
    (∑ i, a i * a i) / n - ((∑ i, a i) / n) * ((∑ i, a i) / n)
      = (∑ i, (a i - (∑ i, a i) / n) * (a i - (∑ i, a i) / n)) / n := by
  have hN : (n : ℝ) ≠ 0 := by exact_mod_cast hn.ne'
  generalize hS : (∑ i, a i) = S
  have h1 : ∀ m : ℝ, ∑ i, (a i - m) * (a i - m) = (∑ i, a i * a i) - 2 * m * S + n * (m * m) := by
    intro m
    have h2 : ∀ i, (a i - m) * (a i - m) = a i * a i - 2 * m * a i + m * m := fun i => by ring
    simp only [h2, Finset.sum_add_distrib, Finset.sum_sub_distrib, ← Finset.mul_sum, hS,
      Finset.sum_const, Finset.card_univ, Fintype.card_fin, nsmul_eq_mul]
    ring
  rw [h1]; field_simp; ring

/-- Over `ℝ`: the mean of the squared deviations is nonnegative (for any `n`, zero included). -/
theorem var_real_nonneg {n : ℕ} (a : Fin n → ℝ) :
    0 ≤ (∑ i, (a i - (∑ i, a i) / n) * (a i - (∑ i, a i) / n)) / n :=
  div_nonneg (Finset.sum_nonneg fun _ _ => mul_self_nonneg _) (Nat.cast_nonneg n)

/-- The right-hand side of `var_ereal` on coerced reals is the coerced real mean of squared
    deviations. -/
theorem var_ereal_rhs_coe {n : ℕ} (hn : 0 < n) (N : ℝ) (hN : N = n) (b : Fin n → ℝ) :
    Ideal.div (0 + ∑ i, ((b i : EReal) - Ideal.div (0 + ∑ i, (b i : EReal)) (N : EReal))
        * ((b i : EReal) - Ideal.div (0 + ∑ i, (b i : EReal)) (N : EReal))) (N : EReal)
      = (((∑ i, (b i - (∑ i, b i) / n) * (b i - (∑ i, b i) / n)) / n : ℝ) : EReal) := by
  subst hN
  have hN0 : (n : ℝ) ≠ 0 := by exact_mod_cast hn.ne'
  simp only [zero_add, ← coe_sum, div_coe_coe hN0, ← EReal.coe_sub, ← EReal.coe_mul]

/-- On extended reals that are reals, in the float operations' own spelling (`N` the real `n`,
    divisions by `(N : EReal)`, the right-hand sums with their initial value `0 +`): the mean of
    the squares minus the square of the mean is the mean of the squared deviations. -/
theorem var_ereal {n : ℕ} (hn : 0 < n) (N : ℝ) (hN : N = n) (a : Fin n → EReal)
    (ha : ∀ i, IsReal (a i)) :
    Ideal.div (∑ i, a i * a i) (N : EReal)
        - Ideal.div (∑ i, a i) (N : EReal) * Ideal.div (∑ i, a i) (N : EReal)
      = Ideal.div (0 + ∑ i, (a i - Ideal.div (0 + ∑ i, a i) (N : EReal))
          * (a i - Ideal.div (0 + ∑ i, a i) (N : EReal))) (N : EReal) := by
  choose b hb using ha
  obtain rfl : a = fun i => (b i : EReal) := funext hb
  rw [var_ereal_rhs_coe hn N hN b, ← var_real hn b]
  subst hN
  have hN0 : (n : ℝ) ≠ 0 := by exact_mod_cast hn.ne'
  simp only [← coe_sum, div_coe_coe hN0, ← EReal.coe_sub, ← EReal.coe_mul]

/-- Under the hypotheses of `var_ereal`, its right-hand side (hence its left-hand side) is a
    nonnegative real. -/
theorem var_ereal_isReal_nonneg {n : ℕ} (hn : 0 < n) (N : ℝ) (hN : N = n) (a : Fin n → EReal)
    (ha : ∀ i, IsReal (a i)) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  choose b hb using ha
  obtain rfl : a = fun i => (b i : EReal) := funext hb
  exact ⟨_, var_real_nonneg b, var_ereal_rhs_coe hn N hN b⟩

/-- The `f32` pattern `0x47435000` denotes `50000`. -/
theorem ofBits_50000 : Ideal.ofBits .f32 0x47435000#32 = ((50000 : ℝ) : EReal) := by
  simp [Ideal.ofBits, Ideal.ieee]
  rw [← EReal.coe_mul]
  norm_num

/-- The `f32` pattern `0x3727C5AC` (the one nearest `1e-5`) denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee]

/-- The guard `50000 - 0 > 0` evaluates to true. -/
theorem cmp_ogt_50000 :
    Ideal.cmp .ogt (((50000 : ℝ) : EReal) - ((0 : ℝ) : EReal)) 0 = 1#1 := by
  have h : (0 : EReal) < ((50000 : ℝ) : EReal) - ((0 : ℝ) : EReal) := by
    rw [← EReal.coe_sub]; exact_mod_cast (by norm_num : (0 : ℝ) < 50000 - 0)
  simp [Ideal.cmp, h]

end Cert.Lib.RealArith
-- ==== Proof.Pre.lean ====
import proofs.«419365_j60447369724095_4_alg».proof.Pre_finite_inputs
import proofs.«419365_j60447369724095_4_alg».proof.Proof.Gen.Pre_finite_inputs
import proofs.«419365_j60447369724095_4_alg».proof.Proof.LibRealArith
import Idealize.ShloMosaic.Lib.ReduceAll
import Idealize.ShloMosaic.Lib.StableHlo.Predicate
import Idealize.ShloMosaic.Lib.ValueIdx

namespace Cert.PreDecode
open Idealize.ShloMosaic Cert.Lib.RealArith

/-- The shape of a single word has exactly one index. -/
instance : Subsingleton Cert.Pre_finite_inputs.S_.Idx := ⟨fun a b => funext fun d => d.elim0⟩

/-- An extended real whose absolute value (the larger of it and its negation) lies strictly below
    the top element is a real: the top and the bottom element both have absolute value top. -/
theorem isReal_of_abs_lt_top (x : EReal) (h : max x (-x) < ⊤) : IsReal x := by
  induction x using EReal.rec with
  | bot => simp at h
  | coe r => exact ⟨r, rfl⟩
  | top => simp at h

/-- A 32-bit word that is at least 0 and below 512, both read signed, is below 512 read unsigned:
    a nonnegative signed value is the unsigned value. -/
theorem toNat_lt_of_signed (x : BitVec 32) (h0 : IntOp.cmpi .sge x 0#32 = 1#1)
    (h1 : IntOp.cmpi .slt x 512#32 = 1#1) : x.toNat < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  rw [BitVec.toInt_eq_toNat_cond] at h0 h1
  split at h0 <;> omega

/-- The f32 pattern with all exponent bits set and a zero mantissa denotes the top element. -/
theorem top_bits : Ideal.ofBits .f32 0x7F800000#32 = (⊤ : EReal) := by
  simp [Ideal.ofBits, Ideal.ieee]

/-- The precondition says: every image entry is a real number, and every interval word of both tables is below 512 (read unsigned, which for a signed word in [0, 512) is the same number). -/
theorem decode [hF : Cert.Pre_finite_inputs.Facts]
    (P : FVec Ideal Cert.Pre_finite_inputs.S16x8x512x512 .f32) (I0 I1 : IVec Cert.Pre_finite_inputs.S16x8x16384x2x2 32)
    (h : Cert.Pre_finite_inputs.fn (F := Ideal) P I0 I1 = fun _ => 1#1) :
    (∀ i, IsReal (P i)) ∧ (∀ i, (I0 i).toNat < 512) ∧ (∀ i, (I1 i).toNat < 512) := by
  have h0 := congrFun h ValueIdx.ix0
  dsimp only [Cert.Pre_finite_inputs.fn, Cert.Pre_finite_inputs.fn_part1] at h0
  obtain ⟨h01, hI1⟩ := IntOp.andi_eq_one.1 h0
  obtain ⟨hP, hI0⟩ := IntOp.andi_eq_one.1 h01
  refine ⟨fun i => ?_, fun i => ?_, fun i => ?_⟩
  · have e : Ideal.cmp .olt (max (P i) (-(P i))) (Ideal.ofBits .f32 0x7F800000#32) = 1#1 :=
      Host.reduce_andi_all _ _ _ _ _ hP i
    rw [top_bits] at e
    exact isReal_of_abs_lt_top (P i) (of_decide_eq_true ((StableHlo.Predicate.ofBool_eq_one_iff _).1 e))
  · have e : IntOp.andi (IntOp.cmpi .sge (I0 i) 0#32) (IntOp.cmpi .slt (I0 i) 512#32) = 1#1 :=
      Host.reduce_andi_all _ _ _ _ _ hI0 i
    obtain ⟨e0, e1⟩ := IntOp.andi_eq_one.1 e
    exact toNat_lt_of_signed (I0 i) e0 e1
  · have e : IntOp.andi (IntOp.cmpi .sge (I1 i) 0#32) (IntOp.cmpi .slt (I1 i) 512#32) = 1#1 :=
      Host.reduce_andi_all _ _ _ _ _ hI1 i
    obtain ⟨e0, e1⟩ := IntOp.andi_eq_one.1 e
    exact toNat_lt_of_signed (I1 i) e0 e1

end Cert.PreDecode
-- ==== Proof.Spec.lean ====
/-
  The quantity both programs compute, written once as a function of the three argument arrays.

  `P` is a stack of 16 × 8 images of 512 × 512 extended reals.  `I` is a table of intervals: for image `(b, c)`
  and interval `n` its four words `I[b, c, n, ·, ·]` are a birth pixel (row, column) and a death pixel (row, column)
  of that image.  Interval `n` contributes the square of (value at the birth pixel − value at the death pixel);
  an image contributes the sum over its 16384 intervals, a sample `b` the sum over its 8 images, a table the sum
  over the 16 samples.  The loss is the two tables' totals, each divided by 16, added — or, what is the same for
  finite totals, their sum divided by 16.
-/
import Idealize.ShloMosaic.PureOps.Ideal
import Idealize.ShloMosaic.Lib.ValueIdx
import Mathlib.Algebra.BigOperators.Group.Finset.Basic
import Mathlib.Data.Fintype.BigOperators

noncomputable section

namespace BirthDeath

open Idealize.ShloMosaic Idealize.ShloMosaic.ValueIdx

/-- The image stack's shape: sample, class, row, column. -/
abbrev ImgShape : Shape := ⟨4, ![16, 8, 512, 512]⟩
/-- The interval table's shape: sample, class, interval, birth/death, row/column. -/
abbrev IvlShape : Shape := ⟨5, ![16, 8, 16384, 2, 2]⟩

/-- A 32-bit word read as a row or column number of a 512 × 512 image.  The reading is reduced mod 512 so that it is
    total; on a word below 512 it is the word itself. -/
def px (w : BitVec 32) : Fin 512 := ⟨w.toNat % 512, Nat.mod_lt _ (by norm_num)⟩

theorem px_val_of_lt {w : BitVec 32} (h : w.toNat < 512) : (px w).val = w.toNat := Nat.mod_eq_of_lt h

/-- The value of image `(b, c)` at the pixel two words name. -/
def pixel (P : ImgShape.Idx → EReal) (b : Fin 16) (c : Fin 8) (r col : BitVec 32) : EReal :=
  P (ix4 b c (px r) (px col))

/-- Birth value minus death value of interval `n` of image `(b, c)`. -/
def gap (P : ImgShape.Idx → EReal) (I : IvlShape.Idx → BitVec 32) (b : Fin 16) (c : Fin 8) (n : Fin 16384) : EReal :=
  pixel P b c (I (ix5 b c n 0 0)) (I (ix5 b c n 0 1)) - pixel P b c (I (ix5 b c n 1 0)) (I (ix5 b c n 1 1))

/-- The squared gap: what one interval contributes. -/
def term (P : ImgShape.Idx → EReal) (I : IvlShape.Idx → BitVec 32) (b : Fin 16) (c : Fin 8) (n : Fin 16384) : EReal :=
  gap P I b c n * gap P I b c n

/-- What sample `b` contributes: all intervals of all its eight images. -/
def sampleSum (P : ImgShape.Idx → EReal) (I : IvlShape.Idx → BitVec 32) (b : Fin 16) : EReal :=
  ∑ c : Fin 8, ∑ n : Fin 16384, term P I b c n

/-- A table's total over the sixteen samples. -/
def total (P : ImgShape.Idx → EReal) (I : IvlShape.Idx → BitVec 32) : EReal :=
  ∑ b : Fin 16, sampleSum P I b

/-- What one grid point adds to its sample's sum.  The 1024 points are numbered row-major over (sample, class, chunk):
    point `k` is sample `k / 64`, class `k / 8 % 8`, and the chunk of 2048 consecutive intervals starting at
    `2048 · (k % 8)`. -/
def chunk (P : ImgShape.Idx → EReal) (I : IvlShape.Idx → BitVec 32) (k : ℕ) : EReal :=
  ∑ q : Fin 2048, term P I ⟨k / 64 % 16, Nat.mod_lt _ (by norm_num)⟩ ⟨k / 8 % 8, Nat.mod_lt _ (by norm_num)⟩
    ⟨k % 8 * 2048 + q.val, by have := q.isLt; have := Nat.mod_lt k (show 0 < 8 by norm_num); omega⟩

/-- The contribution of flat interval number `k`, the intervals numbered row-major over (sample, class, interval):
    sample `k / 131072`, class `k / 16384 % 8`, interval `k % 16384`. -/
def flatTerm (P : ImgShape.Idx → EReal) (I : IvlShape.Idx → BitVec 32) (k : Fin 2097152) : EReal :=
  term P I ⟨k.val / 131072, by have := k.isLt; omega⟩ ⟨k.val / 16384 % 8, Nat.mod_lt _ (by norm_num)⟩
    ⟨k.val % 16384, Nat.mod_lt _ (by norm_num)⟩

/-- Sixteen, as the 32-bit float word both programs divide by. -/
abbrev sixteen : EReal := Ideal.ofBits .f32 0x41800000#32

/-- The loss, the way the reference forms it: each table's total divided by 16, the quotients added. -/
def loss (P : ImgShape.Idx → EReal) (I0 I1 : IvlShape.Idx → BitVec 32) : EReal :=
  Ideal.div (total P I0) sixteen + Ideal.div (total P I1) sixteen

end BirthDeath

end
-- ==== Proof.LibBlockSum.lean ====
/-
  Sums by blocks, in a commutative additive monoid (the extended reals are one).

  A sum over `a * b` consecutive indices is the sum over `a` blocks of the sums over each block's
  `b` indices, the index of block `t` at offset `y` being `b * t + y` (`sum_blocks`; the instance
  at 25 blocks of 2000, stated at the literal 50000, is `sum_blocks_50000`). An accumulator that
  starts as `0 + s 0` and adds `s (n + 1)` at each step holds, after step `n`, the sum of
  `s 0, …, s n` (`acc_eq_sum`; over a finite run of steps, `acc_eq_sum_fin`).
-/
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

/-- The index of block `t` at offset `y`, among `a` blocks of `b`, is below `a * b`. -/
theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

/-- A sum over `a * b` indices is the sum over `a` blocks of the sums over each block's `b`
    indices; block `t` at offset `y` is the index `b * t + y`. -/
theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

/-- A sum over 50000 indices is the sum over 25 blocks of 2000; block `t` at offset `y` is the
    index `2000 * t + y`. -/
theorem sum_blocks_50000 {M : Type*} [AddCommMonoid M] (f : Fin 50000 → M) :
    ∑ t : Fin 25, ∑ y : Fin 2000, f ⟨2000 * t.val + y.val, by omega⟩ = ∑ r : Fin 50000, f r :=
  sum_blocks 25 2000 f

/-- An accumulator that starts as `0 + s 0` and adds `s (n + 1)` at step `n + 1` holds after step
    `n` the sum of `s 0, …, s n`. -/
theorem acc_eq_sum {M : Type*} [AddCommMonoid M] (s : ℕ → M) (S : ℕ → M) (h0 : S 0 = 0 + s 0)
    (hs : ∀ n, S (n + 1) = S n + s (n + 1)) (n : ℕ) : S n = ∑ t ∈ Finset.range (n + 1), s t := by
  induction n with
  | zero => rw [h0, zero_add, Finset.sum_range_one]
  | succ n ih => rw [hs, ih, Finset.sum_range_succ _ (n + 1)]

/-- The same over a finite run of `N + 1` steps: the accumulator's last value is the sum of all
    the steps' terms. -/
theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.Bridge.lean ====
/-
  Re-arrangements of the loss's finite sums, and the one law of the extended reals the two programs differ by.

  The reference adds the 2097152 squared gaps of a table in one flat sum; the kernel adds them sample by sample, and
  within a sample grid point by grid point, 2048 at a time.  Addition on the extended reals is commutative and
  associative, so every such grouping of the same terms has the same sum.  The kernel divides the sum of the two
  totals by 16 where the reference divides each total and adds: equal when the totals are real numbers, which they
  are when every image entry is.
-/
import proofs.«419365_j60447369724095_4_alg».proof.Proof.Spec
import proofs.«419365_j60447369724095_4_alg».proof.Proof.LibBlockSum
import proofs.«419365_j60447369724095_4_alg».proof.Proof.LibRealArith

noncomputable section

namespace BirthDeath

open Idealize.ShloMosaic Idealize.ShloMosaic.ValueIdx Cert.Lib.RealArith Cert.Lib.BlockSum

/-- A table's total is the flat sum over all its intervals. -/
theorem total_eq_flat (P : ImgShape.Idx → EReal) (I : IvlShape.Idx → BitVec 32) :
    total P I = ∑ k : Fin 2097152, flatTerm P I k := by
  -- split the flat index into sample and the rest, then the rest into class and interval
  refine Eq.trans ?_ (sum_blocks 16 131072 (fun k : Fin 2097152 => flatTerm P I k))
  unfold total sampleSum
  refine Finset.sum_congr rfl fun b _ => ?_
  refine Eq.trans ?_ (sum_blocks 8 16384
    (fun y : Fin 131072 => flatTerm P I ⟨131072 * b.val + y.val, block_lt b y⟩))
  refine Finset.sum_congr rfl fun c _ => Finset.sum_congr rfl fun n _ => ?_
  have hb := b.isLt
  have hc := c.isLt
  have hn := n.isLt
  unfold flatTerm
  congr 1
  · exact Fin.ext (by simp only []; omega)
  · exact Fin.ext (by simp only []; omega)
  · exact Fin.ext (by simp only []; omega)

/-- A sample's sum is the sum of what its 64 grid points add. -/
theorem sampleSum_eq_chunks (P : ImgShape.Idx → EReal) (I : IvlShape.Idx → BitVec 32) (b : Fin 16) :
    sampleSum P I b = ∑ k ∈ Finset.Ico (64 * b.val) (64 * b.val + 64), chunk P I k := by
  -- the 64 grid points of sample b are 8 classes of 8 chunks; a class's 16384 intervals are 8 chunks of 2048
  rw [Finset.sum_Ico_eq_sum_range, Nat.add_sub_cancel_left,
    ← Fin.sum_univ_eq_sum_range (fun j => chunk P I (64 * b.val + j)) 64]
  refine Eq.trans ?_ (sum_blocks 8 8 (fun j : Fin 64 => chunk P I (64 * b.val + j.val)))
  unfold sampleSum
  refine Finset.sum_congr rfl fun c _ => ?_
  refine Eq.trans (sum_blocks 8 2048 (fun n : Fin 16384 => term P I b c n)).symm ?_
  refine Finset.sum_congr rfl fun j _ => ?_
  unfold chunk
  refine Finset.sum_congr rfl fun q _ => ?_
  have hb := b.isLt
  have hc := c.isLt
  have hj := j.isLt
  have hq := q.isLt
  congr 1
  · exact Fin.ext (by simp only []; omega)
  · exact Fin.ext (by simp only []; omega)
  · exact Fin.ext (by simp only []; omega)

/-- With real image entries every total is a real number. -/
theorem isReal_total (P : ImgShape.Idx → EReal) (I : IvlShape.Idx → BitVec 32) (hP : ∀ i, IsReal (P i)) :
    IsReal (total P I) := by
  unfold total sampleSum
  refine IsReal.sum _ _ fun b _ => IsReal.sum _ _ fun c _ => IsReal.sum _ _ fun n _ => ?_
  unfold term gap pixel
  exact ((hP _).sub (hP _)).mul ((hP _).sub (hP _))

/-- The float word `0x41800000` is sixteen. -/
theorem sixteen_eq : sixteen = ((16 : ℝ) : EReal) := by
  -- sign 0, exponent field 131, mantissa 0: the value is 2 ^ (131 - 127)
  simp [Ideal.ofBits, Ideal.ieee]
  rw [← EReal.coe_mul]
  norm_num

/-- Dividing the sum of two real totals by 16 is adding their quotients by 16. -/
theorem div_add_sixteen {a b : EReal} (ha : IsReal a) (hb : IsReal b) :
    Ideal.div (a + b) sixteen = Ideal.div a sixteen + Ideal.div b sixteen := by
  obtain ⟨x, rfl⟩ := ha
  obtain ⟨y, rfl⟩ := hb
  have h16 : (16 : ℝ) ≠ 0 := by norm_num
  rw [sixteen_eq, ← EReal.coe_add, div_coe_coe h16, div_coe_coe h16, div_coe_coe h16,
    ← EReal.coe_add, add_div]

/-- The kernel's form of the loss is the reference's. -/
theorem loss_eq (P : ImgShape.Idx → EReal) (I0 I1 : IvlShape.Idx → BitVec 32) (hP : ∀ i, IsReal (P i)) :
    Ideal.div (total P I0 + total P I1) sixteen = loss P I0 I1 :=
  div_add_sixteen (isReal_total P I0 hP) (isReal_total P I1 hP)

end BirthDeath

end
-- ==== Proof.KDefs.lean ====
/-
  What one grid point does to the four buffers the kernel carries, as functions of the point's input blocks.

  The kernel keeps two copies of the current image (a leading part `hi` and a remainder `lo`, refreshed from the
  image block whenever the chunk number is 0) and two running sums, one per interval table.  At every point it
  forms, for each table, the sum over the chunk's 2048 intervals of the squared difference of two looked-up values
  (`part0`, `part1`: a look-up is a row selected by a product with a 0/1 matrix, then a column selected by a 0/1
  mask and a row sum) and adds it to the table's running sum.
-/
import proofs.«419365_j60447369724095_4_alg».proof.Proof.Gen.KernelIdeal.Skeleton

noncomputable section

namespace Cert.KernelIdeal.Step

open Idealize.ShloMosaic Idealize.ShloMosaic.TcCoe Cert.KernelIdeal Cert.KernelIdeal.Gen

variable {F : FTy → Type} [FloatOps F]

/-- The lane numbers 0 … 511 along a row: what both the row and the column indices are compared with. -/
abbrev lanes : IVec S1x512 32 := iota .tc S1x512 32 [1] iota_S1x512_d1_w32

/-- The leading part of the image block, as cached. -/
abbrev hiOf (x0 : Vec F S1x1x512x512 .f32) : FVec F S512x512 .bf16 := k0_pay6 x0

/-- The remainder of the image block after its leading part is taken off, as cached. -/
abbrev loOf (x0 : Vec F S1x1x512x512 .f32) : FVec F S512x512 .bf16 := k0_pay7 x0

/-- The first table's chunk sum, spread over the 8 × 128 tile. -/
def part0 (hi lo : Vec F S512x512 .bf16) (x1 : Vec F S1x1x4x2048 .i32) : FVec F S8x128 .f32 :=
  k0_pay20 (k0_pay14 lanes (k0_pay12 x1 hi lo) (k0_pay13 x1)) (k0_pay15 (k0_pay10 x1) lanes lanes hi lo)

/-- The second table's chunk sum, as a 1 × 1 value. -/
def part1 (hi lo : Vec F S512x512 .bf16) (x2 : Vec F S1x1x4x2048 .i32) : FVec F S1x1 .f32 :=
  k0_pay19 (k0_pay11 x2) lanes lanes (k0_pay16 (k0_pay11 x2)) (k0_pay17 (F := F) (k0_pay11 x2) lanes)
    (k0_pay18 (k0_pay11 x2) lanes hi) lo hi lo

/-- The first running sum after a point that found it at `a0`. -/
def acc0Next (hi lo : Vec F S512x512 .bf16) (x1 : Vec F S1x1x4x2048 .i32) (a0 : Vec F S8x128 .f32) : FVec F S8x128 .f32 :=
  k0_pay1 a0 (part0 hi lo x1)

/-- The second running sum after a point that found it at `a1`. -/
def acc1Next (hi lo : Vec F S512x512 .bf16) (x2 : Vec F S1x1x4x2048 .i32) (a1 : Vec F S8x128 .f32) : FVec F S8x128 .f32 :=
  k0_pay2 (part1 hi lo x2) a1

end Cert.KernelIdeal.Step

end
-- ==== Proof.KPieces.lean ====
/-
  What each of the four kinds of grid point leaves in the buffers the kernel carries, as the step functions of the
  point's input blocks and of what the point found.

  A point whose class and chunk numbers are both 0 refreshes the image copies and restarts the running sums from
  zero; a point whose chunk number alone is 0 refreshes the copies and keeps adding; every other point keeps the
  copies and adds; the last point of a sample, besides adding, copies the two running sums into the output blocks.
-/
import proofs.«419365_j60447369724095_4_alg».proof.Proof.KDefs
import proofs.«419365_j60447369724095_4_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen Cert.KernelIdeal.Step

variable {F : FTy → Type} [FloatOps F]
variable (c : Dev nD) (i : grid0.Coords)
  (a3 : Memref sig .tc .vmem S1x1x512x512 .f32) (h3 : a3.IsWhole)
  (a4 : Memref sig .tc .vmem S1x1x4x2048 .i32) (h4 : a4.IsWhole)
  (a5 : Memref sig .tc .vmem S1x1x4x2048 .i32) (h5 : a5.IsWhole)
  (a6 : Memref sig .tc .vmem S1x8x128 .f32) (h6 : a6.IsWhole)
  (a7 : Memref sig .tc .vmem S1x8x128 .f32) (h7 : a7.IsWhole)
  (a8 : Memref sig .tc .vmem S512x512 .bf16) (h8 : a8.IsWhole)
  (a9 : Memref sig .tc .vmem S512x512 .bf16) (h9 : a9.IsWhole)
  (a10 : Memref sig .tc .vmem S8x128 .f32) (h10 : a10.IsWhole)
  (a11 : Memref sig .tc .vmem S8x128 .f32) (h11 : a11.IsWhole)
  (x0 : Vec F S1x1x512x512 .f32) (x1 x2 : Vec F S1x1x4x2048 .i32)
  (xs0 xs1 : Vec F S512x512 .bf16) (xs2 xs3 : Vec F S8x128 .f32)

/-- The all-zero offsets of a rank-2, rank-3 and rank-4 block, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-! ## A sample's first point: copies refreshed, sums restarted -/

/-- The leading copy is refreshed from the image block. -/
theorem first_hi (hc0 : cond0_0 i) (hc1 : cond0_1 i) (hc2 : ¬cond0_2 i) :
    sout0_A_0 c i a3 h3 a4 h4 a5 h5 a6 h6 a7 h7 a8 h8 a9 h9 a10 h10 a11 h11 hc0 hc1 hc2 x0 x1 x2 = hiOf x0 := by
  unfold sout0_A_0
  rw [View.read_writes_eq_canon _ _ _ (scover0_A_0 c i a3 h3 a4 h4 a5 h5 a6 h6 a7 h7 a8 h8 a9 h9 a10 h10 a11 h11 hc0 hc1 hc2 x0 x1 x2)]
  unfold kernelRun0_A
  dsimp only
  sl_unfold_words
  rw [View.canon_unit_zero hz2]
  unfold hiOf
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The remainder copy is refreshed from the image block. -/
theorem first_lo (hc0 : cond0_0 i) (hc1 : cond0_1 i) (hc2 : ¬cond0_2 i) :
    sout0_A_1 c i a3 h3 a4 h4 a5 h5 a6 h6 a7 h7 a8 h8 a9 h9 a10 h10 a11 h11 hc0 hc1 hc2 x0 x1 x2 = loOf x0 := by
  unfold sout0_A_1
  rw [View.read_writes_eq_canon _ _ _ (scover0_A_1 c i a3 h3 a4 h4 a5 h5 a6 h6 a7 h7 a8 h8 a9 h9 a10 h10 a11 h11 hc0 hc1 hc2 x0 x1 x2)]
  unfold kernelRun0_A
  dsimp only
  sl_unfold_words
  rw [View.canon_unit_zero hz2]
  unfold loOf
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The first running sum restarts: zero plus this point's chunk sum, over the refreshed copies. -/
theorem first_acc0 (hc0 : cond0_0 i) (hc1 : cond0_1 i) (hc2 : ¬cond0_2 i) :
    sout0_A_2 c i a3 h3 a4 h4 a5 h5 a6 h6 a7 h7 a8 h8 a9 h9 a10 h10 a11 h11 hc0 hc1 hc2 x0 x1 x2 = acc0Next (hiOf x0) (loOf x0) x1 k0_pay8 := by
  unfold sout0_A_2
  rw [View.read_writes_eq_canon _ _ _ (scover0_A_2 c i a3 h3 a4 h4 a5 h5 a6 h6 a7 h7 a8 h8 a9 h9 a10 h10 a11 h11 hc0 hc1 hc2 x0 x1 x2)]
  unfold kernelRun0_A
  dsimp only
  sl_unfold_words
  rw [View.canon_cons_unit_zero (S := S8x128) hz2, View.readCov_unit_zero (S := S8x128) _ hz2]
  unfold acc0Next part0
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The second running sum restarts likewise. -/
theorem first_acc1 (hc0 : cond0_0 i) (hc1 : cond0_1 i) (hc2 : ¬cond0_2 i) :
    sout0_A_3 c i a3 h3 a4 h4 a5 h5 a6 h6 a7 h7 a8 h8 a9 h9 a10 h10 a11 h11 hc0 hc1 hc2 x0 x1 x2 = acc1Next (hiOf x0) (loOf x0) x2 k0_pay9 := by
  unfold sout0_A_3
  rw [View.read_writes_eq_canon _ _ _ (scover0_A_3 c i a3 h3 a4 h4 a5 h5 a6 h6 a7 h7 a8 h8 a9 h9 a10 h10 a11 h11 hc0 hc1 hc2 x0 x1 x2)]
  unfold kernelRun0_A
  dsimp only
  sl_unfold_words
  rw [View.canon_cons_unit_zero (S := S8x128) hz2, View.readCov_unit_zero (S := S8x128) _ hz2]
  unfold acc1Next part1
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]

/-! ## A later image's first chunk: copies refreshed, sums kept -/

/-- The leading copy is refreshed. -/
theorem image_hi (hc0 : cond0_0 i) (hc1 : ¬cond0_1 i) (hc2 : ¬cond0_2 i) :
    sout0_C_0 c i a3 h3 a4 h4 a5 h5 a6 h6 a7 h7 a8 h8 a9 h9 a10 h10 a11 h11 hc0 hc1 hc2 x0 x1 x2 xs2 xs3 = hiOf x0 := by
  unfold sout0_C_0
  rw [View.read_writes_eq_canon _ _ _ (scover0_C_0 c i a3 h3 a4 h4 a5 h5 a6 h6 a7 h7 a8 h8 a9 h9 a10 h10 a11 h11 hc0 hc1 hc2 x0 x1 x2 xs2 xs3)]
  unfold kernelRun0_C
  dsimp only
  sl_unfold_words
  rw [View.canon_unit_zero hz2]
  unfold hiOf
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The remainder copy is refreshed. -/
theorem image_lo (hc0 : cond0_0 i) (hc1 : ¬cond0_1 i) (hc2 : ¬cond0_2 i) :
    sout0_C_1 c i a3 h3 a4 h4 a5 h5 a6 h6 a7 h7 a8 h8 a9 h9 a10 h10 a11 h11 hc0 hc1 hc2 x0 x1 x2 xs2 xs3 = loOf x0 := by
  unfold sout0_C_1
  rw [View.read_writes_eq_canon _ _ _ (scover0_C_1 c i a3 h3 a4 h4 a5 h5 a6 h6 a7 h7 a8 h8 a9 h9 a10 h10 a11 h11 hc0 hc1 hc2 x0 x1 x2 xs2 xs3)]
  unfold kernelRun0_C
  dsimp only
  sl_unfold_words
  rw [View.canon_unit_zero hz2]
  unfold loOf
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The first running sum grows by this point's chunk sum over the refreshed copies. -/
theorem image_acc0 (hc0 : cond0_0 i) (hc1 : ¬cond0_1 i) (hc2 : ¬cond0_2 i) :
    sout0_C_2 c i a3 h3 a4 h4 a5 h5 a6 h6 a7 h7 a8 h8 a9 h9 a10 h10 a11 h11 hc0 hc1 hc2 x0 x1 x2 xs2 xs3 = acc0Next (hiOf x0) (loOf x0) x1 xs2 := by
  unfold sout0_C_2
  rw [View.read_writes_eq_canon _ _ _ (scover0_C_2 c i a3 h3 a4 h4 a5 h5 a6 h6 a7 h7 a8 h8 a9 h9 a10 h10 a11 h11 hc0 hc1 hc2 x0 x1 x2 xs2 xs3)]
  unfold kernelRun0_C
  dsimp only
  sl_unfold_words
  rw [View.canon_unit_zero hz2]
  unfold acc0Next part0
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The second running sum grows likewise. -/
theorem image_acc1 (hc0 : cond0_0 i) (hc1 : ¬cond0_1 i) (hc2 : ¬cond0_2 i) :
    sout0_C_3 c i a3 h3 a4 h4 a5 h5 a6 h6 a7 h7 a8 h8 a9 h9 a10 h10 a11 h11 hc0 hc1 hc2 x0 x1 x2 xs2 xs3 = acc1Next (hiOf x0) (loOf x0) x2 xs3 := by
  unfold sout0_C_3
  rw [View.read_writes_eq_canon _ _ _ (scover0_C_3 c i a3 h3 a4 h4 a5 h5 a6 h6 a7 h7 a8 h8 a9 h9 a10 h10 a11 h11 hc0 hc1 hc2 x0 x1 x2 xs2 xs3)]
  unfold kernelRun0_C
  dsimp only
  sl_unfold_words
  rw [View.canon_unit_zero hz2]
  unfold acc1Next part1
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]

/-! ## A middle point: copies kept, sums grow -/

/-- The leading copy is kept. -/
theorem mid_hi (hc0 : ¬cond0_0 i) (hc1 : ¬cond0_1 i) (hc2 : ¬cond0_2 i) :
    sout0_B_0 c i a3 h3 a4 h4 a5 h5 a6 h6 a7 h7 a8 h8 a9 h9 a10 h10 a11 h11 hc0 hc1 hc2 x0 x1 x2 xs0 xs1 xs2 xs3 = xs0 := by
  rfl
/-- The remainder copy is kept. -/
theorem mid_lo (hc0 : ¬cond0_0 i) (hc1 : ¬cond0_1 i) (hc2 : ¬cond0_2 i) :
    sout0_B_1 c i a3 h3 a4 h4 a5 h5 a6 h6 a7 h7 a8 h8 a9 h9 a10 h10 a11 h11 hc0 hc1 hc2 x0 x1 x2 xs0 xs1 xs2 xs3 = xs1 := by
  rfl
/-- The first running sum grows by this point's chunk sum over the kept copies. -/
theorem mid_acc0 (hc0 : ¬cond0_0 i) (hc1 : ¬cond0_1 i) (hc2 : ¬cond0_2 i) :
    sout0_B_2 c i a3 h3 a4 h4 a5 h5 a6 h6 a7 h7 a8 h8 a9 h9 a10 h10 a11 h11 hc0 hc1 hc2 x0 x1 x2 xs0 xs1 xs2 xs3 = acc0Next xs0 xs1 x1 xs2 := by
  unfold sout0_B_2
  rw [View.read_writes_eq_canon _ _ _ (scover0_B_2 c i a3 h3 a4 h4 a5 h5 a6 h6 a7 h7 a8 h8 a9 h9 a10 h10 a11 h11 hc0 hc1 hc2 x0 x1 x2 xs0 xs1 xs2 xs3)]
  unfold kernelRun0_B
  dsimp only
  sl_unfold_words
  rw [View.canon_unit_zero hz2]
  unfold acc0Next part0
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The second running sum grows likewise. -/
theorem mid_acc1 (hc0 : ¬cond0_0 i) (hc1 : ¬cond0_1 i) (hc2 : ¬cond0_2 i) :
    sout0_B_3 c i a3 h3 a4 h4 a5 h5 a6 h6 a7 h7 a8 h8 a9 h9 a10 h10 a11 h11 hc0 hc1 hc2 x0 x1 x2 xs0 xs1 xs2 xs3 = acc1Next xs0 xs1 x2 xs3 := by
  unfold sout0_B_3
  rw [View.read_writes_eq_canon _ _ _ (scover0_B_3 c i a3 h3 a4 h4 a5 h5 a6 h6 a7 h7 a8 h8 a9 h9 a10 h10 a11 h11 hc0 hc1 hc2 x0 x1 x2 xs0 xs1 xs2 xs3)]
  unfold kernelRun0_B
  dsimp only
  sl_unfold_words
  rw [View.canon_unit_zero hz2]
  unfold acc1Next part1
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]

/-! ## A sample's last point: as a middle point, and the sums go out -/

/-- The leading copy is kept. -/
theorem last_hi (hc0 : ¬cond0_0 i) (hc1 : ¬cond0_1 i) (hc2 : cond0_2 i) :
    sout0_D_0 c i a3 h3 a4 h4 a5 h5 a6 h6 a7 h7 a8 h8 a9 h9 a10 h10 a11 h11 hc0 hc1 hc2 x0 x1 x2 xs0 xs1 xs2 xs3 = xs0 := by
  rfl
/-- The remainder copy is kept. -/
theorem last_lo (hc0 : ¬cond0_0 i) (hc1 : ¬cond0_1 i) (hc2 : cond0_2 i) :
    sout0_D_1 c i a3 h3 a4 h4 a5 h5 a6 h6 a7 h7 a8 h8 a9 h9 a10 h10 a11 h11 hc0 hc1 hc2 x0 x1 x2 xs0 xs1 xs2 xs3 = xs1 := by
  rfl
/-- The first running sum grows by this point's chunk sum. -/
theorem last_acc0 (hc0 : ¬cond0_0 i) (hc1 : ¬cond0_1 i) (hc2 : cond0_2 i) :
    sout0_D_2 c i a3 h3 a4 h4 a5 h5 a6 h6 a7 h7 a8 h8 a9 h9 a10 h10 a11 h11 hc0 hc1 hc2 x0 x1 x2 xs0 xs1 xs2 xs3 = acc0Next xs0 xs1 x1 xs2 := by
  unfold sout0_D_2
  rw [View.read_writes_eq_canon _ _ _ (scover0_D_2 c i a3 h3 a4 h4 a5 h5 a6 h6 a7 h7 a8 h8 a9 h9 a10 h10 a11 h11 hc0 hc1 hc2 x0 x1 x2 xs0 xs1 xs2 xs3)]
  unfold kernelRun0_D
  dsimp only
  sl_unfold_words
  rw [View.canon_unit_zero hz2]
  unfold acc0Next part0
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The second running sum grows likewise. -/
theorem last_acc1 (hc0 : ¬cond0_0 i) (hc1 : ¬cond0_1 i) (hc2 : cond0_2 i) :
    sout0_D_3 c i a3 h3 a4 h4 a5 h5 a6 h6 a7 h7 a8 h8 a9 h9 a10 h10 a11 h11 hc0 hc1 hc2 x0 x1 x2 xs0 xs1 xs2 xs3 = acc1Next xs0 xs1 x2 xs3 := by
  unfold sout0_D_3
  rw [View.read_writes_eq_canon _ _ _ (scover0_D_3 c i a3 h3 a4 h4 a5 h5 a6 h6 a7 h7 a8 h8 a9 h9 a10 h10 a11 h11 hc0 hc1 hc2 x0 x1 x2 xs0 xs1 xs2 xs3)]
  unfold kernelRun0_D
  dsimp only
  sl_unfold_words
  rw [View.canon_unit_zero hz2]
  unfold acc1Next part1
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The first output block receives the first running sum as it stands after this point. -/
theorem last_out0 (hc0 : ¬cond0_0 i) (hc1 : ¬cond0_1 i) (hc2 : cond0_2 i) :
    out0_D_3 c i a3 h3 a4 h4 a5 h5 a6 h6 a7 h7 a8 h8 a9 h9 a10 h10 a11 h11 hc0 hc1 hc2 x0 x1 x2 xs0 xs1 xs2 xs3 = k0_pay3 (acc0Next xs0 xs1 x1 xs2) := by
  unfold out0_D_3
  rw [View.read_writes_eq_canon _ _ _ (cover0_D_3 c i a3 h3 a4 h4 a5 h5 a6 h6 a7 h7 a8 h8 a9 h9 a10 h10 a11 h11 hc0 hc1 hc2 x0 x1 x2 xs0 xs1 xs2 xs3)]
  unfold kernelRun0_D
  dsimp only
  sl_unfold_words
  rw [View.canon_unit_zero hz3]
  unfold acc0Next part0
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]
/-- The second output block receives the second running sum as it stands after this point. -/
theorem last_out1 (hc0 : ¬cond0_0 i) (hc1 : ¬cond0_1 i) (hc2 : cond0_2 i) :
    out0_D_4 c i a3 h3 a4 h4 a5 h5 a6 h6 a7 h7 a8 h8 a9 h9 a10 h10 a11 h11 hc0 hc1 hc2 x0 x1 x2 xs0 xs1 xs2 xs3 = k0_pay4 (acc1Next xs0 xs1 x2 xs3) := by
  unfold out0_D_4
  rw [View.read_writes_eq_canon _ _ _ (cover0_D_4 c i a3 h3 a4 h4 a5 h5 a6 h6 a7 h7 a8 h8 a9 h9 a10 h10 a11 h11 hc0 hc1 hc2 x0 x1 x2 xs0 xs1 xs2 xs3)]
  unfold kernelRun0_D
  dsimp only
  sl_unfold_words
  rw [View.canon_unit_zero hz3]
  unfold acc1Next part1
  simp only [View.readAt_eq_ld, h3.read_unread, h4.read_unread, h5.read_unread, h8.read_unread, h9.read_unread,
    h10.read_unread, h11.read_unread, View.ld_unit_zero (S := S1x1x512x512) hz4, View.ld_unit_zero (S := S1x1x4x2048) hz4,
    View.ld_unit_zero (S := S512x512) hz2, View.ld_unit_zero (S := S8x128) hz2,
    View.readCov_unit_zero (S := S512x512) _ hz2, View.readCov_unit_zero (S := S8x128) _ hz2, shapeCast_self]

end Cert.KernelIdeal.Pieces

end
-- ==== Proof.LibLayout.lean ====
import Idealize.ShloMosaic.Lib.ValueIdx
import Idealize.ShloMosaic.Lib.ValueLayout
import Idealize.ShloMosaic.Lib.Pipeline.Value
import Idealize.ShloMosaic.PureOps.Ideal.Laws

/-!
Layout operations on matrices read at an index, in the forms a row-wise reduction with kept dimensions needs:
a sum along the columns read at a row, a vector viewed as a one-column matrix, and a one-column matrix laid along
every column. Nothing here mentions a program.
-/

namespace LibLayout

open Idealize.ShloMosaic Idealize.ShloMosaic.ValueIdx
open scoped BigOperators

/-- Over a matrix reduced along its columns, the index above row `r` with column `k` inserted is `(r, k)`. -/
theorem lift_cols {n0 n1 : ℕ} (h : (⟨2, ![n0, n1]⟩ : Shape).Reduces [1] ⟨1, ![n0]⟩) (r : Fin n0) (k : Fin n1) :
    h.lift (ix1 r) k = ix2 r k := by
  funext c
  apply Fin.ext
  show h.liftVal (ix1 r) k.val c = (ix2 r k c).val
  unfold Shape.Reduces.liftVal
  match c with
  | ⟨0, _⟩ => simp
  | ⟨1, _⟩ => simp

/-- The sum along the columns of an `f32` matrix of extended reals, read at row `r`, is `∑ k, src (r, k)`. The
accumulator's equation is typed as a program prints it (`0 = 0`), so the lemma rewrites a printed term. -/
theorem rowsum_apply {n0 n1 : ℕ} (src : FVec Ideal (⟨2, ![n0, n1]⟩ : Shape) .f32)
    (h : (⟨2, ![n0, n1]⟩ : Shape).Reduces [1] ⟨1, ![n0]⟩) (hφ : FKind.Formats .f32)
    (hacc : (0x00000000#32 : BitVec 32) = 0x00000000#32) (r : Fin n0) :
    multiReduction .add [1] ⟨1, ![n0]⟩ src 0x00000000#32 h hφ hacc (ix1 r) = ∑ k : Fin n1, src (ix2 r k) := by
  refine (Ideal.multiReduction_add_single src 0x00000000#32 h hφ hacc (ix1 r)).trans ?_
  exact Finset.sum_congr rfl fun k _ => congrArg src (lift_cols h r k)

/-- A vector viewed as a one-column matrix: entry `(r, 0)` is entry `r`. -/
theorem shapeCast_col_apply {α : Type} {n0 : ℕ} (x : (⟨1, ![n0]⟩ : Shape).Idx → α)
    (h : (⟨1, ![n0]⟩ : Shape).ShapeCasts ⟨2, ![n0, 1]⟩) (r : Fin n0) (n : Fin 1) :
    shapeCast ⟨2, ![n0, 1]⟩ x h (ix2 r n) = x (ix1 r) := by
  refine shapeCast_apply x h (ix2 r n) (ix1 r) ?_
  rewrite [Shape.rowMajor_val_one, Shape.rowMajor_val_two]
  have hn : n.val < 1 := n.isLt
  show r.val = r.val * 1 + n.val
  omega

/-- A one-column matrix viewed as a vector: entry `r` is entry `(r, 0)`. -/
theorem shapeCast_uncol_apply {α : Type} {n0 : ℕ} (x : (⟨2, ![n0, 1]⟩ : Shape).Idx → α)
    (h : (⟨2, ![n0, 1]⟩ : Shape).ShapeCasts ⟨1, ![n0]⟩) (r : Fin n0) :
    shapeCast ⟨1, ![n0]⟩ x h (ix1 r) = x (ix2 r (0 : Fin 1)) := by
  refine shapeCast_apply x h (ix1 r) (ix2 r (0 : Fin 1)) ?_
  rewrite [Shape.rowMajor_val_one, Shape.rowMajor_val_two]
  show r.val * 1 + 0 = r.val
  omega

/-- An `[a, 1]` matrix broadcast to `[a, b]` reads, at `(p, c)`, the operand's one column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An entry of a one-column matrix depends on the row only. -/
theorem col_eq_zero {α : Type} {a : ℕ} (v : (⟨2, ![a, 1]⟩ : Shape).Idx → α) (p : Fin a) (n : Fin 1) :
    v (ix2 p n) = v (ix2 p (0 : Fin 1)) := by
  rw [Fin.fin_one_eq_zero n]

/-! ## Integer operations read at an index -/

section Words
variable {s : Shape} {w : ℕ}

/-- A lane-wise integer sum at an index. -/
theorem addi_apply (a b : IVec s w) (i : s.Idx) : addi a b i = IntOp.addi (a i) (b i) := rfl
/-- A lane-wise integer difference at an index. -/
theorem subi_apply (a b : IVec s w) (i : s.Idx) : subi a b i = IntOp.subi (a i) (b i) := rfl
/-- A lane-wise integer product at an index. -/
theorem muli_apply (a b : IVec s w) (i : s.Idx) : muli a b i = IntOp.muli (a i) (b i) := rfl
/-- A lane-wise signed maximum at an index. -/
theorem maxsi_apply (a b : IVec s w) (i : s.Idx) : maxsi a b i = IntOp.maxsi (a i) (b i) := rfl
/-- A lane-wise signed minimum at an index. -/
theorem minsi_apply (a b : IVec s w) (i : s.Idx) : minsi a b i = IntOp.minsi (a i) (b i) := rfl
/-- A lane-wise integer comparison at an index. -/
theorem cmpi_apply (p : CmpIPredicate) (a b : IVec s w) (i : s.Idx) : cmpi p a b i = IntOp.cmpi p (a i) (b i) := rfl

end Words

/-- The lane number of a matrix: a `tpu.iota` along the columns reads the column as a word. -/
theorem iota_cols_apply {n0 n1 w : ℕ} (κ : Kind) (h : (⟨2, ![n0, n1]⟩ : Shape).Iotas κ w [1]) (r : Fin n0) (k : Fin n1) :
    iota κ ⟨2, ![n0, n1]⟩ w [1] h (ix2 r k) = BitVec.ofNat w k.val :=
  iota_single_apply κ _ w 1 h (ix2 r k)

end LibLayout
-- ==== Proof.LibOneHot.lean ====
/-
  One-hot selection over the extended reals, and a pointwise property carried through a sort.

  A gather written as a matrix product: row `r` of the left factor is the indicator of one position, so the
  product's entry is the sum over positions `p` of `[v = p] · X p`, which is `X v` when `v` is one of the positions
  summed over and `0` otherwise (on the extended reals `0 · x = 0` and `1 · x = x` for every `x`, the infinities
  included, so nothing is asked of `X`). Summed chunk by chunk into an accumulator that starts at zero, the
  accumulator after the chunks below `B` is `X v` if `v < B` and `0` otherwise.

  A stable sort along an axis only permutes each fibre, so whatever holds of every entry of the operand holds of
  every entry of the result.
-/
import Idealize.ShloMosaic.PureOps.Ideal
import Idealize.ShloMosaic.PureOps.ShapeOps

noncomputable section

namespace Cert.Lib.OneHot

open Idealize.ShloMosaic

/-- Whatever holds of every entry of a sort's operand holds of every entry of its result: each result entry IS an
    operand entry (of the same fibre). -/
theorem sort_forall {s : Shape} {d : Nat} {α : Type} (cmp : α → α → BitVec 1) (x : s.Idx → α) (P : α → Prop)
    (h : ∀ i, P (x i)) (j : s.Idx) : P (Host.sort s d cmp x j) := by
  by_cases hd : d < s.rank
  · simp only [Host.sort, dif_pos hd]; exact h _
  · simp only [Host.sort, dif_neg hd]; exact h _

/-- The integer compare for equality answers `1` exactly at equal words. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp only [hb]
    constructor
    · intro e; exact absurd e (by decide)
    · intro e; exact absurd e h

/-- The equality bit of two 32-bit words, widened to 32 bits and read as a signed integer, is `1` or `0`. -/
theorem eqBit_toInt (x y : BitVec 32) : ((IntOp.cmpi .eq x y).setWidth 32).toInt = if x = y then 1 else 0 := by
  unfold IntOp.cmpi
  by_cases h : x = y
  · subst h; simp
  · have hb : (x == y) = false := by simpa using h
    show ((BitVec.ofBool (x == y)).setWidth 32).toInt = _
    rw [hb, if_neg h]
    decide

/-- THE ONE-HOT SUM. Over the `n` positions `o, …, o + n − 1`, the sum of `[v = position] · X position` is `X v` when
    `v` is one of them, else `0`. -/
theorem sum_onehot {n : ℕ} (v : BitVec 32) (o : ℕ) (ho : o + n ≤ 2 ^ 32) (X : ℕ → EReal) :
    ∑ j : Fin n, (if v = BitVec.ofNat 32 (o + j.val) then (1 : EReal) else 0) * X (o + j.val)
      = if o ≤ v.toNat ∧ v.toNat < o + n then X v.toNat else 0 := by
  have hne : ∀ j : Fin n, v.toNat ≠ o + j.val → v ≠ BitVec.ofNat 32 (o + j.val) := by
    intro j hj e
    apply hj
    have := congrArg BitVec.toNat e
    rw [BitVec.toNat_ofNat, Nat.mod_eq_of_lt (by have := j.isLt; omega)] at this
    exact this
  split
  · rename_i h
    rw [Finset.sum_eq_single (⟨v.toNat - o, by omega⟩ : Fin n)]
    · have e : o + (v.toNat - o) = v.toNat := by omega
      have hv : v = BitVec.ofNat 32 (o + (v.toNat - o)) := by
        rw [e]; apply BitVec.eq_of_toNat_eq; rw [BitVec.toNat_ofNat, Nat.mod_eq_of_lt v.isLt]
      rw [if_pos hv, one_mul, e]
    · intro j _ hj
      rw [if_neg (hne j (fun e => hj (Fin.ext (by simp only; omega)))), zero_mul]
    · intro h'; exact absurd (Finset.mem_univ _) h'
  · rename_i h
    refine Finset.sum_eq_zero fun j _ => ?_
    rw [if_neg (hne j (fun e => h (by have := j.isLt; omega))), zero_mul]

/-- ONE CHUNK MORE. The accumulator over the positions below `o`, plus the one-hot sum over the next `n`
    positions, is the accumulator over the positions below `o + n`. -/
theorem upto_add (v : BitVec 32) (o n : ℕ) (X : ℕ → EReal) :
    (if v.toNat < o then X v.toNat else 0) + (if o ≤ v.toNat ∧ v.toNat < o + n then X v.toNat else 0)
      = if v.toNat < o + n then X v.toNat else 0 := by
  by_cases h1 : v.toNat < o
  · rw [if_pos h1, if_neg (by omega), if_pos (by omega), add_zero]
  · by_cases h2 : v.toNat < o + n
    · rw [if_neg h1, if_pos ⟨by omega, h2⟩, if_pos h2, zero_add]
    · rw [if_neg h1, if_neg (by omega), if_neg h2, add_zero]

end Cert.Lib.OneHot

end
-- ==== Proof.LibExtReal.lean ====
import Mathlib.Data.EReal.Operations
import Mathlib.Data.EReal.Inv
import Mathlib.Algebra.BigOperators.Fin
import Mathlib.Algebra.BigOperators.Group.Finset.Basic
import Idealize.ShloMosaic.PureOps.Ideal

/-!
General facts about sums of extended reals and about the logistic function at the exact
(extended-real) reading of floats. Nothing here mentions a program.

* a nonnegative finite scalar distributes over a finite sum of ARBITRARY extended reals;
* the logistic function takes values in `[0, 1]`, in particular it is nonnegative and never `⊤`;
* the logistic function is the expression `1 / (1 + exp (-x))`, in the kernel's spelling and in the host's;
* a sum over `Fin (a + b)` splits into the sum over the first `a` and the sum over the last `b` indices;
* a one-hot sum reads the selected term;
* `x * (1 / y) = x / y` for a divisor that is not zero.
-/

namespace LibExtReal

open Idealize.ShloMosaic
open scoped BigOperators

/-! ## A nonnegative finite scalar distributes over a finite sum -/

/-- For `0 ≤ s < ⊤`, `s * Σ a = Σ s * a` over any finite set, with no condition on the terms: the binary law is
`EReal.left_distrib_of_nonneg_of_ne_top`, and the empty sum is `s * 0 = 0`. -/
theorem mul_finset_sum_of_nonneg_ne_top {ι : Type*} (t : Finset ι) (s : EReal) (hs : 0 ≤ s) (hs' : s ≠ ⊤)
    (a : ι → EReal) : s * ∑ k ∈ t, a k = ∑ k ∈ t, s * a k := by
  classical
  induction t using Finset.induction_on with
  | empty => simp
  | insert i t hi ih =>
    rw [Finset.sum_insert hi, Finset.sum_insert hi, EReal.left_distrib_of_nonneg_of_ne_top hs hs', ih]

/-- For `0 ≤ s < ⊤`, `s * Σ_k a k = Σ_k s * a k` over a finite type, with no condition on the terms. -/
theorem mul_sum_of_nonneg_ne_top {ι : Type*} [Fintype ι] (s : EReal) (hs : 0 ≤ s) (hs' : s ≠ ⊤) (a : ι → EReal) :
    s * ∑ k, a k = ∑ k, s * a k :=
  mul_finset_sum_of_nonneg_ne_top Finset.univ s hs hs' a

/-- The same with the scalar on the right of every product. -/
theorem sum_mul_of_nonneg_ne_top {ι : Type*} [Fintype ι] (s : EReal) (hs : 0 ≤ s) (hs' : s ≠ ⊤) (a : ι → EReal) :
    (∑ k, a k) * s = ∑ k, a k * s := by
  rw [mul_comm, mul_sum_of_nonneg_ne_top s hs hs']
  exact Finset.sum_congr rfl fun k _ => mul_comm _ _

/-! ## The logistic function -/

/-- The logistic function is nonnegative: `0` at `⊥`, `1` at `⊤`, the inverse of a positive real elsewhere. -/
theorem logistic_nonneg (x : EReal) : 0 ≤ Ideal.logistic x := by
  induction x using EReal.rec with
  | bot => rw [Ideal.logistic_bot]
  | coe r =>
    rw [Ideal.logistic_coe]
    exact EReal.coe_nonneg.mpr (inv_nonneg.mpr (by positivity))
  | top => rw [Ideal.logistic_top]; exact zero_le_one

/-- The logistic function is never `⊤`. -/
theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top 1

/-- The logistic function is never `⊥`. -/
theorem logistic_ne_bot (x : EReal) : Ideal.logistic x ≠ ⊥ :=
  ne_of_gt (lt_of_lt_of_le EReal.bot_lt_zero (logistic_nonneg x))

/-- The logistic function is at most one. -/
theorem logistic_le_one (x : EReal) : Ideal.logistic x ≤ 1 := by
  induction x using EReal.rec with
  | bot => rw [Ideal.logistic_bot]; exact zero_le_one
  | coe r =>
    rw [Ideal.logistic_coe, ← EReal.coe_one]
    refine EReal.coe_le_coe_iff.mpr (inv_le_one_of_one_le₀ ?_)
    have : 0 < Real.exp (-r) := Real.exp_pos _
    linarith
  | top => rw [Ideal.logistic_top]

/-- Both facts a scalar needs in order to distribute over a sum of arbitrary extended reals. -/
theorem logistic_nonneg_ne_top (x : EReal) : 0 ≤ Ideal.logistic x ∧ Ideal.logistic x ≠ ⊤ :=
  ⟨logistic_nonneg x, logistic_ne_top x⟩

/-- The kernel's vector logistic at an index is the logistic function of the element. -/
theorem logistic_apply {s : Shape} {φ : FTy} (v : FVec Ideal s φ) (i : s.Idx) :
    logistic v i = Ideal.logistic (v i) := rfl

/-- The kernel's vector logistic at an index is nonnegative. -/
theorem logistic_apply_nonneg {s : Shape} {φ : FTy} (v : FVec Ideal s φ) (i : s.Idx) : (0 : EReal) ≤ logistic v i :=
  logistic_nonneg (v i)

/-- The kernel's vector logistic at an index is not `⊤`. -/
theorem logistic_apply_ne_top {s : Shape} {φ : FTy} (v : FVec Ideal s φ) (i : s.Idx) : logistic v i ≠ (⊤ : EReal) :=
  logistic_ne_top (v i)

/-- The logistic function IS `1 / (1 + exp (-x))` with the division and exponential of the exact reading. -/
theorem div_one_add_exp_neg (x : EReal) : Ideal.div 1 (1 + Ideal.exp (-x)) = Ideal.logistic x := rfl

/-- The host's four operations `1 / (1 + exp (-z))` on elements, the two ones being any elements equal to one, are the
logistic function of the element. -/
theorem host_logistic_elt {φ : FTy} (c d z : Ideal φ) (hc : c = (1 : EReal)) (hd : d = (1 : EReal)) :
    FloatOps.hostDivf c (FloatOps.addf d (FloatOps.hostUnary .exp (FloatOps.hostNegf z))) = Ideal.logistic z := by
  subst hc; subst hd; rfl

/-- The host's four array operations `1 / (1 + exp (-z))` read at an index, the two arrays of ones being any arrays
that read one there, are the logistic function of the element: the kernel's one operation and the host's four meet. -/
theorem host_logistic_apply {s : Shape} {φ : FTy} (c d z : FVec Ideal s φ) (i : s.Idx) (hc : c i = (1 : EReal))
    (hd : d i = (1 : EReal)) :
    Host.divf c (addf d (Host.exp (Host.negf z))) i = Ideal.logistic (z i) :=
  host_logistic_elt (c i) (d i) (z i) hc hd

/-! ## Splitting a sum over an initial segment and the rest -/

/-- A sum over `Fin N` with `a + b = N` is the sum over the first `a` indices plus the sum over the last `b`
(`Fin.sum_univ_add` with the indices spelled as literal pairs). -/
theorem sum_fin_split {M : Type*} [AddCommMonoid M] (a b N : ℕ) (h : a + b = N) (f : Fin N → M) :
    ∑ k : Fin N, f k
      = ∑ k : Fin a, f ⟨k.val, lt_of_lt_of_le k.isLt (h ▸ Nat.le_add_right a b)⟩
        + ∑ k : Fin b, f ⟨a + k.val, h ▸ Nat.add_lt_add_left k.isLt a⟩ := by
  subst h
  rw [Fin.sum_univ_add]
  rfl

/-! ## One-hot sums -/

/-- A sum whose terms vanish off one index reads that index's term. -/
theorem sum_ite_eq_single {ι : Type*} [Fintype ι] [DecidableEq ι] (j : ι) (a : ι → EReal) :
    ∑ k, (if k = j then a k else 0) = a j := by
  rw [Finset.sum_ite_eq' Finset.univ j a, if_pos (Finset.mem_univ j)]

/-- The same with the equation written the other way round. -/
theorem sum_ite_eq_single' {ι : Type*} [Fintype ι] [DecidableEq ι] (j : ι) (a : ι → EReal) :
    ∑ k, (if j = k then a k else 0) = a j := by
  rw [Finset.sum_ite_eq Finset.univ j a, if_pos (Finset.mem_univ j)]

/-- A sum masked by a predicate that holds at exactly one index reads that index's term. -/
theorem sum_ite_of_iff {ι : Type*} [Fintype ι] [DecidableEq ι] (p : ι → Prop) [DecidablePred p] (j : ι)
    (hp : ∀ k, p k ↔ k = j) (a : ι → EReal) : ∑ k, (if p k then a k else 0) = a j := by
  rw [← sum_ite_eq_single j a]
  refine Finset.sum_congr rfl fun k _ => ?_
  by_cases hk : k = j
  · rw [if_pos ((hp k).mpr hk), if_pos hk]
  · rw [if_neg (fun h => hk ((hp k).mp h)), if_neg hk]

/-! ## A product with a reciprocal -/

/-- `x * (1 / y) = x / y` for a divisor that is not zero (at zero both sides are junk values and differ). -/
theorem mul_one_div {x y : EReal} (hy : y ≠ 0) : x * Ideal.div 1 y = Ideal.div x y := by
  unfold Ideal.div; rw [if_neg hy, if_neg hy, one_mul]

/-- The same in the operations' spelling: `mulf x (divf 1 y) = divf x y`, the one being any element equal to one. -/
theorem mulf_divf_one {φ : FTy} (x c y : Ideal φ) (hc : c = (1 : EReal)) (hy : y ≠ (0 : EReal)) :
    FloatOps.mulf x (FloatOps.divf c y) = FloatOps.divf x y := by
  subst hc; exact mul_one_div hy

end LibExtReal
-- ==== Proof.KArith.lean ====
/-
  The per-point step functions read on the extended reals.

  With exact arithmetic the image's "leading part" is the image itself and its "remainder" is the image minus itself,
  which is zero for real entries.  A look-up of row `r`, column `s` is the sum over rows `h` of [r = h] · hi[h, w]
  plus the same over `lo`, then the sum over columns `w` of that times [s = w]: a sum in which every term but one
  vanishes, so it is hi[r, s] + lo[r, s] = hi[r, s] when `lo` is zero and `r`, `s` are below 512.  A chunk sum is the sum
  over the chunk's 2048 intervals of the squared difference of two look-ups.
-/
import proofs.«419365_j60447369724095_4_alg».proof.Proof.KDefs
import proofs.«419365_j60447369724095_4_alg».proof.Proof.Spec
import proofs.«419365_j60447369724095_4_alg».proof.Proof.LibRealArith
import proofs.«419365_j60447369724095_4_alg».proof.Proof.LibLayout
import proofs.«419365_j60447369724095_4_alg».proof.Proof.LibOneHot
import proofs.«419365_j60447369724095_4_alg».proof.Proof.LibExtReal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Arith

open Idealize.ShloMosaic Idealize.ShloMosaic.TcCoe Idealize.ShloMosaic.ValueIdx
open Cert.KernelIdeal Cert.KernelIdeal.Gen Cert.KernelIdeal.Step Cert.Lib.RealArith BirthDeath

/-- The entry of a 512 × 512 array that two words name (each word reduced mod 512). -/
def look (hi : Vec Ideal S512x512 .bf16) (r s : BitVec 32) : EReal := hi (ix2 (px r) (px s))

/-- The chunk sum over an index block `x` of shape [1, 1, 4, 2048]: row `j` of the block holds, for each of the 2048
    intervals, the birth row (j = 0), birth column (1), death row (2), death column (3). -/
def chunkOf (hi : Vec Ideal S512x512 .bf16) (x : Vec Ideal S1x1x4x2048 .i32) : EReal :=
  ∑ q : Fin 2048,
    (look hi (x (ix4 0 0 0 q)) (x (ix4 0 0 1 q)) - look hi (x (ix4 0 0 2 q)) (x (ix4 0 0 3 q))) *
    (look hi (x (ix4 0 0 0 q)) (x (ix4 0 0 1 q)) - look hi (x (ix4 0 0 2 q)) (x (ix4 0 0 3 q)))

variable (hi lo : Vec Ideal S512x512 .bf16) (x : Vec Ideal S1x1x4x2048 .i32) (a : Vec Ideal S8x128 .f32)
  (x0 : Vec Ideal S1x1x512x512 .f32)

/-- A `[1, 1, a, b]` array viewed as `[a, b]` reads, at `(i, j)`, the operand at `(0, 0, i, j)`. -/
theorem shapeCast_11ab_ab_apply {α : Type} {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp)

/-- The image block viewed as a matrix reads, at `(p, q)`, the block at `(0, 0, p, q)`. -/
theorem pay5_apply (p q : Fin 512) : k0_pay5 (F := Ideal) x0 (ix2 p q) = x0 (ix4 0 0 p q) :=
  shapeCast_11ab_ab_apply x0 _ p q

/-- The leading copy of an image block is the block, re-indexed. -/
theorem hiOf_eq : hiOf (F := Ideal) x0 = fun y => x0 (ix4 0 0 (y 0) (y 1)) := by
  funext y
  obtain ⟨p, q, rfl⟩ : ∃ (p : Fin 512) (q : Fin 512), y = ix2 p q := ⟨y 0, y 1, eq_ix2 y⟩
  show shapeCast S512x512 (truncf .bf16 (k0_pay5 x0) bitsLt_bf16_f32) shapeCasts_S512x512_S512x512 (ix2 p q) = _
  rw [shapeCast_self, truncf_apply]
  exact pay5_apply x0 p q

/-- The remainder copy of an image block with real entries is zero. -/
theorem loOf_eq (hx0 : ∀ y, IsReal (x0 y)) : loOf (F := Ideal) x0 = fun _ => (0 : EReal) := by
  funext y
  show shapeCast S512x512 (truncf .bf16 (subf (k0_pay5 x0) (k0_pay5 x0)) bitsLt_bf16_f32)
    shapeCasts_S512x512_S512x512 y = 0
  rw [shapeCast_self, truncf_apply, subf_apply]
  obtain ⟨r, hr⟩ : IsReal (k0_pay5 x0 y) := hx0 _
  rw [hr, ← EReal.coe_sub, sub_self, EReal.coe_zero]

/-- The restart value of the first running sum is zero. -/
theorem zero0_eq : (k0_pay8 (F := Ideal)) = fun _ => (0 : EReal) := by
  funext y
  show shapeCast S8x128 (broadcast S8x128 (Scalar.ofBits (F := Ideal) .f32 0x00000000#32)) shapeCasts_S8x128_S8x128 y = 0
  rw [shapeCast_self, broadcast_apply]
  exact Ideal.ofBits_zero_f32

/-- The restart value of the second running sum is zero. -/
theorem zero1_eq : (k0_pay9 (F := Ideal)) = fun _ => (0 : EReal) := by
  funext y
  show shapeCast S8x128 (broadcast S8x128 (Scalar.ofBits (F := Ideal) .f32 0x00000000#32)) shapeCasts_S8x128_S8x128 y = 0
  rw [shapeCast_self, broadcast_apply]
  exact Ideal.ofBits_zero_f32

/-! ## The 0/1 matrix of a column of words -/

/-- The 0/1 matrix of a column of 2048 words: entry `(q, h)` says whether word `q` is the lane number `h`. -/
def sel (r : IVec S2048x1 32) : FVec Ideal S2048x512 .f32 :=
  sitofp .f32 (extui 32 (cmpi .eq (broadcastTo S2048x512 r broadcasts_S2048x1_S2048x512)
    (broadcastTo S2048x512 lanes broadcasts_S1x512_S2048x512)) natLt_1_32)

/-- Lane `h` of the lane numbers is the word `h`. -/
theorem lanes_apply (u : Fin 1) (h : Fin 512) : lanes (ix2 u h) = BitVec.ofNat 32 h.val :=
  LibLayout.iota_cols_apply .tc _ u h

/-- Entry `(q, h)` of the 0/1 matrix is one when word `q` is `h`, else zero. -/
theorem sel_apply (r : IVec S2048x1 32) (q : Fin 2048) (h : Fin 512) :
    sel r (ix2 q h) = if r (ix2 q 0) = BitVec.ofNat 32 h.val then (1 : EReal) else 0 := by
  unfold sel
  rw [sitofp_apply, extui_apply, LibLayout.cmpi_apply, LibLayout.broadcastTo_col_apply, broadcastTo_1b_ab_apply,
    lanes_apply]
  show (((((IntOp.cmpi .eq (r (ix2 q 0)) (BitVec.ofNat 32 h.val)).setWidth 32).toInt : ℝ)) : EReal) = _
  rw [Cert.Lib.OneHot.eqBit_toInt]
  split
  · simp
  · simp

/-- A word below 512 is lane number `h` exactly when `h` is the word's value. -/
theorem eq_ofNat_iff (v : BitVec 32) (hv : v.toNat < 512) (h : Fin 512) :
    v = BitVec.ofNat 32 h.val ↔ h = ⟨v.toNat, hv⟩ := by
  constructor
  · intro e
    apply Fin.ext
    show h.val = v.toNat
    rw [e, BitVec.toNat_ofNat]
    exact (Nat.mod_eq_of_lt (by have := h.isLt; omega)).symm
  · intro e
    subst e
    exact (BitVec.ofNat_toNat 32 v).symm ▸ rfl

/-- A sum against the indicator of one word's lane reads that lane's term. -/
theorem sum_sel (v : BitVec 32) (hv : v.toNat < 512) (X : Fin 512 → EReal) :
    ∑ h : Fin 512, (if v = BitVec.ofNat 32 h.val then (1 : EReal) else 0) * X h = X ⟨v.toNat, hv⟩ := by
  have e : ∀ h : Fin 512, (if v = BitVec.ofNat 32 h.val then (1 : EReal) else 0) * X h
      = if v = BitVec.ofNat 32 h.val then X h else 0 := by
    intro h
    split
    · exact one_mul _
    · exact zero_mul _
  rw [Finset.sum_congr rfl fun h _ => e h]
  exact LibExtReal.sum_ite_of_iff (fun h : Fin 512 => v = BitVec.ofNat 32 h.val) ⟨v.toNat, hv⟩ (eq_ofNat_iff v hv) X

/-- A word below 512 names the pixel coordinate of its own value. -/
theorem px_eq (v : BitVec 32) (hv : v.toNat < 512) : px v = ⟨v.toNat, hv⟩ := Fin.ext (px_val_of_lt hv)

/-! ## A product with the 0/1 matrix selects rows -/

/-- The left operand's index of the product, on its row axis: the output's row. -/
theorem lhs_dot_0 (j : S2048x512.Idx) (k : dot_S2048x512_S512x512_S2048x512_1_0_0_1_n_n.contr.Idx) :
    (dot_S2048x512_S512x512_S2048x512_1_0_0_1_n_n.lhsIdx j k 0).val = (j 0).val := by
  simp [DotDims.lhsIdx, dot_S2048x512_S512x512_S2048x512_1_0_0_1_n_n]
  rfl

/-- The left operand's index of the product, on its column axis: the contraction position. -/
theorem lhs_dot_1 (j : S2048x512.Idx) (k : dot_S2048x512_S512x512_S2048x512_1_0_0_1_n_n.contr.Idx) :
    (dot_S2048x512_S512x512_S2048x512_1_0_0_1_n_n.lhsIdx j k 1).val = (k ⟨0, by decide⟩).val :=
  dot_S2048x512_S512x512_S2048x512_1_0_0_1_n_n.lhsIdx_val_of_single rfl j k

/-- The right operand's index of the product, on its row axis: the contraction position. -/
theorem rhs_dot_0 (j : S2048x512.Idx) (k : dot_S2048x512_S512x512_S2048x512_1_0_0_1_n_n.contr.Idx) :
    (dot_S2048x512_S512x512_S2048x512_1_0_0_1_n_n.rhsIdx j k 0).val = (k ⟨0, by decide⟩).val :=
  dot_S2048x512_S512x512_S2048x512_1_0_0_1_n_n.rhsIdx_val_of_single rfl j k

/-- The right operand's index of the product, on its column axis: the output's column. -/
theorem rhs_dot_1 (j : S2048x512.Idx) (k : dot_S2048x512_S512x512_S2048x512_1_0_0_1_n_n.contr.Idx) :
    (dot_S2048x512_S512x512_S2048x512_1_0_0_1_n_n.rhsIdx j k 1).val = (j 1).val := by
  simp [DotDims.rhsIdx, dot_S2048x512_S512x512_S2048x512_1_0_0_1_n_n]
  rfl

/-- A product into a zero accumulator, read at `(q, w)`: the sum over `h` of left `(q, h)` times right `(h, w)`. -/
theorem mm_apply (A : FVec Ideal S2048x512 .bf16) (M : FVec Ideal S512x512 .bf16) (q : Fin 2048) (w : Fin 512) :
    matmul dot_S2048x512_S512x512_S2048x512_1_0_0_1_n_n none A M (constant (F := Ideal) S2048x512 .f32 0x00000000#32) (ix2 q w)
      = ∑ h : Fin 512, A (ix2 q h) * M (ix2 h w) := by
  refine (Ideal.matmul_constant_zero_apply dot_S2048x512_S512x512_S2048x512_1_0_0_1_n_n none A M (ix2 q w)).trans ?_
  rw [← Equiv.sum_comp (contrEquiv1 dot_S2048x512_S512x512_S2048x512_1_0_0_1_n_n 512 rfl rfl).symm]
  refine Finset.sum_congr rfl fun h _ => ?_
  have hk := contrEquiv1_symm_val dot_S2048x512_S512x512_S2048x512_1_0_0_1_n_n 512 rfl rfl h
  congr 1
  · refine congrArg A (Shape.idx_ext₂ ?_ ?_)
    · exact lhs_dot_0 _ _
    · exact (lhs_dot_1 _ _).trans hk
  · refine congrArg M (Shape.idx_ext₂ ?_ ?_)
    · exact (rhs_dot_0 _ _).trans hk
    · exact rhs_dot_1 _ _

/-! ## A look-up: a row selected by the product, a column by a mask and a lane sum -/

/-- The values looked up at the rows `r` and columns `s` name, in the two arrays `M` and `M'`, added: the rows
    selected by products with the 0/1 matrix of `r`, the column by the 0/1 matrix of `s` and a sum along the lanes. -/
def lk (r s : IVec S2048x1 32) (M M' : FVec Ideal S512x512 .bf16) : FVec Ideal S2048x1 .f32 :=
  shapeCast S2048x1
    (multiReduction (F := Ideal) .add [1] S2048
      (mulf (addf
        (matmul dot_S2048x512_S512x512_S2048x512_1_0_0_1_n_n none (truncf .bf16 (sel r) bitsLt_bf16_f32) M
          (constant (F := Ideal) S2048x512 .f32 0x00000000#32))
        (matmul dot_S2048x512_S512x512_S2048x512_1_0_0_1_n_n none (truncf .bf16 (sel r) bitsLt_bf16_f32) M'
          (constant (F := Ideal) S2048x512 .f32 0x00000000#32)))
        (sel s))
      0x00000000#32 reduces_S2048x512_S2048 (.inl rfl) rfl)
    shapeCasts_S2048_S2048x1

/-- A look-up with both words below 512 reads the two arrays at the pixel the words name. -/
theorem lk_apply (r s : IVec S2048x1 32) (M M' : FVec Ideal S512x512 .bf16) (q : Fin 2048) (n : Fin 1)
    (hr : (r (ix2 q 0)).toNat < 512) (hs : (s (ix2 q 0)).toNat < 512) :
    lk r s M M' (ix2 q n)
      = M (ix2 (px (r (ix2 q 0))) (px (s (ix2 q 0)))) + M' (ix2 (px (r (ix2 q 0))) (px (s (ix2 q 0)))) := by
  unfold lk
  rw [LibLayout.shapeCast_col_apply, LibLayout.rowsum_apply]
  simp only [mulf_apply, addf_apply, mm_apply, truncf_apply, sel_apply]
  rw [px_eq _ hr, px_eq _ hs]
  have hin : ∀ (N : FVec Ideal S512x512 .bf16) (w : Fin 512),
      ∑ h : Fin 512, (if r (ix2 q 0) = BitVec.ofNat 32 h.val then (1 : EReal) else 0) * N (ix2 h w)
        = N (ix2 ⟨(r (ix2 q 0)).toNat, hr⟩ w) := fun N w => sum_sel _ hr fun h => N (ix2 h w)
  rw [Finset.sum_congr rfl fun w _ => by rw [hin M w, hin M' w, mul_comm]]
  exact sum_sel _ hs fun w => M (ix2 ⟨(r (ix2 q 0)).toNat, hr⟩ w) + M' (ix2 ⟨(r (ix2 q 0)).toNat, hr⟩ w)

/-! ## The rows of an index block, as columns of words -/

/-- Row `o` of a [4, 2048] block of words, as a column of 2048 words. -/
def colOf (o : ℕ) (v : IVec S4x2048 32) (h : S4x2048.Slices ![o, 0] S1x2048) : IVec S2048x1 32 :=
  shapeCast S2048x1 (shapeCast S2048 (extractStridedSlice S1x2048 ![o, 0] v h) shapeCasts_S1x2048_S2048)
    shapeCasts_S2048_S2048x1

/-- Entry `q` of the column is entry `(o, q)` of the block. -/
theorem colOf_apply (o : ℕ) (v : IVec S4x2048 32) (h : S4x2048.Slices ![o, 0] S1x2048) (q : Fin 2048) (n : Fin 1)
    (k : Fin 4) (hk : k.val = o) : colOf o v h (ix2 q n) = v (ix2 k q) := by
  unfold colOf
  rw [LibLayout.shapeCast_col_apply, shapeCast_1a_a_apply]
  exact slice2_axis0_apply o v h 0 q k (by rw [hk]; rfl)

/-- The index block viewed as a [4, 2048] matrix reads, at `(k, q)`, the block at `(0, 0, k, q)`. -/
theorem blk_apply (k : Fin 4) (q : Fin 2048) :
    shapeCast S4x2048 x shapeCasts_S1x1x4x2048_S4x2048 (ix2 k q) = x (ix4 0 0 k q) :=
  shapeCast_11ab_ab_apply x _ k q

/-! ## The sum of the squared differences of two columns -/

/-- Over a matrix reduced along its rows, the index above column `c` with row `k` inserted is `(k, c)`. -/
theorem lift_rows {n0 n1 : ℕ} (h : (⟨2, ![n0, n1]⟩ : Shape).Reduces [0] ⟨1, ![n1]⟩) (c : Fin n1) (k : Fin n0) :
    h.lift (ix1 c) k = ix2 k c := by
  funext ax
  apply Fin.ext
  show h.liftVal (ix1 c) k.val ax = (ix2 k c ax).val
  unfold Shape.Reduces.liftVal
  match ax with
  | ⟨0, _⟩ => simp
  | ⟨1, _⟩ => simp

/-- The sum over the 2048 entries of the squared difference of two columns, as a 1 × 1 value. -/
def sqsum (u v : FVec Ideal S2048x1 .f32) : FVec Ideal S1x1 .f32 :=
  shapeCast S1x1 (multiReduction (F := Ideal) .add [0] S1 (mulf (subf u v) (subf u v)) 0x00000000#32
    reduces_S2048x1_S1 (.inl rfl) rfl) shapeCasts_S1_S1x1

/-- Its one entry is that sum. -/
theorem sqsum_apply (u v : FVec Ideal S2048x1 .f32) (i : S1x1.Idx) :
    sqsum u v i = ∑ q : Fin 2048, (u (ix2 q 0) - v (ix2 q 0)) * (u (ix2 q 0) - v (ix2 q 0)) := by
  obtain ⟨c, n, rfl⟩ : ∃ (c n : Fin 1), i = ix2 c n := ⟨i 0, i 1, eq_ix2 i⟩
  unfold sqsum
  rw [LibLayout.shapeCast_col_apply]
  refine (Ideal.multiReduction_add_single _ 0x00000000#32 reduces_S2048x1_S1 (.inl rfl) rfl (ix1 c)).trans ?_
  refine Finset.sum_congr rfl fun (q : Fin 2048) _ => ?_
  exact congrArg (mulf (subf u v) (subf u v))
    ((lift_rows reduces_S2048x1_S1 c q).trans (by rw [Fin.fin_one_eq_zero c]))

/-- A 1 × 1 value spread over the 8 × 128 tile reads its one entry everywhere. -/
theorem bcast_11_apply {α : Type} (v : S1x1.Idx → α) (y : S8x128.Idx) :
    broadcastTo S8x128 v broadcasts_S1x1_S8x128 y = v (ix2 0 0) :=
  broadcastTo_apply v _ y (ix2 0 0) fun ax => by
    match ax with
    | ⟨0, _⟩ => rfl
    | ⟨1, _⟩ => rfl

/-! ## The chunk sums -/

/-- A look-up by two rows of the index block in the kernel's two copies, the remainder copy zero and the words below
    512, is the leading copy's entry at the pixel the two words name. -/
theorem lk_cols (hlo : ∀ y, lo y = (0 : EReal)) (hx : ∀ y, (x y).toNat < 512) (v : IVec S4x2048 32)
    (hv : ∀ k q, v (ix2 k q) = x (ix4 0 0 k q)) (o o' : ℕ) (h : S4x2048.Slices ![o, 0] S1x2048)
    (h' : S4x2048.Slices ![o', 0] S1x2048) (k k' : Fin 4) (hk : k.val = o) (hk' : k'.val = o')
    (q : Fin 2048) (n : Fin 1) :
    lk (colOf o v h) (colOf o' v h') hi lo (ix2 q n) = look hi (x (ix4 0 0 k q)) (x (ix4 0 0 k' q)) := by
  have e : colOf o v h (ix2 q 0) = x (ix4 0 0 k q) := (colOf_apply o v h q 0 k hk).trans (hv k q)
  have e' : colOf o' v h' (ix2 q 0) = x (ix4 0 0 k' q) := (colOf_apply o' v h' q 0 k' hk').trans (hv k' q)
  rw [lk_apply _ _ hi lo q n (by rw [e]; exact hx _) (by rw [e']; exact hx _), e, e', hlo, add_zero]
  rfl

/-- The first table's chunk sum, in every entry of the tile. -/
theorem part0_apply (hlo : ∀ y, lo y = (0 : EReal)) (hx : ∀ y, (x y).toNat < 512) (y : S8x128.Idx) :
    part0 (F := Ideal) hi lo x y = chunkOf hi x := by
  have e : part0 (F := Ideal) hi lo x = broadcastTo S8x128 (shapeCast S1x1 (sqsum
      (lk (colOf 0 (k0_pay10 (F := Ideal) x) slices_S4x2048_o0_0_S1x2048)
        (colOf 1 (k0_pay10 (F := Ideal) x) slices_S4x2048_o1_0_S1x2048) hi lo)
      (lk (colOf 2 (k0_pay10 (F := Ideal) x) slices_S4x2048_o2_0_S1x2048)
        (colOf 3 (k0_pay10 (F := Ideal) x) slices_S4x2048_o3_0_S1x2048) hi lo))
      shapeCasts_S1x1_S1x1) broadcasts_S1x1_S8x128 := rfl
  rw [e, bcast_11_apply, shapeCast_self, sqsum_apply]
  unfold chunkOf
  refine Finset.sum_congr rfl fun q _ => ?_
  rw [lk_cols hi lo x hlo hx (k0_pay10 (F := Ideal) x) (blk_apply x) 0 1 _ _ 0 1 rfl rfl q 0,
    lk_cols hi lo x hlo hx (k0_pay10 (F := Ideal) x) (blk_apply x) 2 3 _ _ 2 3 rfl rfl q 0]

/-- The second table's chunk sum, as the one entry of a 1 × 1 value. -/
theorem part1_apply (hlo : ∀ y, lo y = (0 : EReal)) (hx : ∀ y, (x y).toNat < 512) (i : S1x1.Idx) :
    part1 (F := Ideal) hi lo x i = chunkOf hi x := by
  have e : part1 (F := Ideal) hi lo x = sqsum
      (lk (colOf 0 (k0_pay11 (F := Ideal) x) slices_S4x2048_o0_0_S1x2048)
        (colOf 1 (k0_pay11 (F := Ideal) x) slices_S4x2048_o1_0_S1x2048) hi lo)
      (lk (colOf 2 (k0_pay11 (F := Ideal) x) slices_S4x2048_o2_0_S1x2048)
        (colOf 3 (k0_pay11 (F := Ideal) x) slices_S4x2048_o3_0_S1x2048) hi lo) := rfl
  rw [e, sqsum_apply]
  unfold chunkOf
  refine Finset.sum_congr rfl fun q _ => ?_
  rw [lk_cols hi lo x hlo hx (k0_pay11 (F := Ideal) x) (blk_apply x) 0 1 _ _ 0 1 rfl rfl q 0,
    lk_cols hi lo x hlo hx (k0_pay11 (F := Ideal) x) (blk_apply x) 2 3 _ _ 2 3 rfl rfl q 0]

/-- The first running sum grows by the chunk sum, in every entry of the tile. -/
theorem acc0Next_eq (hlo : ∀ y, lo y = (0 : EReal)) (hx : ∀ y, (x y).toNat < 512) :
    acc0Next (F := Ideal) hi lo x a = fun y => a y + chunkOf hi x := by
  funext y
  have e : acc0Next (F := Ideal) hi lo x a y
      = shapeCast S8x128 (addf (F := Ideal) (s := S8x128) (φ := .f32) a (part0 hi lo x)) shapeCasts_S8x128_S8x128 y := rfl
  rw [e, shapeCast_self, addf_apply, part0_apply hi lo x hlo hx]

/-- The second running sum grows by the chunk sum, in every entry of the tile. -/
theorem acc1Next_eq (hlo : ∀ y, lo y = (0 : EReal)) (hx : ∀ y, (x y).toNat < 512) :
    acc1Next (F := Ideal) hi lo x a = fun y => a y + chunkOf hi x := by
  funext y
  have e : acc1Next (F := Ideal) hi lo x a y
      = shapeCast S8x128 (addf (F := Ideal) (s := S8x128) (φ := .f32) a
          (broadcastTo S8x128 (shapeCast S1x1 (part1 hi lo x) shapeCasts_S1x1_S1x1) broadcasts_S1x1_S8x128))
        shapeCasts_S8x128_S8x128 y := rfl
  rw [e, shapeCast_self, addf_apply, bcast_11_apply, shapeCast_self, part1_apply hi lo x hlo hx]

/-- The first output block is the running sum's tile with a unit axis in front. -/
theorem out0_eq : k0_pay3 (F := Ideal) a = fun y => a (ix2 (y 1) (y 2)) := by
  funext y
  obtain ⟨u, i, j, rfl⟩ : ∃ (u : Fin 1) (i : Fin 8) (j : Fin 128), y = ix3 u i j := ⟨y 0, y 1, y 2, eq_ix3 y⟩
  exact shapeCast_ab_1ab_apply a _ u i j

/-- The second output block likewise. -/
theorem out1_eq : k0_pay4 (F := Ideal) a = fun y => a (ix2 (y 1) (y 2)) := by
  funext y
  obtain ⟨u, i, j, rfl⟩ : ∃ (u : Fin 1) (i : Fin 8) (j : Fin 128), y = ix3 u i j := ⟨y 0, y 1, y 2, eq_ix3 y⟩
  exact shapeCast_ab_1ab_apply a _ u i j

end Cert.KernelIdeal.Arith

end
-- ==== Proof.KBlocks.lean ====
/-
  What the kernel's input blocks hold at a grid point, read off the argument arrays.

  Grid point `t` (of 1024, row-major over sample, class, chunk) works on sample `t / 64`, class `t / 8 % 8` and the
  chunk of 2048 intervals starting at `2048 · (t % 8)`.  Its image block is that image; its two index blocks are rows
  0 … 3 (birth row, birth column, death row, death column) of the chunk's intervals, the interval tables having been
  flattened from [·, ·, n, 2, 2] to [·, ·, n, 4] and transposed to [·, ·, 4, n] before the kernel runs: entry `j` of
  the four is table entry `(j / 2, j % 2)`.
-/
import proofs.«419365_j60447369724095_4_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The sample a grid point works on. -/
def smp (t : ℕ) : Fin 16 := ⟨t / 64 % 16, Nat.mod_lt _ (by norm_num)⟩
/-- The class (image within the sample) a grid point works on. -/
def cls (t : ℕ) : Fin 8 := ⟨t / 8 % 8, Nat.mod_lt _ (by norm_num)⟩
/-- Interval `q` of a grid point's chunk, as an interval number of the table. -/
def ivl (t : ℕ) (q : Fin 2048) : Fin 16384 :=
  ⟨t % 8 * 2048 + q.val, by have := q.isLt; have := Nat.mod_lt t (show 0 < 8 by norm_num); omega⟩

/-- Where the image window's block sits at a grid point: whole images, one per (sample, class). -/
theorem image_index : ∀ t : Fin cfg0.N, win0_0.index t (0 : Fin 4) = t.val / 64 % 16 ∧ win0_0.index t (1 : Fin 4) = t.val / 8 % 8
      ∧ win0_0.index t (2 : Fin 4) = 0 ∧ win0_0.index t (3 : Fin 4) = 0 :=
  (by decide +kernel : ∀ t : Fin grid0.N, _)

/-- The image block at point `t` is image `(smp t, cls t)` of the first argument. -/
theorem image_block (c : Dev nD) (t : Fin cfg0.N) (y : S1x1x512x512.Idx) :
    (iblk m c 0 t : Vec F S1x1x512x512 .f32) y
      = m ((c.tc : Thread nD τ).loc main_arg0) (ix4 (smp t.val) (cls t.val) (y 2) (y 3)) := by
  obtain ⟨h0, h1, h2, h3⟩ := image_index t
  unfold iblk
  rw [View.read_apply]
  show V m c main_arg0 (((cfg0.win 0).blk t).view.emb y) = _
  rw [V_main_arg0]
  congr 1
  funext a
  apply Fin.ext
  match a with
  | ⟨0, _⟩ =>
    have hy : (y 0).val < 1 := (y 0).isLt
    show win0_0.index t 0 * 1 + 1 * (y 0).val = t.val / 64 % 16
    rw [h0]; omega
  | ⟨1, _⟩ =>
    have hy : (y 1).val < 1 := (y 1).isLt
    show win0_0.index t 1 * 1 + 1 * (y 1).val = t.val / 8 % 8
    rw [h1]; omega
  | ⟨2, _⟩ => show win0_0.index t 2 * 512 + 1 * (y 2).val = (y 2).val; rw [h2]; omega
  | ⟨3, _⟩ => show win0_0.index t 3 * 512 + 1 * (y 3).val = (y 3).val; rw [h3]; omega

/-- An interval table flattened from [·, ·, n, 2, 2] to [·, ·, n, 4] and then transposed to [·, ·, 4, n] holds, at
    row `j` and column `n`, the table's entry `(j / 2, j % 2)` of interval `n`: both have row-major position
    `4 n + j` within the image's table. -/
theorem flat_transposed {α : Type} (x : S16x8x16384x2x2.Idx → α) (hc : S16x8x16384x2x2.ShapeCasts S16x8x16384x4)
    (ht : S16x8x16384x4.Transposes [0, 1, 3, 2] S16x8x4x16384) (b : Fin 16) (k : Fin 8) (j : Fin 4) (n : Fin 16384) :
    transpose S16x8x4x16384 [0, 1, 3, 2] (shapeCast S16x8x16384x4 x hc) ht (ix4 b k j n)
      = x (ix5 b k n ⟨j.val / 2, by have := j.isLt; omega⟩ ⟨j.val % 2, Nat.mod_lt _ (by norm_num)⟩) := by
  rw [transpose_apply [0, 1, 3, 2] _ ht (ix4 b k j n) (ix4 b k n j)
    (fun a => by match a with | ⟨0, _⟩ => rfl | ⟨1, _⟩ => rfl | ⟨2, _⟩ => rfl | ⟨3, _⟩ => rfl)]
  refine shapeCast_apply x hc (ix4 b k n j) _ ?_
  rw [Shape.rowMajor_val_five, Shape.rowMajor_val_four]
  have e : ∀ B K N J : ℕ, J < 4 →
      ((((B * 8 + K) * 16384 + N) * 2 + J / 2) * 2 + J % 2 = ((B * 8 + K) * 16384 + N) * 4 + J) := by
    intros; omega
  exact e b.val k.val n.val j.val j.isLt

/-- The array the first index window reads is the second argument, flattened and transposed by the two host
    operations that run before the kernel. -/
theorem table0_eq (c : Dev nD) :
    (V m c main_v1 : S16x8x4x16384.Idx → Elt F .i32)
      = transpose S16x8x4x16384 [0, 1, 3, 2]
          (shapeCast S16x8x16384x4 (m ((c.tc : Thread nD τ).loc main_arg1)) Facts₀.shapeCasts_S16x8x16384x2x2_S16x8x16384x4)
          Facts₀.transposes_S16x8x16384x4_S16x8x4x16384_0_1_3_2 := by
  show StableHlo.after hostOps0 (fun b => m (c, b)) (Proc.devRef .tc main_v1) = _
  after_results
  rfl

/-- The array the second index window reads is the third argument, flattened and transposed likewise. -/
theorem table1_eq (c : Dev nD) :
    (V m c main_v3 : S16x8x4x16384.Idx → Elt F .i32)
      = transpose S16x8x4x16384 [0, 1, 3, 2]
          (shapeCast S16x8x16384x4 (m ((c.tc : Thread nD τ).loc main_arg2)) Facts₀.shapeCasts_S16x8x16384x2x2_S16x8x16384x4)
          Facts₀.transposes_S16x8x16384x4_S16x8x4x16384_0_1_3_2 := by
  show StableHlo.after hostOps0 (fun b => m (c, b)) (Proc.devRef .tc main_v3) = _
  after_results
  rfl

/-- Where the two index windows' blocks sit at a grid point: all four rows of one chunk of 2048 columns of the
    (sample, class) table. -/
theorem table_index : ∀ t : Fin cfg0.N,
    (win0_1.index t (0 : Fin 4) = t.val / 64 % 16 ∧ win0_1.index t (1 : Fin 4) = t.val / 8 % 8
      ∧ win0_1.index t (2 : Fin 4) = 0 ∧ win0_1.index t (3 : Fin 4) = t.val % 8)
    ∧ (win0_2.index t (0 : Fin 4) = t.val / 64 % 16 ∧ win0_2.index t (1 : Fin 4) = t.val / 8 % 8
      ∧ win0_2.index t (2 : Fin 4) = 0 ∧ win0_2.index t (3 : Fin 4) = t.val % 8) :=
  (by decide +kernel : ∀ t : Fin grid0.N, _)

/-- The first index block at point `t`: row `j`, lane `q` is entry `(j / 2, j % 2)` of interval `ivl t q` of the
    second argument's image `(smp t, cls t)`. -/
theorem index_block0 (c : Dev nD) (t : Fin cfg0.N) (j : Fin 4) (q : Fin 2048) :
    (iblk m c 1 t : Vec F S1x1x4x2048 .i32) (ix4 0 0 j q)
      = m ((c.tc : Thread nD τ).loc main_arg1)
          (ix5 (smp t.val) (cls t.val) (ivl t.val q) ⟨j.val / 2, by have := j.isLt; omega⟩ ⟨j.val % 2, Nat.mod_lt _ (by norm_num)⟩) := by
  obtain ⟨h0, h1, h2, h3⟩ := (table_index t).1
  unfold iblk
  rw [View.read_apply]
  show V m c main_v1 (((cfg0.win 1).blk t).view.emb (ix4 0 0 j q)) = _
  have hi : (((cfg0.win 1).blk t).view.emb (ix4 0 0 j q) : S16x8x4x16384.Idx)
      = ix4 (smp t.val) (cls t.val) j (ivl t.val q) := by
    funext a
    apply Fin.ext
    match a with
    | ⟨0, _⟩ => show win0_1.index t 0 * 1 + 1 * 0 = t.val / 64 % 16; rw [h0]; omega
    | ⟨1, _⟩ => show win0_1.index t 1 * 1 + 1 * 0 = t.val / 8 % 8; rw [h1]; omega
    | ⟨2, _⟩ => show win0_1.index t 2 * 4 + 1 * j.val = j.val; rw [h2]; omega
    | ⟨3, _⟩ => show win0_1.index t 3 * 2048 + 1 * q.val = t.val % 8 * 2048 + q.val; rw [h3]; omega
  rw [table0_eq, hi]
  exact flat_transposed _ _ _ _ _ _ _

/-- The second index block at point `t`, likewise of the third argument. -/
theorem index_block1 (c : Dev nD) (t : Fin cfg0.N) (j : Fin 4) (q : Fin 2048) :
    (iblk m c 2 t : Vec F S1x1x4x2048 .i32) (ix4 0 0 j q)
      = m ((c.tc : Thread nD τ).loc main_arg2)
          (ix5 (smp t.val) (cls t.val) (ivl t.val q) ⟨j.val / 2, by have := j.isLt; omega⟩ ⟨j.val % 2, Nat.mod_lt _ (by norm_num)⟩) := by
  obtain ⟨h0, h1, h2, h3⟩ := (table_index t).2
  unfold iblk
  rw [View.read_apply]
  show V m c main_v3 (((cfg0.win 2).blk t).view.emb (ix4 0 0 j q)) = _
  have hi : (((cfg0.win 2).blk t).view.emb (ix4 0 0 j q) : S16x8x4x16384.Idx)
      = ix4 (smp t.val) (cls t.val) j (ivl t.val q) := by
    funext a
    apply Fin.ext
    match a with
    | ⟨0, _⟩ => show win0_2.index t 0 * 1 + 1 * 0 = t.val / 64 % 16; rw [h0]; omega
    | ⟨1, _⟩ => show win0_2.index t 1 * 1 + 1 * 0 = t.val / 8 % 8; rw [h1]; omega
    | ⟨2, _⟩ => show win0_2.index t 2 * 4 + 1 * j.val = j.val; rw [h2]; omega
    | ⟨3, _⟩ => show win0_2.index t 3 * 2048 + 1 * q.val = t.val % 8 * 2048 + q.val; rw [h3]; omega
  rw [table1_eq, hi]
  exact flat_transposed _ _ _ _ _ _ _

end Cert.KernelIdeal.Blocks

end
-- ==== Proof.KInv.lean ====
/-
  The kernel's two output arrays after the whole grid: entry `(b, ·, ·)` of each is sample `b`'s sum for its table.

  By induction on the grid point: after point `t` the leading image copy is the image the point works on, the
  remainder copy is zero, and each running sum holds, in every entry of its tile, the chunk sums of the points of
  `t`'s sample up to `t`.  A sample's last point copies the running sums into the output blocks, and that point is
  the only one whose blocks are written back: block `b` of each output array is written once, with the sample's sum.
-/
import proofs.«419365_j60447369724095_4_alg».proof.Proof.KPieces
import proofs.«419365_j60447369724095_4_alg».proof.Proof.KArith
import proofs.«419365_j60447369724095_4_alg».proof.Proof.KBlocks
import proofs.«419365_j60447369724095_4_alg».proof.Proof.Bridge
import Idealize.ShloMosaic.Lib.ValueIdx
import Idealize.ShloMosaic.Lib.Pipeline.Value
import Mathlib.Algebra.BigOperators.Intervals

noncomputable section

namespace Cert.KernelIdeal.Inv

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Step Cert.KernelIdeal.Arith Cert.KernelIdeal.Blocks
open Cert.Lib.RealArith BirthDeath

variable (m : (ℓ : Loc nD τ sig) → Buf (Elt Ideal) ℓ)

/-- The image array, the two interval tables, and a grid point's three input blocks, each under its literal type. -/
abbrev Pm (c : Dev nD) : ImgShape.Idx → EReal := m ((c.tc : Thread nD τ).loc main_arg0)
abbrev I0m (c : Dev nD) : IvlShape.Idx → BitVec 32 := m ((c.tc : Thread nD τ).loc main_arg1)
abbrev I1m (c : Dev nD) : IvlShape.Idx → BitVec 32 := m ((c.tc : Thread nD τ).loc main_arg2)
abbrev imgBlk (c : Dev nD) (t : Fin cfg0.N) : Vec Ideal S1x1x512x512 .f32 := iblk m c 0 t
abbrev idxBlk0 (c : Dev nD) (t : Fin cfg0.N) : Vec Ideal S1x1x4x2048 .i32 := iblk m c 1 t
abbrev idxBlk1 (c : Dev nD) (t : Fin cfg0.N) : Vec Ideal S1x1x4x2048 .i32 := iblk m c 2 t

/-- The point before a grid point is a grid point. -/
theorem pred_lt {n : ℕ} (hn : n < cfg0.N) : n - 1 < cfg0.N := Nat.lt_of_le_of_lt (Nat.sub_le _ _) hn

/-! ## One grid point, through the step functions -/

/-- A sample's first point. -/
theorem step_A (c : Dev nD) (n : ℕ) (hn : n < cfg0.N) (h0 : n % 8 = 0) (h1 : n % 64 = 0) (h2 : ¬n % 64 = 63) :
    (outsAt0 m c n hn).2.2.1 = hiOf (imgBlk m c ⟨n, hn⟩)
    ∧ (outsAt0 m c n hn).2.2.2.1 = loOf (imgBlk m c ⟨n, hn⟩)
    ∧ (outsAt0 m c n hn).2.2.2.2.1 = acc0Next (hiOf (imgBlk m c ⟨n, hn⟩)) (loOf (imgBlk m c ⟨n, hn⟩)) (idxBlk0 m c ⟨n, hn⟩) (k0_pay8 (F := Ideal))
    ∧ (outsAt0 m c n hn).2.2.2.2.2 = acc1Next (hiOf (imgBlk m c ⟨n, hn⟩)) (loOf (imgBlk m c ⟨n, hn⟩)) (idxBlk1 m c ⟨n, hn⟩) (k0_pay9 (F := Ideal)) := by
  rw [outsAt0_A m c ⟨n, hn⟩ h0 h1 h2]
  dsimp only
  exact ⟨Pieces.first_hi (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) ((hcond0_0 ⟨n, hn⟩).mpr h0) ((hcond0_1 ⟨n, hn⟩).mpr h1) (fun h => h2 ((hcond0_2 ⟨n, hn⟩).mp h)),
    Pieces.first_lo (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) ((hcond0_0 ⟨n, hn⟩).mpr h0) ((hcond0_1 ⟨n, hn⟩).mpr h1) (fun h => h2 ((hcond0_2 ⟨n, hn⟩).mp h)),
    Pieces.first_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) ((hcond0_0 ⟨n, hn⟩).mpr h0) ((hcond0_1 ⟨n, hn⟩).mpr h1) (fun h => h2 ((hcond0_2 ⟨n, hn⟩).mp h)),
    Pieces.first_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) ((hcond0_0 ⟨n, hn⟩).mpr h0) ((hcond0_1 ⟨n, hn⟩).mpr h1) (fun h => h2 ((hcond0_2 ⟨n, hn⟩).mp h))⟩

/-- A later image's first chunk. -/
theorem step_C (c : Dev nD) (n : ℕ) (hn : n < cfg0.N) (h0 : n % 8 = 0) (h1 : ¬n % 64 = 0) (h2 : ¬n % 64 = 63) :
    (outsAt0 m c n hn).2.2.1 = hiOf (imgBlk m c ⟨n, hn⟩)
    ∧ (outsAt0 m c n hn).2.2.2.1 = loOf (imgBlk m c ⟨n, hn⟩)
    ∧ (outsAt0 m c n hn).2.2.2.2.1 = acc0Next (hiOf (imgBlk m c ⟨n, hn⟩)) (loOf (imgBlk m c ⟨n, hn⟩)) (idxBlk0 m c ⟨n, hn⟩) (outsAt0 m c (n - 1) (pred_lt hn)).2.2.2.2.1
    ∧ (outsAt0 m c n hn).2.2.2.2.2 = acc1Next (hiOf (imgBlk m c ⟨n, hn⟩)) (loOf (imgBlk m c ⟨n, hn⟩)) (idxBlk1 m c ⟨n, hn⟩) (outsAt0 m c (n - 1) (pred_lt hn)).2.2.2.2.2 := by
  rw [outsAt0_C m c ⟨n, hn⟩ h0 h1 h2]
  dsimp only
  exact ⟨Pieces.image_hi (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.2.2.1 (outsAt0 m c (n - 1) (pred_lt hn)).2.2.2.2.2 ((hcond0_0 ⟨n, hn⟩).mpr h0) (fun h => h1 ((hcond0_1 ⟨n, hn⟩).mp h)) (fun h => h2 ((hcond0_2 ⟨n, hn⟩).mp h)),
    Pieces.image_lo (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.2.2.1 (outsAt0 m c (n - 1) (pred_lt hn)).2.2.2.2.2 ((hcond0_0 ⟨n, hn⟩).mpr h0) (fun h => h1 ((hcond0_1 ⟨n, hn⟩).mp h)) (fun h => h2 ((hcond0_2 ⟨n, hn⟩).mp h)),
    Pieces.image_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.2.2.1 (outsAt0 m c (n - 1) (pred_lt hn)).2.2.2.2.2 ((hcond0_0 ⟨n, hn⟩).mpr h0) (fun h => h1 ((hcond0_1 ⟨n, hn⟩).mp h)) (fun h => h2 ((hcond0_2 ⟨n, hn⟩).mp h)),
    Pieces.image_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.2.2.1 (outsAt0 m c (n - 1) (pred_lt hn)).2.2.2.2.2 ((hcond0_0 ⟨n, hn⟩).mpr h0) (fun h => h1 ((hcond0_1 ⟨n, hn⟩).mp h)) (fun h => h2 ((hcond0_2 ⟨n, hn⟩).mp h))⟩

/-- A middle point. -/
theorem step_B (c : Dev nD) (n : ℕ) (hn : n < cfg0.N) (h0 : ¬n % 8 = 0) (h1 : ¬n % 64 = 0) (h2 : ¬n % 64 = 63) :
    (outsAt0 m c n hn).2.2.1 = (outsAt0 m c (n - 1) (pred_lt hn)).2.2.1
    ∧ (outsAt0 m c n hn).2.2.2.1 = (outsAt0 m c (n - 1) (pred_lt hn)).2.2.2.1
    ∧ (outsAt0 m c n hn).2.2.2.2.1 = acc0Next (outsAt0 m c (n - 1) (pred_lt hn)).2.2.1 (outsAt0 m c (n - 1) (pred_lt hn)).2.2.2.1 (idxBlk0 m c ⟨n, hn⟩) (outsAt0 m c (n - 1) (pred_lt hn)).2.2.2.2.1
    ∧ (outsAt0 m c n hn).2.2.2.2.2 = acc1Next (outsAt0 m c (n - 1) (pred_lt hn)).2.2.1 (outsAt0 m c (n - 1) (pred_lt hn)).2.2.2.1 (idxBlk1 m c ⟨n, hn⟩) (outsAt0 m c (n - 1) (pred_lt hn)).2.2.2.2.2 := by
  rw [outsAt0_B m c ⟨n, hn⟩ h0 h1 h2]
  dsimp only
  exact ⟨Pieces.mid_hi (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) (fun h => h2 ((hcond0_2 ⟨n, hn⟩).mp h)),
    Pieces.mid_lo (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) (fun h => h2 ((hcond0_2 ⟨n, hn⟩).mp h)),
    Pieces.mid_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) (fun h => h2 ((hcond0_2 ⟨n, hn⟩).mp h)),
    Pieces.mid_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) (fun h => h2 ((hcond0_2 ⟨n, hn⟩).mp h))⟩

/-- A sample's last point. -/
theorem step_D (c : Dev nD) (n : ℕ) (hn : n < cfg0.N) (h0 : ¬n % 8 = 0) (h1 : ¬n % 64 = 0) (h2 : n % 64 = 63) :
    (outsAt0 m c n hn).1 = k0_pay3 (acc0Next (outsAt0 m c (n - 1) (pred_lt hn)).2.2.1 (outsAt0 m c (n - 1) (pred_lt hn)).2.2.2.1 (idxBlk0 m c ⟨n, hn⟩) (outsAt0 m c (n - 1) (pred_lt hn)).2.2.2.2.1)
    ∧ (outsAt0 m c n hn).2.1 = k0_pay4 (acc1Next (outsAt0 m c (n - 1) (pred_lt hn)).2.2.1 (outsAt0 m c (n - 1) (pred_lt hn)).2.2.2.1 (idxBlk1 m c ⟨n, hn⟩) (outsAt0 m c (n - 1) (pred_lt hn)).2.2.2.2.2)
    ∧ (outsAt0 m c n hn).2.2.1 = (outsAt0 m c (n - 1) (pred_lt hn)).2.2.1
    ∧ (outsAt0 m c n hn).2.2.2.1 = (outsAt0 m c (n - 1) (pred_lt hn)).2.2.2.1
    ∧ (outsAt0 m c n hn).2.2.2.2.1 = acc0Next (outsAt0 m c (n - 1) (pred_lt hn)).2.2.1 (outsAt0 m c (n - 1) (pred_lt hn)).2.2.2.1 (idxBlk0 m c ⟨n, hn⟩) (outsAt0 m c (n - 1) (pred_lt hn)).2.2.2.2.1
    ∧ (outsAt0 m c n hn).2.2.2.2.2 = acc1Next (outsAt0 m c (n - 1) (pred_lt hn)).2.2.1 (outsAt0 m c (n - 1) (pred_lt hn)).2.2.2.1 (idxBlk1 m c ⟨n, hn⟩) (outsAt0 m c (n - 1) (pred_lt hn)).2.2.2.2.2 := by
  rw [outsAt0_D m c ⟨n, hn⟩ h0 h1 h2]
  dsimp only
  exact ⟨Pieces.last_out0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) ((hcond0_2 ⟨n, hn⟩).mpr h2),
    Pieces.last_out1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) ((hcond0_2 ⟨n, hn⟩).mpr h2),
    Pieces.last_hi (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) ((hcond0_2 ⟨n, hn⟩).mpr h2),
    Pieces.last_lo (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) ((hcond0_2 ⟨n, hn⟩).mpr h2),
    Pieces.last_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) ((hcond0_2 ⟨n, hn⟩).mpr h2),
    Pieces.last_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) (imgBlk m c ⟨n, hn⟩) (idxBlk0 m c ⟨n, hn⟩) (idxBlk1 m c ⟨n, hn⟩) (outsAt0 m c (n - 1) (pred_lt hn)).2.2.1 (outsAt0 m c (n - 1) (pred_lt hn)).2.2.2.1 (outsAt0 m c (n - 1) (pred_lt hn)).2.2.2.2.1 (outsAt0 m c (n - 1) (pred_lt hn)).2.2.2.2.2 (fun h => h0 ((hcond0_0 ⟨n, hn⟩).mp h)) (fun h => h1 ((hcond0_1 ⟨n, hn⟩).mp h)) ((hcond0_2 ⟨n, hn⟩).mpr h2)⟩

/-! ## The input blocks and the step functions, read on the argument arrays -/

/-- The image a grid point works on, as the leading copy holds it. -/
def imgOf (c : Dev nD) (n : ℕ) : Vec Ideal S512x512 .bf16 := fun y => Pm m c (ix4 (smp n) (cls n) (y 0) (y 1))

/-- The chunk sums of point `n`'s sample from the sample's first point up to `n`. -/
def partialSum (P : ImgShape.Idx → EReal) (I : IvlShape.Idx → BitVec 32) (n : ℕ) : EReal :=
  ∑ k ∈ Finset.Ico (n - n % 64) (n + 1), chunk P I k

/-- An index of a [1, 1, 4, 2048] block has its two unit coordinates at 0. -/
theorem eq_ix4_unit (y : S1x1x4x2048.Idx) : y = ix4 (n0 := 1) (n1 := 1) (n2 := 4) (n3 := 2048) 0 0 (y 2) (y 3) := by
  funext a
  match a with
  | ⟨0, _⟩ => exact Fin.ext (Nat.lt_one_iff.mp (y 0).isLt)
  | ⟨1, _⟩ => exact Fin.ext (Nat.lt_one_iff.mp (y 1).isLt)
  | ⟨2, _⟩ => rfl
  | ⟨3, _⟩ => rfl

/-- The image block's entries are real when the image array's are. -/
theorem img_real (c : Dev nD) (hP : ∀ i, IsReal (Pm m c i)) (t : Fin cfg0.N) (y : S1x1x512x512.Idx) :
    IsReal (imgBlk m c t y) := by
  rw [show imgBlk m c t y = _ from image_block m c t y]; exact hP _

/-- The leading copy refreshed at point `t` is the image the point works on. -/
theorem hi_img (c : Dev nD) (t : Fin cfg0.N) : hiOf (F := Ideal) (imgBlk m c t) = imgOf m c t.val := by
  rw [hiOf_eq]; funext y; exact image_block m c t (ix4 0 0 (y 0) (y 1))

/-- The remainder copy refreshed at point `t` is zero. -/
theorem lo_img (c : Dev nD) (hP : ∀ i, IsReal (Pm m c i)) (t : Fin cfg0.N) :
    loOf (F := Ideal) (imgBlk m c t) = fun _ => (0 : EReal) :=
  loOf_eq (imgBlk m c t) (img_real m c hP t)

/-- The first index block's words are below 512 when the first table's are. -/
theorem idx0_lt (c : Dev nD) (hI : ∀ i, (I0m m c i).toNat < 512) (t : Fin cfg0.N) (y : S1x1x4x2048.Idx) :
    (idxBlk0 m c t y).toNat < 512 := by
  have e : idxBlk0 m c t y = I0m m c _ :=
    (congrArg (idxBlk0 m c t) (eq_ix4_unit y)).trans (index_block0 m c t (y 2) (y 3))
  rw [e]; exact hI _

/-- The second index block's words are below 512 when the second table's are. -/
theorem idx1_lt (c : Dev nD) (hI : ∀ i, (I1m m c i).toNat < 512) (t : Fin cfg0.N) (y : S1x1x4x2048.Idx) :
    (idxBlk1 m c t y).toNat < 512 := by
  have e : idxBlk1 m c t y = I1m m c _ :=
    (congrArg (idxBlk1 m c t) (eq_ix4_unit y)).trans (index_block1 m c t (y 2) (y 3))
  rw [e]; exact hI _

/-- A chunk sum over the point's image and an index block that holds the point's intervals is what the point adds. -/
theorem chunkOf_eq (P : ImgShape.Idx → EReal) (I : IvlShape.Idx → BitVec 32) (n : ℕ) (x : Vec Ideal S1x1x4x2048 .i32)
    (hx : ∀ (j : Fin 4) (q : Fin 2048), x (ix4 0 0 j q)
      = I (ix5 (smp n) (cls n) (ivl n q) ⟨j.val / 2, by have := j.isLt; omega⟩ ⟨j.val % 2, Nat.mod_lt _ (by norm_num)⟩)) :
    chunkOf (fun y => P (ix4 (smp n) (cls n) (y 0) (y 1))) x = chunk P I n := by
  unfold chunkOf chunk
  refine Finset.sum_congr rfl fun q _ => ?_
  rw [hx 0 q, hx 1 q, hx 2 q, hx 3 q]
  rfl

/-- So the first table's chunk sum at point `t` is what the point adds to the first sum. -/
theorem chunk0_eq (c : Dev nD) (t : Fin cfg0.N) :
    chunkOf (imgOf m c t.val) (idxBlk0 m c t) = chunk (Pm m c) (I0m m c) t.val :=
  chunkOf_eq (Pm m c) (I0m m c) t.val (idxBlk0 m c t) (index_block0 m c t)

/-- And the second table's likewise. -/
theorem chunk1_eq (c : Dev nD) (t : Fin cfg0.N) :
    chunkOf (imgOf m c t.val) (idxBlk1 m c t) = chunk (Pm m c) (I1m m c) t.val :=
  chunkOf_eq (Pm m c) (I1m m c) t.val (idxBlk1 m c t) (index_block1 m c t)

/-- At a sample's first point the partial sum is the point's own chunk sum. -/
theorem partialSum_first (P : ImgShape.Idx → EReal) (I : IvlShape.Idx → BitVec 32) (n : ℕ) (h : n % 64 = 0) :
    partialSum P I n = 0 + chunk P I n := by
  unfold partialSum
  rw [h, Nat.sub_zero, Finset.sum_Ico_succ_top (Nat.le_refl n), Finset.Ico_self, Finset.sum_empty]

/-- At any other point it is the point before's partial sum plus the point's chunk sum. -/
theorem partialSum_next (P : ImgShape.Idx → EReal) (I : IvlShape.Idx → BitVec 32) (n : ℕ) (h : ¬n % 64 = 0) :
    partialSum P I n = partialSum P I (n - 1) + chunk P I n := by
  unfold partialSum
  have e1 : n - 1 - (n - 1) % 64 = n - n % 64 := by omega
  have e2 : n - 1 + 1 = n := by omega
  rw [e1, e2, Finset.sum_Ico_succ_top (Nat.sub_le n (n % 64))]

/-- Within an image the point before works on the same image. -/
theorem imgOf_pred (c : Dev nD) (n : ℕ) (h : ¬n % 8 = 0) : imgOf m c (n - 1) = imgOf m c n := by
  have e1 : smp (n - 1) = smp n := Fin.ext (by simp only [smp]; omega)
  have e2 : cls (n - 1) = cls n := Fin.ext (by simp only [cls]; omega)
  unfold imgOf; rw [e1, e2]

/-! ## The invariant -/

/-- A running sum's step: from the constant `s`, over a zero remainder, to the constant `s` plus the chunk sum. -/
theorem acc0_step (hi lo : Vec Ideal S512x512 .bf16) (x : Vec Ideal S1x1x4x2048 .i32) (a : Vec Ideal S8x128 .f32)
    (hlo : lo = fun _ => (0 : EReal)) (hx : ∀ y, (x y).toNat < 512) (s ch : EReal)
    (ha : a = fun _ => s) (hch : chunkOf hi x = ch) :
    acc0Next (F := Ideal) hi lo x a = fun _ => s + ch := by
  subst ha hch; exact acc0Next_eq hi lo x _ (fun y => congrFun hlo y) hx

/-- The same for the second running sum. -/
theorem acc1_step (hi lo : Vec Ideal S512x512 .bf16) (x : Vec Ideal S1x1x4x2048 .i32) (a : Vec Ideal S8x128 .f32)
    (hlo : lo = fun _ => (0 : EReal)) (hx : ∀ y, (x y).toNat < 512) (s ch : EReal)
    (ha : a = fun _ => s) (hch : chunkOf hi x = ch) :
    acc1Next (F := Ideal) hi lo x a = fun _ => s + ch := by
  subst ha hch; exact acc1Next_eq hi lo x _ (fun y => congrFun hlo y) hx

/-- After point `n` the leading copy is the point's image and the remainder copy is zero. -/
theorem copies (c : Dev nD) (hP : ∀ i, IsReal (Pm m c i)) : ∀ (n : ℕ) (hn : n < cfg0.N),
    (outsAt0 m c n hn).2.2.1 = imgOf m c n ∧ (outsAt0 m c n hn).2.2.2.1 = fun _ => (0 : EReal) := by
  intro n
  induction n using Nat.strong_induction_on with
  | _ n IH =>
    intro hn
    have hN : n < 1024 := lt_of_lt_of_eq hn (show cfg0.N = 1024 from N_0)
    by_cases h0 : n % 8 = 0
    · have hhi := hi_img m c ⟨n, hn⟩
      have hlo := lo_img m c hP ⟨n, hn⟩
      by_cases h1 : n % 64 = 0
      · obtain ⟨e1, e2, _, _⟩ := step_A m c n hn h0 h1 (by omega)
        exact ⟨e1.trans hhi, e2.trans hlo⟩
      · obtain ⟨e1, e2, _, _⟩ := step_C m c n hn h0 h1 (by omega)
        exact ⟨e1.trans hhi, e2.trans hlo⟩
    · have h1 : ¬n % 64 = 0 := by omega
      have ih := IH (n - 1) (by omega) (pred_lt hn)
      by_cases h2 : n % 64 = 63
      · obtain ⟨_, _, e1, e2, _, _⟩ := step_D m c n hn h0 h1 h2
        exact ⟨e1.trans (ih.1.trans (imgOf_pred m c n h0)), e2.trans ih.2⟩
      · obtain ⟨e1, e2, _, _⟩ := step_B m c n hn h0 h1 h2
        exact ⟨e1.trans (ih.1.trans (imgOf_pred m c n h0)), e2.trans ih.2⟩

/-- After point `n` the first running sum is, in every entry, the first table's chunk sums of the sample up to `n`. -/
theorem sum0 (c : Dev nD) (hP : ∀ i, IsReal (Pm m c i)) (hI : ∀ i, (I0m m c i).toNat < 512) :
    ∀ (n : ℕ) (hn : n < cfg0.N), (outsAt0 m c n hn).2.2.2.2.1 = fun _ => partialSum (Pm m c) (I0m m c) n := by
  intro n
  induction n using Nat.strong_induction_on with
  | _ n IH =>
    intro hn
    have hN : n < 1024 := lt_of_lt_of_eq hn (show cfg0.N = 1024 from N_0)
    by_cases h0 : n % 8 = 0
    · have hhi := hi_img m c ⟨n, hn⟩
      have hlo := lo_img m c hP ⟨n, hn⟩
      by_cases h1 : n % 64 = 0
      · obtain ⟨_, _, e3, _⟩ := step_A m c n hn h0 h1 (by omega)
        rw [e3, partialSum_first _ _ n h1]
        exact acc0_step _ _ (idxBlk0 m c ⟨n, hn⟩) _ hlo (idx0_lt m c hI ⟨n, hn⟩) 0 _ zero0_eq
          (by rw [hhi]; exact chunk0_eq m c ⟨n, hn⟩)
      · obtain ⟨_, _, e3, _⟩ := step_C m c n hn h0 h1 (by omega)
        rw [e3, partialSum_next _ _ n h1]
        exact acc0_step _ _ (idxBlk0 m c ⟨n, hn⟩) _ hlo (idx0_lt m c hI ⟨n, hn⟩) _ _ (IH (n - 1) (by omega) (pred_lt hn))
          (by rw [hhi]; exact chunk0_eq m c ⟨n, hn⟩)
    · have h1 : ¬n % 64 = 0 := by omega
      have hc := copies m c hP (n - 1) (pred_lt hn)
      have hhi' : (outsAt0 m c (n - 1) (pred_lt hn)).2.2.1 = imgOf m c n := hc.1.trans (imgOf_pred m c n h0)
      by_cases h2 : n % 64 = 63
      · obtain ⟨_, _, _, _, e3, _⟩ := step_D m c n hn h0 h1 h2
        rw [e3, partialSum_next _ _ n h1]
        exact acc0_step _ _ (idxBlk0 m c ⟨n, hn⟩) _ hc.2 (idx0_lt m c hI ⟨n, hn⟩) _ _ (IH (n - 1) (by omega) (pred_lt hn))
          (by rw [hhi']; exact chunk0_eq m c ⟨n, hn⟩)
      · obtain ⟨_, _, e3, _⟩ := step_B m c n hn h0 h1 h2
        rw [e3, partialSum_next _ _ n h1]
        exact acc0_step _ _ (idxBlk0 m c ⟨n, hn⟩) _ hc.2 (idx0_lt m c hI ⟨n, hn⟩) _ _ (IH (n - 1) (by omega) (pred_lt hn))
          (by rw [hhi']; exact chunk0_eq m c ⟨n, hn⟩)

/-- After point `n` the second running sum is, in every entry, the second table's chunk sums of the sample up to `n`. -/
theorem sum1 (c : Dev nD) (hP : ∀ i, IsReal (Pm m c i)) (hI : ∀ i, (I1m m c i).toNat < 512) :
    ∀ (n : ℕ) (hn : n < cfg0.N), (outsAt0 m c n hn).2.2.2.2.2 = fun _ => partialSum (Pm m c) (I1m m c) n := by
  intro n
  induction n using Nat.strong_induction_on with
  | _ n IH =>
    intro hn
    have hN : n < 1024 := lt_of_lt_of_eq hn (show cfg0.N = 1024 from N_0)
    by_cases h0 : n % 8 = 0
    · have hhi := hi_img m c ⟨n, hn⟩
      have hlo := lo_img m c hP ⟨n, hn⟩
      by_cases h1 : n % 64 = 0
      · obtain ⟨_, _, _, e4⟩ := step_A m c n hn h0 h1 (by omega)
        rw [e4, partialSum_first _ _ n h1]
        exact acc1_step _ _ (idxBlk1 m c ⟨n, hn⟩) _ hlo (idx1_lt m c hI ⟨n, hn⟩) 0 _ zero1_eq
          (by rw [hhi]; exact chunk1_eq m c ⟨n, hn⟩)
      · obtain ⟨_, _, _, e4⟩ := step_C m c n hn h0 h1 (by omega)
        rw [e4, partialSum_next _ _ n h1]
        exact acc1_step _ _ (idxBlk1 m c ⟨n, hn⟩) _ hlo (idx1_lt m c hI ⟨n, hn⟩) _ _ (IH (n - 1) (by omega) (pred_lt hn))
          (by rw [hhi]; exact chunk1_eq m c ⟨n, hn⟩)
    · have h1 : ¬n % 64 = 0 := by omega
      have hc := copies m c hP (n - 1) (pred_lt hn)
      have hhi' : (outsAt0 m c (n - 1) (pred_lt hn)).2.2.1 = imgOf m c n := hc.1.trans (imgOf_pred m c n h0)
      by_cases h2 : n % 64 = 63
      · obtain ⟨_, _, _, _, _, e4⟩ := step_D m c n hn h0 h1 h2
        rw [e4, partialSum_next _ _ n h1]
        exact acc1_step _ _ (idxBlk1 m c ⟨n, hn⟩) _ hc.2 (idx1_lt m c hI ⟨n, hn⟩) _ _ (IH (n - 1) (by omega) (pred_lt hn))
          (by rw [hhi']; exact chunk1_eq m c ⟨n, hn⟩)
      · obtain ⟨_, _, _, e4⟩ := step_B m c n hn h0 h1 h2
        rw [e4, partialSum_next _ _ n h1]
        exact acc1_step _ _ (idxBlk1 m c ⟨n, hn⟩) _ hc.2 (idx1_lt m c hI ⟨n, hn⟩) _ _ (IH (n - 1) (by omega) (pred_lt hn))
          (by rw [hhi']; exact chunk1_eq m c ⟨n, hn⟩)

/-! ## A sample's last point: the output blocks -/

/-- At a sample's last point the partial sum is the sample's whole sum. -/
theorem partialSum_last (P : ImgShape.Idx → EReal) (I : IvlShape.Idx → BitVec 32) (n : ℕ) (hN : n < 1024)
    (h2 : n % 64 = 63) : partialSum P I n = sampleSum P I (smp n) := by
  rw [sampleSum_eq_chunks]; unfold partialSum
  have e1 : n - n % 64 = 64 * (smp n).val := by simp only [smp]; omega
  have e2 : n + 1 = 64 * (smp n).val + 64 := by simp only [smp]; omega
  rw [e1, e2]

/-- The first output block after a sample's last point holds the sample's first-table sum in every entry. -/
theorem out0_last (c : Dev nD) (hP : ∀ i, IsReal (Pm m c i)) (hI : ∀ i, (I0m m c i).toNat < 512)
    (n : ℕ) (hn : n < cfg0.N) (h2 : n % 64 = 63) :
    (outsAt0 m c n hn).1 = fun _ => sampleSum (Pm m c) (I0m m c) (smp n) := by
  have hN : n < 1024 := lt_of_lt_of_eq hn (show cfg0.N = 1024 from N_0)
  obtain ⟨e, _, _, _, e3, _⟩ := step_D m c n hn (by omega) (by omega) h2
  rw [e, e3.symm.trans (sum0 m c hP hI n hn), out0_eq, partialSum_last _ _ n hN h2]

/-- The second output block likewise. -/
theorem out1_last (c : Dev nD) (hP : ∀ i, IsReal (Pm m c i)) (hI : ∀ i, (I1m m c i).toNat < 512)
    (n : ℕ) (hn : n < cfg0.N) (h2 : n % 64 = 63) :
    (outsAt0 m c n hn).2.1 = fun _ => sampleSum (Pm m c) (I1m m c) (smp n) := by
  have hN : n < 1024 := lt_of_lt_of_eq hn (show cfg0.N = 1024 from N_0)
  obtain ⟨_, e, _, _, _, e4⟩ := step_D m c n hn (by omega) (by omega) h2
  rw [e, e4.symm.trans (sum1 m c hP hI n hn), out1_eq, partialSum_last _ _ n hN h2]

/-! ## The output arrays after the run -/

/-- The first output array as it ends: entry `(b, ·, ·)` is sample `b`'s sum for the first table. -/
abbrev G0 (c : Dev nD) : Buf (Elt Ideal) ((c.tc : Thread nD τ).loc main_v4_0) :=
  fun i => sampleSum (Pm m c) (I0m m c) (i 0)

/-- The first output's block at point `t` is block `t / 64` along the sample axis, whole along the other two. -/
theorem win3_facts : ∀ t : Fin cfg0.N,
    win0_3.index t 0 * win0_3.size 0 = t.val / 64 ∧ win0_3.xsize (grid0.coords t) 0 = 1
    ∧ win0_3.index t 1 * win0_3.size 1 = 0 ∧ win0_3.xsize (grid0.coords t) 1 = 8
    ∧ win0_3.index t 2 * win0_3.size 2 = 0 ∧ win0_3.xsize (grid0.coords t) 2 = 128 :=
  (by decide +kernel : ∀ t : Fin grid0.N,
    win0_3.index t 0 * win0_3.size 0 = t.val / 64 ∧ win0_3.xsize (grid0.coords t) 0 = 1
    ∧ win0_3.index t 1 * win0_3.size 1 = 0 ∧ win0_3.xsize (grid0.coords t) 1 = 8
    ∧ win0_3.index t 2 * win0_3.size 2 = 0 ∧ win0_3.xsize (grid0.coords t) 2 = 128)

/-- What a sample's last point writes back is its block of that array. -/
theorem flushed0 (c : Dev nD) (hP : ∀ i, IsReal (Pm m c i)) (hI : ∀ i, (I0m m c i).toNat < 512)
    (t : Fin cfg0.N) (hf : (cfg0.win 3).flush t = true) :
    (dats m 0 c).flushed 3 t = ((cfg0.win 3).blk t).view.read (Elt Ideal) (G0 m c) := by
  have h2 : t.val % 64 = 63 := (flush0_3 t).mp hf
  have hN : t.val < 1024 := lt_of_lt_of_eq t.isLt (show cfg0.N = 1024 from N_0)
  show (cfg0.win 3).cut (grid0.coords t) ((dats m 0 c).after 3 t) = _
  rw [after0_3, out0_last m c hP hI t.val t.isLt h2]
  funext j
  rw [View.read_apply]
  obtain ⟨hi0, hx0, _⟩ := win3_facts t
  have hj : (j 0).val < 1 := lt_of_lt_of_eq (j 0).isLt hx0
  show sampleSum (Pm m c) (I0m m c) (smp t.val) = sampleSum (Pm m c) (I0m m c) _
  refine congrArg _ (Fin.ext ?_)
  show t.val / 64 % 16 = win0_3.index t 0 * win0_3.size 0 + 1 * (j 0).val
  rw [hi0]; omega

/-- Every entry of the array lies in the block of its sample's last point. -/
theorem cover0 (i : S16x8x128.Idx) :
    ∃ t : Fin cfg0.N, (cfg0.win 3).flush t = true ∧ i ∈ ((cfg0.win 3).blk t).view.set := by
  have h0 : (i 0 : Nat) < 16 := (i 0).isLt
  have h1 : (i 1 : Nat) < 8 := (i 1).isLt
  have h2 : (i 2 : Nat) < 128 := (i 2).isLt
  have hN : cfg0.N = 1024 := N_0
  have ht : 64 * (i 0 : Nat) + 63 < cfg0.N := by omega
  refine ⟨⟨64 * (i 0 : Nat) + 63, ht⟩, (flush0_3 _).mpr (by show (64 * (i 0 : Nat) + 63) % 64 = 63; omega), ?_⟩
  obtain ⟨e0, x0, e1, x1, e2, x2⟩ := win3_facts ⟨64 * (i 0 : Nat) + 63, ht⟩
  show i ∈ ((View.whole main_v4_0).slice (win0_3.rect ⟨64 * (i 0 : Nat) + 63, ht⟩)).set
  rw [View.set_slice_whole, Rect.mem_set_unit]
  intro a
  match a with
  | ⟨0, _⟩ =>
    show win0_3.index ⟨64 * (i 0 : Nat) + 63, ht⟩ 0 * win0_3.size 0 ≤ (i 0 : Nat)
      ∧ (i 0 : Nat) < win0_3.index ⟨64 * (i 0 : Nat) + 63, ht⟩ 0 * win0_3.size 0 + win0_3.xsize (grid0.coords ⟨64 * (i 0 : Nat) + 63, ht⟩) 0
    rw [e0, x0]; show (64 * (i 0 : Nat) + 63) / 64 ≤ (i 0 : Nat) ∧ (i 0 : Nat) < (64 * (i 0 : Nat) + 63) / 64 + 1; omega
  | ⟨1, _⟩ =>
    show win0_3.index ⟨64 * (i 0 : Nat) + 63, ht⟩ 1 * win0_3.size 1 ≤ (i 1 : Nat)
      ∧ (i 1 : Nat) < win0_3.index ⟨64 * (i 0 : Nat) + 63, ht⟩ 1 * win0_3.size 1 + win0_3.xsize (grid0.coords ⟨64 * (i 0 : Nat) + 63, ht⟩) 1
    rw [e1, x1]; omega
  | ⟨2, _⟩ =>
    show win0_3.index ⟨64 * (i 0 : Nat) + 63, ht⟩ 2 * win0_3.size 2 ≤ (i 2 : Nat)
      ∧ (i 2 : Nat) < win0_3.index ⟨64 * (i 0 : Nat) + 63, ht⟩ 2 * win0_3.size 2 + win0_3.xsize (grid0.coords ⟨64 * (i 0 : Nat) + 63, ht⟩) 2
    rw [e2, x2]; omega

/-- The second output array as it ends: entry `(b, ·, ·)` is sample `b`'s sum for the second table. -/
abbrev G1 (c : Dev nD) : Buf (Elt Ideal) ((c.tc : Thread nD τ).loc main_v4_1) :=
  fun i => sampleSum (Pm m c) (I1m m c) (i 0)

/-- The second output's block at point `t` is block `t / 64` along the sample axis, whole along the other two. -/
theorem win4_facts : ∀ t : Fin cfg0.N,
    win0_4.index t 0 * win0_4.size 0 = t.val / 64 ∧ win0_4.xsize (grid0.coords t) 0 = 1
    ∧ win0_4.index t 1 * win0_4.size 1 = 0 ∧ win0_4.xsize (grid0.coords t) 1 = 8
    ∧ win0_4.index t 2 * win0_4.size 2 = 0 ∧ win0_4.xsize (grid0.coords t) 2 = 128 :=
  (by decide +kernel : ∀ t : Fin grid0.N,
    win0_4.index t 0 * win0_4.size 0 = t.val / 64 ∧ win0_4.xsize (grid0.coords t) 0 = 1
    ∧ win0_4.index t 1 * win0_4.size 1 = 0 ∧ win0_4.xsize (grid0.coords t) 1 = 8
    ∧ win0_4.index t 2 * win0_4.size 2 = 0 ∧ win0_4.xsize (grid0.coords t) 2 = 128)

/-- What a sample's last point writes back is its block of that array. -/
theorem flushed1 (c : Dev nD) (hP : ∀ i, IsReal (Pm m c i)) (hI : ∀ i, (I1m m c i).toNat < 512)
    (t : Fin cfg0.N) (hf : (cfg0.win 4).flush t = true) :
    (dats m 0 c).flushed 4 t = ((cfg0.win 4).blk t).view.read (Elt Ideal) (G1 m c) := by
  have h2 : t.val % 64 = 63 := (flush0_4 t).mp hf
  have hN : t.val < 1024 := lt_of_lt_of_eq t.isLt (show cfg0.N = 1024 from N_0)
  show (cfg0.win 4).cut (grid0.coords t) ((dats m 0 c).after 4 t) = _
  rw [after0_4, out1_last m c hP hI t.val t.isLt h2]
  funext j
  rw [View.read_apply]
  obtain ⟨hi0, hx0, _⟩ := win4_facts t
  have hj : (j 0).val < 1 := lt_of_lt_of_eq (j 0).isLt hx0
  show sampleSum (Pm m c) (I1m m c) (smp t.val) = sampleSum (Pm m c) (I1m m c) _
  refine congrArg _ (Fin.ext ?_)
  show t.val / 64 % 16 = win0_4.index t 0 * win0_4.size 0 + 1 * (j 0).val
  rw [hi0]; omega

/-- Every entry of the array lies in the block of its sample's last point. -/
theorem cover1 (i : S16x8x128.Idx) :
    ∃ t : Fin cfg0.N, (cfg0.win 4).flush t = true ∧ i ∈ ((cfg0.win 4).blk t).view.set := by
  have h0 : (i 0 : Nat) < 16 := (i 0).isLt
  have h1 : (i 1 : Nat) < 8 := (i 1).isLt
  have h2 : (i 2 : Nat) < 128 := (i 2).isLt
  have hN : cfg0.N = 1024 := N_0
  have ht : 64 * (i 0 : Nat) + 63 < cfg0.N := by omega
  refine ⟨⟨64 * (i 0 : Nat) + 63, ht⟩, (flush0_4 _).mpr (by show (64 * (i 0 : Nat) + 63) % 64 = 63; omega), ?_⟩
  obtain ⟨e0, x0, e1, x1, e2, x2⟩ := win4_facts ⟨64 * (i 0 : Nat) + 63, ht⟩
  show i ∈ ((View.whole main_v4_1).slice (win0_4.rect ⟨64 * (i 0 : Nat) + 63, ht⟩)).set
  rw [View.set_slice_whole, Rect.mem_set_unit]
  intro a
  match a with
  | ⟨0, _⟩ =>
    show win0_4.index ⟨64 * (i 0 : Nat) + 63, ht⟩ 0 * win0_4.size 0 ≤ (i 0 : Nat)
      ∧ (i 0 : Nat) < win0_4.index ⟨64 * (i 0 : Nat) + 63, ht⟩ 0 * win0_4.size 0 + win0_4.xsize (grid0.coords ⟨64 * (i 0 : Nat) + 63, ht⟩) 0
    rw [e0, x0]; show (64 * (i 0 : Nat) + 63) / 64 ≤ (i 0 : Nat) ∧ (i 0 : Nat) < (64 * (i 0 : Nat) + 63) / 64 + 1; omega
  | ⟨1, _⟩ =>
    show win0_4.index ⟨64 * (i 0 : Nat) + 63, ht⟩ 1 * win0_4.size 1 ≤ (i 1 : Nat)
      ∧ (i 1 : Nat) < win0_4.index ⟨64 * (i 0 : Nat) + 63, ht⟩ 1 * win0_4.size 1 + win0_4.xsize (grid0.coords ⟨64 * (i 0 : Nat) + 63, ht⟩) 1
    rw [e1, x1]; omega
  | ⟨2, _⟩ =>
    show win0_4.index ⟨64 * (i 0 : Nat) + 63, ht⟩ 2 * win0_4.size 2 ≤ (i 2 : Nat)
      ∧ (i 2 : Nat) < win0_4.index ⟨64 * (i 0 : Nat) + 63, ht⟩ 2 * win0_4.size 2 + win0_4.xsize (grid0.coords ⟨64 * (i 0 : Nat) + 63, ht⟩) 2
    rw [e2, x2]; omega

/-- The first output array ends holding, in block `b`, the first table's sum for sample `b`. -/
theorem final0 (c : Dev nD) (hP : ∀ i, IsReal (m ((c.tc : Thread nD τ).loc main_arg0) i))
    (hI : ∀ i, (m ((c.tc : Thread nD τ).loc main_arg1) i).toNat < 512) :
    (dats m 0 c).arrAt 3 cfg0.N
      = (fun i => sampleSum (m ((c.tc : Thread nD τ).loc main_arg0)) (m ((c.tc : Thread nD τ).loc main_arg1)) (i 0) :
          Buf (Elt Ideal) ((c.tc : Thread nD τ).loc main_v4_0)) :=
  (dats m 0 c).arrAt_eq_of_cover 3 (G0 m c) (flushed0 m c hP hI) cover0

/-- The second output array ends holding, in block `b`, the second table's sum for sample `b`. -/
theorem final1 (c : Dev nD) (hP : ∀ i, IsReal (m ((c.tc : Thread nD τ).loc main_arg0) i))
    (hI : ∀ i, (m ((c.tc : Thread nD τ).loc main_arg2) i).toNat < 512) :
    (dats m 0 c).arrAt 4 cfg0.N
      = (fun i => sampleSum (m ((c.tc : Thread nD τ).loc main_arg0)) (m ((c.tc : Thread nD τ).loc main_arg2)) (i 0) :
          Buf (Elt Ideal) ((c.tc : Thread nD τ).loc main_v4_1)) :=
  (dats m 0 c).arrAt_eq_of_cover 4 (G1 m c) (flushed1 m c hP hI) cover1

end Cert.KernelIdeal.Inv

end
-- ==== Proof.LibReduce.lean ====
/-
  Sums of the host's float reduction read at an index.

  The host's `stablehlo.reduce` with an add body is, at the ideal values, the initial value plus the sum of the
  operand over the indices that reduce to the result index (`Ideal.hostReduceAdd`). The library reads that sum
  for one reduced axis and for a result of one element. Here it is read for a rank-three array summed over two
  of its axes into the third: the indices that reduce to a coordinate of the kept axis are exactly the triples
  with that coordinate there, so the sum is the double sum over the two other coordinates.
-/
import Idealize.ShloMosaic.PureOps.Ideal
import Idealize.ShloMosaic.PureOps.Ideal.Laws
import Idealize.ShloMosaic.PureOps.Reduce
import Idealize.ShloMosaic.Lib.ValueIdx
import Mathlib.Algebra.BigOperators.Group.Finset.Defs
import Mathlib.Data.Fintype.BigOperators

noncomputable section

namespace Cert.LibReduce

open Idealize.ShloMosaic Idealize.ShloMosaic.ValueIdx

/-- A sum over a rank-one index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- The host's float sum of a vector into a scalar: the initial value plus the sum over the coordinate. -/
theorem hostReduceAdd_all1 {n : Nat} (h : (⟨1, ![n]⟩ : Shape).ReducesTo [0] ⟨0, ![]⟩)
    (x : (⟨1, ![n]⟩ : Shape).Idx → EReal) (init : EReal) (j : (⟨0, ![]⟩ : Shape).Idx) :
    Ideal.hostReduceAdd h x init j = init + ∑ a : Fin n, x (ix1 a) := by
  rw [Ideal.hostReduceAdd_total h (fun b => b.elim0), sum_idx1]

/-- The host's float sum over the two TRAILING axes of a rank-three array: at `b`, the initial value plus the
    double sum over the two trailing coordinates. The indices that reduce to `b` are exactly the `(b, i, j)`. -/
theorem hostReduceAdd_tail2 {n0 n1 n2 : Nat}
    (h : (⟨3, ![n0, n1, n2]⟩ : Shape).ReducesTo [1, 2] ⟨1, ![n0]⟩)
    (x : (⟨3, ![n0, n1, n2]⟩ : Shape).Idx → EReal) (init : EReal) (b : Fin n0) :
    Ideal.hostReduceAdd h x init (ix1 b) = init + ∑ i : Fin n1, ∑ j : Fin n2, x (ix3 b i j) := by
  unfold Ideal.hostReduceAdd
  refine congrArg (init + ·) ?_
  rw [← Fintype.sum_prod_type' (f := fun i j => x (ix3 b i j))]
  have hd : ∀ idx : (⟨3, ![n0, n1, n2]⟩ : Shape).Idx, ((h.drop idx) 0 : Nat) = idx 0 := fun idx => rfl
  refine Finset.sum_nbij' (fun idx => (idx 1, idx 2)) (fun p => ix3 b p.1 p.2) ?_ ?_ ?_ ?_ ?_
  · intro idx _; exact Finset.mem_univ _
  · intro p _
    rw [Finset.mem_filter]
    refine ⟨Finset.mem_univ _, funext fun a => Fin.ext ?_⟩
    match a with
    | ⟨0, _⟩ => exact hd _
  · intro idx hidx
    rw [Finset.mem_filter] at hidx
    have h0 : (idx 0 : Nat) = b.val := by rw [← hd idx, hidx.2]; rfl
    refine funext fun a => Fin.ext ?_
    match a with
    | ⟨0, _⟩ => exact h0.symm
    | ⟨1, _⟩ => rfl
    | ⟨2, _⟩ => rfl
  · intro p _; rfl
  · intro idx hidx
    rw [Finset.mem_filter] at hidx
    have h0 : (idx 0 : Nat) = b.val := by rw [← hd idx, hidx.2]; rfl
    refine congrArg x (funext fun a => Fin.ext ?_)
    match a with
    | ⟨0, _⟩ => exact h0
    | ⟨1, _⟩ => rfl
    | ⟨2, _⟩ => rfl

/-- The host's float sum over the two LEADING axes of a rank-three array: at `l`, the initial value plus the
    double sum over the two leading coordinates. The indices that reduce to `l` are exactly the `(i, j, l)`. -/
theorem hostReduceAdd_lead2 {n0 n1 n2 : Nat}
    (h : (⟨3, ![n0, n1, n2]⟩ : Shape).ReducesTo [0, 1] ⟨1, ![n2]⟩)
    (x : (⟨3, ![n0, n1, n2]⟩ : Shape).Idx → EReal) (init : EReal) (l : Fin n2) :
    Ideal.hostReduceAdd h x init (ix1 l) = init + ∑ i : Fin n0, ∑ j : Fin n1, x (ix3 i j l) := by
  unfold Ideal.hostReduceAdd
  refine congrArg (init + ·) ?_
  rw [← Fintype.sum_prod_type' (f := fun i j => x (ix3 i j l))]
  have hd : ∀ idx : (⟨3, ![n0, n1, n2]⟩ : Shape).Idx, ((h.drop idx) 0 : Nat) = idx 2 := fun idx => rfl
  refine Finset.sum_nbij' (fun idx => (idx 0, idx 1)) (fun p => ix3 p.1 p.2 l) ?_ ?_ ?_ ?_ ?_
  · intro idx _; exact Finset.mem_univ _
  · intro p _
    rw [Finset.mem_filter]
    refine ⟨Finset.mem_univ _, funext fun a => Fin.ext ?_⟩
    match a with
    | ⟨0, _⟩ => exact hd _
  · intro idx hidx
    rw [Finset.mem_filter] at hidx
    have h2 : (idx 2 : Nat) = l.val := by rw [← hd idx, hidx.2]; rfl
    refine funext fun a => Fin.ext ?_
    match a with
    | ⟨0, _⟩ => rfl
    | ⟨1, _⟩ => rfl
    | ⟨2, _⟩ => exact h2.symm
  · intro p _; rfl
  · intro idx hidx
    rw [Finset.mem_filter] at hidx
    have h2 : (idx 2 : Nat) = l.val := by rw [← hd idx, hidx.2]; rfl
    refine congrArg x (funext fun a => Fin.ext ?_)
    match a with
    | ⟨0, _⟩ => rfl
    | ⟨1, _⟩ => rfl
    | ⟨2, _⟩ => exact h2

end Cert.LibReduce

end
-- ==== Proof.KRun.lean ====
/-
  The kernel program's run with its result read: the lines after the kernel take entry `(b, 0, 0)` of each output
  array, add the sixteen of them up per table, add the two sums and divide by 16.

  After the whole grid, entry `(b, ·, ·)` of each output array is sample `b`'s sum for that array's table.  So the
  sixteen entries the lines after the kernel pick are the sixteen sample sums, their sum is the table's total, and
  the result is (first total + second total) / 16.  The lines write only buffers of their own, so the three arguments
  end as they began.
-/
import proofs.«419365_j60447369724095_4_alg».proof.Proof.KInv
import proofs.«419365_j60447369724095_4_alg».proof.Proof.LibReduce
import Idealize.ShloMosaic.Lib.StableHlo.Run
import Idealize.ShloMosaic.Lib.IdealHost
import Idealize.ShloMosaic.Lib.Pipeline.Value
import Idealize.ShloMosaic.PureOps.Ideal.Laws

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Lib.RealArith BirthDeath

/-! ## The lines after the kernel, as one function of the two output arrays -/

/-- One table's part: entry `(b, 0, 0)` of the output array for every sample `b`, as a vector of sixteen, summed
    from zero. -/
def colSum (a : FVec Ideal S16x8x128 .f32) : FVec Ideal S_ .f32 :=
  Host.reduceAdd (F := Ideal)
    (shapeCast S16 (extractStridedSlice S16x1x1 ![0, 0, 0] a slices_S16x8x128_S16x1x1_0_0_0) shapeCasts_S16x1x1_S16)
    (constant (F := Ideal) S_ .f32 0x00000000#32) reducesTo_S16_S_d0 h_S_

/-- The result: the two tables' parts added, the sum divided by the word of sixteen. -/
def tail (a0 a1 : FVec Ideal S16x8x128 .f32) : FVec Ideal S_ .f32 :=
  Host.divf (F := Ideal) (addf (F := Ideal) (colSum a0) (colSum a1)) (constant (F := Ideal) S_ .f32 0x41800000#32)

/-- On an array that holds `s b` in every entry of block `b`, a table's part is `∑ b, s b`: the entry picked for
    sample `b` is `(b, 0, 0)`, position `b` of the vector of sixteen, and the sum starts from the zero word. -/
theorem colSum_apply (s : Fin 16 → EReal) (j : S_.Idx) :
    colSum (fun i => s (i 0)) j = ∑ b : Fin 16, s b := by
  unfold colSum
  rw [hostReduceAdd_apply, Cert.LibReduce.hostReduceAdd_all1, constant_apply, Ideal.ofBits_zero_f32, zero_add]
  refine Finset.sum_congr rfl fun b _ => ?_
  refine (shapeCast_apply _ shapeCasts_S16x1x1_S16 (ix1 b) (ix3 b 0 0) ?_).trans ?_
  · rw [Shape.rowMajor_val_one, Shape.rowMajor_val_three]
    show b.val * 1 * 1 + 0 * 1 + 0 = b.val
    omega
  refine (extractStridedSlice_apply ![0, 0, 0] _ slices_S16x8x128_S16x1x1_0_0_0 (ix3 b 0 0) (ix3 b 0 0) fun a => ?_).trans rfl
  match a with
  | ⟨0, _⟩ => show b.val = 0 + b.val; omega
  | ⟨1, _⟩ => rfl
  | ⟨2, _⟩ => rfl

/-- On two such arrays the result is (the one sum + the other) / 16. -/
theorem tail_eq (s0 s1 : Fin 16 → EReal) :
    tail (fun i => s0 (i 0)) (fun i => s1 (i 0))
      = fun _ => Ideal.div ((∑ b : Fin 16, s0 b) + ∑ b : Fin 16, s1 b) sixteen := by
  funext j
  unfold tail
  rw [hostDivf_apply, addf_apply, colSum_apply, colSum_apply]
  rfl

/-! ## The run -/

/-- What the lines after the kernel leave in the result buffer, from the two output arrays as the whole grid leaves
    them: (first total + second total) / 16. -/
theorem result_eq (m : (ℓ : Loc nD τ sig) → Buf (Elt Ideal) ℓ) (c : Dev nD)
    (hP : ∀ i, IsReal (m ((c.tc : Thread nD τ).loc main_arg0) i))
    (hI0 : ∀ i, (m ((c.tc : Thread nD τ).loc main_arg1) i).toNat < 512)
    (hI1 : ∀ i, (m ((c.tc : Thread nD τ).loc main_arg2) i).toNat < 512) :
    Pipeline.afterTail₀ cfgs (dats m) 0 (V0 m) [hostOps1] c main_v12
      = fun _ => Ideal.div (total (m ((c.tc : Thread nD τ).loc main_arg0)) (m ((c.tc : Thread nD τ).loc main_arg1))
          + total (m ((c.tc : Thread nD τ).loc main_arg0)) (m ((c.tc : Thread nD τ).loc main_arg2))) sixteen := by
  have e0 : Pipeline.withArrays (cfgs 0).spec c (V0 m c) (fun w => (dats m 0 c).arrAt w (cfgs 0).N) (Proc.devRef .tc main_v4_0)
      = fun i => sampleSum (m ((c.tc : Thread nD τ).loc main_arg0)) (m ((c.tc : Thread nD τ).loc main_arg1)) (i 0) :=
    (Pipeline.withArrays_arr spec0 launch0.win.arr_inj c _ _ 3).trans (Inv.final0 m c hP hI0)
  have e1 : Pipeline.withArrays (cfgs 0).spec c (V0 m c) (fun w => (dats m 0 c).arrAt w (cfgs 0).N) (Proc.devRef .tc main_v4_1)
      = fun i => sampleSum (m ((c.tc : Thread nD τ).loc main_arg0)) (m ((c.tc : Thread nD τ).loc main_arg2)) (i 0) :=
    (Pipeline.withArrays_arr spec0 launch0.win.arr_inj c _ _ 4).trans (Inv.final1 m c hP hI1)
  unfold Pipeline.afterTail₀
  show StableHlo.after hostOps1 _ (Proc.devRef .tc main_v12) = _
  after_results
  exact (congrArg₂ tail e0 e1).trans
    (tail_eq (sampleSum (m ((c.tc : Thread nD τ).loc main_arg0)) (m ((c.tc : Thread nD τ).loc main_arg1)))
      (sampleSum (m ((c.tc : Thread nD τ).loc main_arg0)) (m ((c.tc : Thread nD τ).loc main_arg2))))

/-- Every weakly fair execution of the kernel program ends with its result at (first total + second total) / 16 and
    its arguments unchanged, when the image entries are real and every interval word is below 512. -/
theorem run (m : (ℓ : Loc nD τ sig) → Buf (Elt Ideal) ℓ) (ρ : Dev nD → PrngReg)
    (hP : ∀ (c : Dev nD) i, IsReal (m ((c.tc : Thread nD τ).loc main_arg0) i))
    (hI0 : ∀ (c : Dev nD) i, (m ((c.tc : Thread nD τ).loc main_arg1) i).toNat < 512)
    (hI1 : ∀ (c : Dev nD) i, (m ((c.tc : Thread nD τ).loc main_arg2) i).toNat < 512) :
    θ_run (defs (F := Ideal)) (onTc (τ := τ) (main (F := Ideal))) ⟨m, fun _ => 0, ρ⟩ fun r => ∀ c : Dev nD,
      r.2.mem ((c.tc : Thread nD τ).loc main_v12)
        = (fun _ => Ideal.div (total (m ((c.tc : Thread nD τ).loc main_arg0)) (m ((c.tc : Thread nD τ).loc main_arg1))
            + total (m ((c.tc : Thread nD τ).loc main_arg0)) (m ((c.tc : Thread nD τ).loc main_arg2))) sixteen)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans
        (result_eq m c (hP c) (hI0 c) (hI1 c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRun.lean ====
/-
  The reference program's run, its result read as the loss.

  The reference flattens each interval table to 2097152 intervals numbered row-major over (sample, class, interval).
  For flat interval `k` it forms four index columns — the sample number `k / 131072`, the class number
  `k / 16384 % 8`, and the row and column words of the birth (resp. death) pixel — and gathers the image stack at
  the four-component index.  Each component is wrapped (a negative one has the axis size added) and then clamped into
  its axis; a component that is already a valid coordinate passes both unchanged.  The two gathered vectors are
  subtracted, squared and summed; the sum is divided by sixteen, and the two tables' quotients are added.
-/
import proofs.«419365_j60447369724095_4_alg».proof.Proof.Spec
import proofs.«419365_j60447369724095_4_alg».proof.Proof.Bridge
import proofs.«419365_j60447369724095_4_alg».proof.Proof.LibReduce
import proofs.«419365_j60447369724095_4_alg».proof.Proof.Gen.ReferenceIdeal.Run
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.Value

/-! ## A gather with a four-component start index, every operand axis collapsed -/

section Gather4
variable {α : Type} {A B C D n w : Nat}

/-- The start-indices index at which result position `p` reads component `c` of its start index: row `p`,
    column `c`. -/
theorem siIdx_row (d : GatherDims ⟨4, ![A, B, C, D]⟩ ⟨2, ![n, 4]⟩ ⟨1, ![n]⟩) (hivd : d.indexVectorDim = 1)
    (p : Fin n) (c : Fin d.startIndexMap.length) (hc : c.val < 4) :
    d.siIdx (ix1 p) c = ix2 p ⟨c.val, hc⟩ := by
  funext b
  apply Fin.ext
  match b with
  | ⟨0, _⟩ =>
    unfold GatherDims.siIdx
    rw [dif_neg (by rw [hivd]; exact Nat.zero_ne_one)]
    unfold GatherDims.siCoord
    rw [Fin.val_cast]
    have e : ∀ X : Fin 1, ((ix1 p : (⟨1, ![n]⟩ : Shape).Idx) X).val = p.val := fun X => by
      obtain rfl : X = 0 := Subsingleton.elim _ _
      rfl
    exact e _
  | ⟨1, _⟩ =>
    unfold GatherDims.siIdx
    rw [dif_pos (by rw [hivd])]

/-- One coordinate of the operand index the gather reads at position `p`: axis `a` is collapsed and named by the
    start index map at its own position, so the coordinate is component `a` of row `p`, read signed and clamped into
    the axis. -/
theorem operandIdx_component (d : GatherDims ⟨4, ![A, B, C, D]⟩ ⟨2, ![n, 4]⟩ ⟨1, ![n]⟩)
    (hcoll : d.collapsedSliceDims = [0, 1, 2, 3]) (hob : d.operandBatchingDims = [])
    (hsim : d.startIndexMap = [0, 1, 2, 3]) (hivd : d.indexVectorDim = 1)
    (idx : IVec ⟨2, ![n, 4]⟩ w) (p : Fin n) (a : Fin 4) (hmem : a ∈ ([0, 1, 2, 3] : List (Fin 4)))
    (hidx : List.idxOf a ([0, 1, 2, 3] : List (Fin 4)) = a.val) :
    (d.operandIdx (ix1 p) idx a).val
      = min (idx (ix2 p a)).toInt.toNat ((⟨4, ![A, B, C, D]⟩ : Shape).size a - 1) := by
  have hb : a ∉ d.operandBatchingDims := by rw [hob]; exact List.not_mem_nil
  have hk : a ∉ d.sKept := by rw [GatherDims.mem_sKept, hcoll]; exact fun h => h.1 hmem
  have hm : a ∈ d.startIndexMap := by rw [hsim]; exact hmem
  have hsl : d.sliceSizes a = 1 := d.slice_collapsed a (by rw [hcoll]; exact hmem)
  have hidx' : d.startIndexMap.idxOf a = a.val := by rw [hsim]; exact hidx
  have hc : (⟨d.startIndexMap.idxOf a, List.idxOf_lt_length_iff.2 hm⟩ : Fin d.startIndexMap.length).val < 4 := by
    show d.startIndexMap.idxOf a < 4
    rw [hidx']; exact a.isLt
  show d.start (ix1 p) idx a + d.batchCoord (ix1 p) a + d.offCoord (ix1 p) a = _
  rw [GatherDims.batchCoord_eq_zero _ _ _ hb, GatherDims.offCoord_eq_zero _ _ _ hk]
  show d.start (ix1 p) idx a = _
  unfold GatherDims.start
  rw [dif_pos hm, hsl, siIdx_row d hivd p _ hc]
  have hcol : (⟨(⟨d.startIndexMap.idxOf a, List.idxOf_lt_length_iff.2 hm⟩ : Fin d.startIndexMap.length).val, hc⟩ : Fin 4)
      = a := Fin.ext hidx'
  rw [hcol]

/-- The gather read at position `p`, when the four components of row `p` of the start indices, read signed, are
    valid coordinates `(a0, a1, a2, a3)` of the operand: the operand there.  (The clamp into each axis leaves a valid
    coordinate unchanged.) -/
theorem gather4_apply (d : GatherDims ⟨4, ![A, B, C, D]⟩ ⟨2, ![n, 4]⟩ ⟨1, ![n]⟩)
    (hcoll : d.collapsedSliceDims = [0, 1, 2, 3]) (hob : d.operandBatchingDims = [])
    (hsim : d.startIndexMap = [0, 1, 2, 3]) (hivd : d.indexVectorDim = 1)
    (x : (⟨4, ![A, B, C, D]⟩ : Shape).Idx → α) (idx : IVec ⟨2, ![n, 4]⟩ w) (p : Fin n)
    (a0 : Fin A) (a1 : Fin B) (a2 : Fin C) (a3 : Fin D)
    (h0 : (idx (ix2 p 0)).toInt.toNat = a0.val) (h1 : (idx (ix2 p 1)).toInt.toNat = a1.val)
    (h2 : (idx (ix2 p 2)).toInt.toNat = a2.val) (h3 : (idx (ix2 p 3)).toInt.toNat = a3.val) :
    Host.gather d x idx (ix1 p) = x (ix4 a0 a1 a2 a3) := by
  unfold Host.gather
  congr 1
  funext a
  apply Fin.ext
  match a with
  | ⟨0, _⟩ =>
    refine (operandIdx_component d hcoll hob hsim hivd idx p (0 : Fin 4) (by decide) (by decide)).trans ?_
    rw [h0]; have := a0.isLt; show min a0.val (A - 1) = a0.val; omega
  | ⟨1, _⟩ =>
    refine (operandIdx_component d hcoll hob hsim hivd idx p (1 : Fin 4) (by decide) (by decide)).trans ?_
    rw [h1]; have := a1.isLt; show min a1.val (B - 1) = a1.val; omega
  | ⟨2, _⟩ =>
    refine (operandIdx_component d hcoll hob hsim hivd idx p (2 : Fin 4) (by decide) (by decide)).trans ?_
    rw [h2]; have := a2.isLt; show min a2.val (C - 1) = a2.val; omega
  | ⟨3, _⟩ =>
    refine (operandIdx_component d hcoll hob hsim hivd idx p (3 : Fin 4) (by decide) (by decide)).trans ?_
    rw [h3]; have := a3.isLt; show min a3.val (D - 1) = a3.val; omega

end Gather4

/-! ## The index columns at a flat interval number -/

section Columns
variable {α : Type}

/-- The sample of flat interval `k`. -/
abbrev kb (k : Fin 2097152) : Fin 16 := ⟨k.val / 131072, by have := k.isLt; omega⟩
/-- The class of flat interval `k`. -/
abbrev kc (k : Fin 2097152) : Fin 8 := ⟨k.val / 16384 % 8, Nat.mod_lt _ (by norm_num)⟩
/-- The interval number of flat interval `k` within its image. -/
abbrev kn (k : Fin 2097152) : Fin 16384 := ⟨k.val % 16384, Nat.mod_lt _ (by norm_num)⟩
/-- The position of flat interval `k` within its sample. -/
abbrev kq (k : Fin 2097152) : Fin 131072 := ⟨k.val % 131072, Nat.mod_lt _ (by norm_num)⟩

/-- The sample column: the numbers 0 … 15 each repeated 131072 times, flattened; at `k` it is `k / 131072`. -/
theorem sample_col (h1 : S16.BroadcastsInDim S16x131072 ![0]) (h2 : S16x131072.ShapeCasts S2097152) (k : Fin 2097152) :
    shapeCast S2097152 (broadcastInDim S16x131072 ![0] h1 (iotaInDim S16 32 0 : IVec S16 32)) h2 (ix1 k)
      = BitVec.ofNat 32 (k.val / 131072) := by
  refine (shapeCast_apply _ h2 (ix1 k) (ix2 (kb k) (kq k)) ?_).trans ?_
  · rw [Shape.rowMajor_val_one, Shape.rowMajor_val_two]
    show k.val / 131072 * 131072 + k.val % 131072 = k.val
    omega
  refine (broadcastInDim_apply ![0] h1 _ (ix2 (kb k) (kq k)) (ix1 (kb k)) fun a => ?_).trans rfl
  match a with
  | ⟨0, _⟩ => rfl

/-- The class column: the numbers 0 … 7 each repeated 16384 times, that row repeated for the 16 samples, flattened; at
    `k` it is `k / 16384 % 8`. -/
theorem class_col (h1 : S8.BroadcastsInDim S8x16384 ![0]) (h2 : S8x16384.ShapeCasts S131072)
    (h3 : S131072.ShapeCasts S1x131072) (h4 : S1x131072.BroadcastsInDim S16x131072 ![0, 1])
    (h5 : S16x131072.ShapeCasts S2097152) (k : Fin 2097152) :
    shapeCast S2097152 (broadcastInDim S16x131072 ![0, 1] h4 (shapeCast S1x131072 (shapeCast S131072
      (broadcastInDim S8x16384 ![0] h1 (iotaInDim S8 32 0 : IVec S8 32)) h2) h3)) h5 (ix1 k)
      = BitVec.ofNat 32 (k.val / 16384 % 8) := by
  have hq : (kq k).val / 16384 < 8 := by have := (kq k).isLt; omega
  refine (shapeCast_apply _ h5 (ix1 k) (ix2 (kb k) (kq k)) ?_).trans ?_
  · rw [Shape.rowMajor_val_one, Shape.rowMajor_val_two]
    show k.val / 131072 * 131072 + k.val % 131072 = k.val
    omega
  refine (broadcastInDim_apply ![0, 1] h4 _ (ix2 (kb k) (kq k)) (ix2 (0 : Fin 1) (kq k)) fun a => ?_).trans ?_
  · match a with
    | ⟨0, _⟩ => rfl
    | ⟨1, _⟩ => rfl
  refine (shapeCast_apply _ h3 (ix2 (0 : Fin 1) (kq k)) (ix1 (kq k)) ?_).trans ?_
  · rw [Shape.rowMajor_val_one, Shape.rowMajor_val_two]
    show k.val % 131072 = 0 * 131072 + k.val % 131072
    omega
  refine (shapeCast_apply _ h2 (ix1 (kq k)) (ix2 (⟨(kq k).val / 16384, hq⟩ : Fin 8)
    (⟨(kq k).val % 16384, Nat.mod_lt _ (by norm_num)⟩ : Fin 16384)) ?_).trans ?_
  · rw [Shape.rowMajor_val_one, Shape.rowMajor_val_two]
    show k.val % 131072 / 16384 * 16384 + k.val % 131072 % 16384 = k.val % 131072
    omega
  refine (broadcastInDim_apply ![0] h1 _ _ (ix1 (⟨(kq k).val / 16384, hq⟩ : Fin 8)) fun a => ?_).trans ?_
  · match a with
    | ⟨0, _⟩ => rfl
  show BitVec.ofNat 32 (k.val % 131072 / 16384) = _
  refine congrArg (BitVec.ofNat 32) ?_
  omega

/-- A word column: the interval table flattened to [2097152, 2, 2], sliced at (birth/death `j`, row/column `l`) and
    flattened; at `k` it is word `(j, l)` of interval `k`'s entry. -/
theorem word_col (I : S16x8x16384x2x2.Idx → BitVec 32) (j l : Fin 2) (off : Fin 3 → Nat)
    (ho0 : off 0 = 0) (ho1 : off 1 = j.val) (ho2 : off 2 = l.val)
    (h1 : S16x8x16384x2x2.ShapeCasts S2097152x2x2) (hs : S2097152x2x2.Slices off S2097152x1x1)
    (h2 : S2097152x1x1.ShapeCasts S2097152) (k : Fin 2097152) :
    shapeCast S2097152 (extractStridedSlice S2097152x1x1 off (shapeCast S2097152x2x2 I h1) hs) h2 (ix1 k)
      = I (ix5 (kb k) (kc k) (kn k) j l) := by
  have hj := j.isLt
  have hl := l.isLt
  refine (shapeCast_apply _ h2 (ix1 k) (ix3 k (0 : Fin 1) (0 : Fin 1)) ?_).trans ?_
  · rw [Shape.rowMajor_val_one, Shape.rowMajor_val_three]
    show (k.val * 1 + 0) * 1 + 0 = k.val
    omega
  refine (extractStridedSlice_apply off _ hs (ix3 k (0 : Fin 1) (0 : Fin 1)) (ix3 k j l) fun a => ?_).trans ?_
  · match a with
    | ⟨0, _⟩ => show k.val = off 0 + k.val; rw [ho0, Nat.zero_add]
    | ⟨1, _⟩ => show j.val = off 1 + 0; rw [ho1, Nat.add_zero]
    | ⟨2, _⟩ => show l.val = off 2 + 0; rw [ho2, Nat.add_zero]
  refine shapeCast_apply I h1 (ix3 k j l) (ix5 (kb k) (kc k) (kn k) j l) ?_
  rw [Shape.rowMajor_val_five, Shape.rowMajor_val_three]
  show (((k.val / 131072 * 8 + k.val / 16384 % 8) * 16384 + k.val % 16384) * 2 + j.val) * 2 + l.val
    = (k.val * 2 + j.val) * 2 + l.val
  omega

/-- A word that is not negative as a signed number passes the wrap (add the axis size to a negative index)
    unchanged. -/
theorem wrap_nonneg (x N : BitVec 32) (hx : x.toNat < 2 ^ 31) :
    Scalar.select (IntOp.cmpi .slt x 0#32) (IntOp.addi x N) x = x := by
  have h : IntOp.cmpi .slt x 0#32 = 0#1 := by
    refine eq_zero_of_ne_one fun h1 => ?_
    have h2 := (StableHlo.Predicate.slt_iff_toNat hx (by decide)).mp h1
    exact absurd h2 (Nat.not_lt_zero _)
  rw [h]
  exact select_zero _ _

/-- A vector of indices, wrapped, as a one-column matrix. -/
abbrev wrapCol (hb : S2097152.BroadcastsInDim S2097152x1 ![0]) (hz : S_.BroadcastsInDim S2097152 ![])
    (x : IVec S2097152 32) (N : BitVec 32) : IVec S2097152x1 32 :=
  broadcastInDim S2097152x1 ![0] hb (select (cmpi .slt x (broadcastInDim S2097152 ![] hz (constantI S_ 32 0#32)))
    (addi x (broadcastInDim S2097152 ![] hz (constantI S_ 32 N))) x)

/-- The wrapped column at row `k`, over a non-negative entry: the entry. -/
theorem wrapCol_apply (hb : S2097152.BroadcastsInDim S2097152x1 ![0]) (hz : S_.BroadcastsInDim S2097152 ![])
    (x : IVec S2097152 32) (N : BitVec 32) (k : Fin 2097152) (hx : (x (ix1 k)).toNat < 2 ^ 31) :
    wrapCol hb hz x N (ix2 k (0 : Fin 1)) = x (ix1 k) := by
  refine (broadcastInDim_apply ![0] hb _ (ix2 k (0 : Fin 1)) (ix1 k) fun a => ?_).trans ?_
  · match a with
    | ⟨0, _⟩ => rfl
  exact wrap_nonneg (x (ix1 k)) N hx

/-- Four one-column matrices side by side, read at row `k`: column `c` is the `c`-th matrix's entry. -/
theorem concat4_apply (u0 u1 u2 u3 : S2097152x1.Idx → α)
    (h : Shape.Concatenates [S2097152x1, S2097152x1, S2097152x1, S2097152x1] S2097152x4 1) (k : Fin 2097152) :
    concatenate S2097152x4 1 [⟨S2097152x1, u0⟩, ⟨S2097152x1, u1⟩, ⟨S2097152x1, u2⟩, ⟨S2097152x1, u3⟩] h (ix2 k (0 : Fin 4))
        = u0 (ix2 k (0 : Fin 1))
    ∧ concatenate S2097152x4 1 [⟨S2097152x1, u0⟩, ⟨S2097152x1, u1⟩, ⟨S2097152x1, u2⟩, ⟨S2097152x1, u3⟩] h (ix2 k (1 : Fin 4))
        = u1 (ix2 k (0 : Fin 1))
    ∧ concatenate S2097152x4 1 [⟨S2097152x1, u0⟩, ⟨S2097152x1, u1⟩, ⟨S2097152x1, u2⟩, ⟨S2097152x1, u3⟩] h (ix2 k (2 : Fin 4))
        = u2 (ix2 k (0 : Fin 1))
    ∧ concatenate S2097152x4 1 [⟨S2097152x1, u0⟩, ⟨S2097152x1, u1⟩, ⟨S2097152x1, u2⟩, ⟨S2097152x1, u3⟩] h (ix2 k (3 : Fin 4))
        = u3 (ix2 k (0 : Fin 1)) := by
  have hi : ∀ c : Fin 4, ∀ b : Fin S2097152x1.rank, b.cast (rfl : S2097152x1.rank = S2097152x4.rank) ≠ (1 : Fin 2) →
      ((ix2 k (0 : Fin 1) : S2097152x1.Idx) b).val = ((ix2 k c : S2097152x4.Idx) (b.cast rfl)).val := by
    intro c b hb
    match b with
    | ⟨0, _⟩ => rfl
    | ⟨1, _⟩ => exact absurd rfl hb
  refine ⟨?_, ?_, ?_, ?_⟩
  · exact concatenate_apply_piece (1 : Fin S2097152x4.rank) [⟨S2097152x1, u0⟩, ⟨S2097152x1, u1⟩, ⟨S2097152x1, u2⟩, ⟨S2097152x1, u3⟩] h (ix2 k (0 : Fin 4)) 0 (show (0 : Nat) < 4 by decide) S2097152x1 u0 rfl rfl 0 rfl (ix2 k (0 : Fin 1)) (hi 0) rfl
  · exact concatenate_apply_piece (1 : Fin S2097152x4.rank) [⟨S2097152x1, u0⟩, ⟨S2097152x1, u1⟩, ⟨S2097152x1, u2⟩, ⟨S2097152x1, u3⟩] h (ix2 k (1 : Fin 4)) 1 (show (1 : Nat) < 4 by decide) S2097152x1 u1 rfl rfl 1 rfl (ix2 k (0 : Fin 1)) (hi 1) rfl
  · exact concatenate_apply_piece (1 : Fin S2097152x4.rank) [⟨S2097152x1, u0⟩, ⟨S2097152x1, u1⟩, ⟨S2097152x1, u2⟩, ⟨S2097152x1, u3⟩] h (ix2 k (2 : Fin 4)) 2 (show (2 : Nat) < 4 by decide) S2097152x1 u2 rfl rfl 2 rfl (ix2 k (0 : Fin 1)) (hi 2) rfl
  · exact concatenate_apply_piece (1 : Fin S2097152x4.rank) [⟨S2097152x1, u0⟩, ⟨S2097152x1, u1⟩, ⟨S2097152x1, u2⟩, ⟨S2097152x1, u3⟩] h (ix2 k (3 : Fin 4)) 3 (show (3 : Nat) < 4 by decide) S2097152x1 u3 rfl rfl 3 rfl (ix2 k (0 : Fin 1)) (hi 3) rfl

end Columns

/-! ## One gather, and one table's gap vector, at a flat interval number -/

section Gaps
variable {α : Type}

/-- The gather over four wrapped columns, read at `k`, when the four entries at `k` are valid coordinates
    `(a0, a1, a2, a3)` of the image stack: the stack there. -/
theorem gather_cols (P : S16x8x512x512.Idx → α) (x0 x1 x2 x3 : IVec S2097152 32)
    (hb : S2097152.BroadcastsInDim S2097152x1 ![0]) (hz : S_.BroadcastsInDim S2097152 ![])
    (hcat : Shape.Concatenates [S2097152x1, S2097152x1, S2097152x1, S2097152x1] S2097152x4 1)
    (k : Fin 2097152) (a0 : Fin 16) (a1 : Fin 8) (a2 a3 : Fin 512)
    (h0 : (x0 (ix1 k)).toNat = a0.val) (h1 : (x1 (ix1 k)).toNat = a1.val)
    (h2 : (x2 (ix1 k)).toNat = a2.val) (h3 : (x3 (ix1 k)).toNat = a3.val) :
    Host.gather gather_S16x8x512x512_S2097152x4_S2097152_n_0123_n_n_0123_1_1111 P
      (concatenate S2097152x4 1 [⟨S2097152x1, wrapCol hb hz x0 16#32⟩, ⟨S2097152x1, wrapCol hb hz x1 8#32⟩,
        ⟨S2097152x1, wrapCol hb hz x2 512#32⟩, ⟨S2097152x1, wrapCol hb hz x3 512#32⟩] hcat) (ix1 k)
      = P (ix4 a0 a1 a2 a3) := by
  obtain ⟨c0, c1, c2, c3⟩ := concat4_apply (wrapCol hb hz x0 16#32) (wrapCol hb hz x1 8#32) (wrapCol hb hz x2 512#32)
    (wrapCol hb hz x3 512#32) hcat k
  have e : ∀ (x : IVec S2097152 32) (N : BitVec 32) (a : Nat), (x (ix1 k)).toNat = a → a < 2 ^ 31 →
      (wrapCol hb hz x N (ix2 k (0 : Fin 1))).toInt.toNat = a := by
    intro x N a hxa ha
    have hx : (x (ix1 k)).toNat < 2 ^ 31 := by omega
    rw [wrapCol_apply hb hz x N k hx, StableHlo.Predicate.toInt_eq_toNat_of_lt hx, Int.toNat_natCast, hxa]
  refine gather4_apply gather_S16x8x512x512_S2097152x4_S2097152_n_0123_n_n_0123_1_1111 rfl rfl rfl rfl P _ k a0 a1 a2 a3 ?_ ?_ ?_ ?_
  · rw [c0]; exact e x0 _ _ h0 (by have := a0.isLt; omega)
  · rw [c1]; exact e x1 _ _ h1 (by have := a1.isLt; omega)
  · rw [c2]; exact e x2 _ _ h2 (by have := a2.isLt; omega)
  · rw [c3]; exact e x3 _ _ h3 (by have := a3.isLt; omega)

/-- The sample numbers of the flat intervals. -/
abbrev sampleVec : IVec S2097152 32 :=
  shapeCast S2097152 (broadcastInDim S16x131072 ![0] bcast_S16_S16x131072_0 (iotaInDim S16 32 0)) shapeCasts_S16x131072_S2097152

/-- The class numbers of the flat intervals. -/
abbrev classVec : IVec S2097152 32 :=
  shapeCast S2097152 (broadcastInDim S16x131072 ![0, 1] bcast_S1x131072_S16x131072_0_1 (shapeCast S1x131072 (shapeCast S131072
    (broadcastInDim S8x16384 ![0] bcast_S8_S8x16384_0 (iotaInDim S8 32 0)) shapeCasts_S8x16384_S131072)
    shapeCasts_S131072_S1x131072)) shapeCasts_S16x131072_S2097152

/-- One word of every flat interval's entry: the table flattened, sliced at `off`, flattened. -/
abbrev wordVec (I : S16x8x16384x2x2.Idx → BitVec 32) (off : Fin 3 → Nat) (hs : S2097152x2x2.Slices off S2097152x1x1) :
    IVec S2097152 32 :=
  shapeCast S2097152 (extractStridedSlice S2097152x1x1 off (shapeCast S2097152x2x2 I shapeCasts_S16x8x16384x2x2_S2097152x2x2) hs)
    shapeCasts_S2097152x1x1_S2097152

/-- The image stack gathered at (sample, class, row word, column word) of every flat interval. -/
abbrev pixelVec (P : S16x8x512x512.Idx → EReal) (r c : IVec S2097152 32) : S2097152.Idx → EReal :=
  Host.gather gather_S16x8x512x512_S2097152x4_S2097152_n_0123_n_n_0123_1_1111 P
    (concatenate S2097152x4 1 [⟨S2097152x1, wrapCol bcast_S2097152_S2097152x1_0 bcast_S_S2097152 sampleVec 16#32⟩,
      ⟨S2097152x1, wrapCol bcast_S2097152_S2097152x1_0 bcast_S_S2097152 classVec 8#32⟩,
      ⟨S2097152x1, wrapCol bcast_S2097152_S2097152x1_0 bcast_S_S2097152 r 512#32⟩,
      ⟨S2097152x1, wrapCol bcast_S2097152_S2097152x1_0 bcast_S_S2097152 c 512#32⟩] concatenates_S2097152x1_S2097152x1_S2097152x1_S2097152x1_S2097152x4_d1)

/-- The birth value minus the death value of every flat interval. -/
abbrev gapVec (P : S16x8x512x512.Idx → EReal) (I : S16x8x16384x2x2.Idx → BitVec 32) : FVec Ideal S2097152 .f32 :=
  subf (F := Ideal) (φ := .f32)
    (pixelVec P (wordVec I ![0, 0, 0] slices_S2097152x2x2_S2097152x1x1_0_0_0) (wordVec I ![0, 0, 1] slices_S2097152x2x2_S2097152x1x1_0_0_1))
    (pixelVec P (wordVec I ![0, 1, 0] slices_S2097152x2x2_S2097152x1x1_0_1_0) (wordVec I ![0, 1, 1] slices_S2097152x2x2_S2097152x1x1_0_1_1))

/-- One gathered vector at `k`, over words below 512: the specification's pixel. -/
theorem pixelVec_apply (P : S16x8x512x512.Idx → EReal) (I : S16x8x16384x2x2.Idx → BitVec 32)
    (hI : ∀ i, (I i).toNat < 512) (j : Fin 2) (off0 off1 : Fin 3 → Nat)
    (hs0 : S2097152x2x2.Slices off0 S2097152x1x1) (hs1 : S2097152x2x2.Slices off1 S2097152x1x1)
    (h00 : off0 0 = 0) (h01 : off0 1 = j.val) (h02 : off0 2 = (0 : Fin 2).val)
    (h10 : off1 0 = 0) (h11 : off1 1 = j.val) (h12 : off1 2 = (1 : Fin 2).val) (k : Fin 2097152) :
    pixelVec P (wordVec I off0 hs0) (wordVec I off1 hs1) (ix1 k)
      = BirthDeath.pixel P (kb k) (kc k) (I (ix5 (kb k) (kc k) (kn k) j 0)) (I (ix5 (kb k) (kc k) (kn k) j 1)) := by
  have hw0 : wordVec I off0 hs0 (ix1 k) = I (ix5 (kb k) (kc k) (kn k) j 0) :=
    word_col I j 0 off0 h00 h01 h02 shapeCasts_S16x8x16384x2x2_S2097152x2x2 hs0 shapeCasts_S2097152x1x1_S2097152 k
  have hw1 : wordVec I off1 hs1 (ix1 k) = I (ix5 (kb k) (kc k) (kn k) j 1) :=
    word_col I j 1 off1 h10 h11 h12 shapeCasts_S16x8x16384x2x2_S2097152x2x2 hs1 shapeCasts_S2097152x1x1_S2097152 k
  have hsv : sampleVec (ix1 k) = BitVec.ofNat 32 (k.val / 131072) :=
    sample_col bcast_S16_S16x131072_0 shapeCasts_S16x131072_S2097152 k
  have hcv : classVec (ix1 k) = BitVec.ofNat 32 (k.val / 16384 % 8) :=
    class_col bcast_S8_S8x16384_0 shapeCasts_S8x16384_S131072 shapeCasts_S131072_S1x131072
      bcast_S1x131072_S16x131072_0_1 shapeCasts_S16x131072_S2097152 k
  refine gather_cols P sampleVec classVec _ _ _ _ _ k (kb k) (kc k) (BirthDeath.px _) (BirthDeath.px _) ?_ ?_ ?_ ?_
  · rw [hsv, BitVec.toNat_ofNat]
    have := k.isLt
    show k.val / 131072 % 2 ^ 32 = k.val / 131072
    omega
  · rw [hcv, BitVec.toNat_ofNat]
    show k.val / 16384 % 8 % 2 ^ 32 = k.val / 16384 % 8
    omega
  · rw [hw0]; exact (BirthDeath.px_val_of_lt (hI _)).symm
  · rw [hw1]; exact (BirthDeath.px_val_of_lt (hI _)).symm

/-- The gap vector at `k`, over words below 512: the specification's gap of interval `k`. -/
theorem gapVec_apply (P : S16x8x512x512.Idx → EReal) (I : S16x8x16384x2x2.Idx → BitVec 32)
    (hI : ∀ i, (I i).toNat < 512) (k : Fin 2097152) :
    gapVec P I (ix1 k) = BirthDeath.gap P I (kb k) (kc k) (kn k) := by
  show pixelVec P _ _ (ix1 k) - pixelVec P _ _ (ix1 k) = _
  rw [pixelVec_apply P I hI 0 _ _ _ _ rfl rfl rfl rfl rfl rfl k, pixelVec_apply P I hI 1 _ _ _ _ rfl rfl rfl rfl rfl rfl k]
  rfl

/-- The host's sum of the squared gaps, from the zero word: the flat sum of the specification's terms. -/
theorem sumsq_apply (P : S16x8x512x512.Idx → EReal) (I : S16x8x16384x2x2.Idx → BitVec 32)
    (hI : ∀ i, (I i).toNat < 512) (j : S_.Idx) :
    Host.reduceAdd (F := Ideal) (mulf (gapVec P I) (gapVec P I)) (constant (F := Ideal) S_ .f32 0x00000000#32)
        reducesTo_S2097152_S_d0 h_S_ j
      = ∑ k : Fin 2097152, BirthDeath.flatTerm P I k := by
  rw [hostReduceAdd_apply, Cert.LibReduce.hostReduceAdd_all1, constant_apply, Ideal.ofBits_zero_f32, zero_add]
  refine Finset.sum_congr rfl fun k _ => ?_
  rw [mulf_apply, gapVec_apply P I hI k]
  rfl

end Gaps

/-! ## The run -/

section Run
open Idealize.ShloMosaic.TcCoe Idealize.SL.Sem

/-- The first table's composed difference vector is the gap vector of the image stack and the first table. -/
theorem res_main_v70_eq (V : Valuation τ sig (Elt Ideal)) :
    res_main_v70 (F := Ideal) V = gapVec (V (Proc.devRef .tc main_arg0)) (V (Proc.devRef .tc main_arg1)) := rfl

/-- The second table's likewise. -/
theorem res_main_v144_eq (V : Valuation τ sig (Elt Ideal)) :
    res_main_v144 (F := Ideal) V = gapVec (V (Proc.devRef .tc main_arg0)) (V (Proc.devRef .tc main_arg2)) := rfl

/-- The result's composed term, over tables of words below 512: the loss. -/
theorem result_eq (V : Valuation τ sig (Elt Ideal))
    (hI0 : ∀ i, (V (Proc.devRef .tc main_arg1) i).toNat < 512) (hI1 : ∀ i, (V (Proc.devRef .tc main_arg2) i).toNat < 512) :
    addf (F := Ideal) (Host.divf (Host.reduceAdd (mulf (res_main_v70 V) (res_main_v70 V)) (constant S_ .f32 0x00000000#32) reducesTo_S2097152_S_d0 h_S_) (constant S_ .f32 0x41800000#32)) (Host.divf (Host.reduceAdd (mulf (res_main_v144 V) (res_main_v144 V)) (constant S_ .f32 0x00000000#32) reducesTo_S2097152_S_d0 h_S_) (constant S_ .f32 0x41800000#32))
      = fun _ => BirthDeath.loss (V (Proc.devRef .tc main_arg0)) (V (Proc.devRef .tc main_arg1)) (V (Proc.devRef .tc main_arg2)) := by
  funext j
  have hdiv : ∀ R : FVec Ideal S_ .f32,
      Host.divf (F := Ideal) R (constant (F := Ideal) S_ .f32 0x41800000#32) j = Ideal.div (R j) BirthDeath.sixteen :=
    fun _ => rfl
  rw [res_main_v70_eq, res_main_v144_eq, addf_apply, hdiv, hdiv, sumsq_apply _ _ hI0 j, sumsq_apply _ _ hI1 j,
    ← BirthDeath.total_eq_flat, ← BirthDeath.total_eq_flat]
  rfl

/-- On every device, from any memory with zero counters whose two interval tables hold words below 512: every weakly
    fair execution of the reference terminates with its result at the loss of the three arguments, the arguments
    unchanged. -/
theorem run (m : (ℓ : Loc nD τ sig) → Buf (Elt Ideal) ℓ) (ρ : Dev nD → PrngReg)
    (hI0 : ∀ (c : Dev nD) i, (m ((c.tc : Thread nD τ).loc main_arg1) i).toNat < 512)
    (hI1 : ∀ (c : Dev nD) i, (m ((c.tc : Thread nD τ).loc main_arg2) i).toNat < 512) :
    θ_run (defs (F := Ideal)) (onTc (τ := τ) (main (F := Ideal))) ⟨m, fun _ => 0, ρ⟩ fun r => ∀ c : Dev nD,
      r.2.mem ((c.tc : Thread nD τ).loc main_v148) = (fun _ => BirthDeath.loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c) (hI0 c) (hI1 c)), (h c).2⟩)
    (Value.run m ρ)

end Run

end Cert.ReferenceIdeal.RefValue

end
-- ==== Proof.lean ====
/-
  The certificate's five claims, assembled.

  The kernel gathers, for every interval of two interval tables, the image values at a birth pixel and a death pixel
  (each look-up a product with a 0/1 row-selection matrix followed by a 0/1 column mask and a row sum), squares their
  difference, and adds the squares up sample by sample across its grid; the lines after it add the sixteen per-sample
  sums of each table, add the two totals and divide by 16.  The reference gathers the same pixels by indexing, adds
  each table's squares in one flat sum, divides each total by 16 and adds the quotients.  On the extended reals, with
  real image entries and every interval word in [0, 512), both are the one number `BirthDeath.loss`:
  the look-ups agree because a 0/1-weighted sum keeps exactly the selected entry (and the kernel's remainder copy
  `x − x` of the image is zero for real `x`), the groupings of the sums agree because addition is commutative and
  associative, and `(a + b) / 16 = a / 16 + b / 16` for real totals.

  The two kernel programs' frames and the reference's run are the generated ones; the kernel-side value is read off
  the generated frame run point by point (KPieces, KArith, KBlocks, KInv, KRun), the reference's off its generated run
  (RefRun); Pre turns the printed precondition into the three facts used; Bridge has the re-groupings of the sums.
-/
import proofs.«419365_j60447369724095_4_alg».proof.Defs
import proofs.«419365_j60447369724095_4_alg».proof.Proof.Gen.Kernel
import proofs.«419365_j60447369724095_4_alg».proof.Proof.Gen.Kernel.Frame
import proofs.«419365_j60447369724095_4_alg».proof.Proof.Gen.KernelIdeal
import proofs.«419365_j60447369724095_4_alg».proof.Proof.Gen.KernelIdeal.Frame
import proofs.«419365_j60447369724095_4_alg».proof.Proof.Gen.ReferenceIdeal
import proofs.«419365_j60447369724095_4_alg».proof.Proof.Gen.ReferenceIdeal.Run
import proofs.«419365_j60447369724095_4_alg».proof.Proof.Gen.Pre_finite_inputs
import proofs.«419365_j60447369724095_4_alg».proof.Proof.Pre
import proofs.«419365_j60447369724095_4_alg».proof.Proof.Bridge
import proofs.«419365_j60447369724095_4_alg».proof.Proof.KRun
import proofs.«419365_j60447369724095_4_alg».proof.Proof.RefRun
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The one rewrite of the idealization: widening back a value just narrowed to the 16-bit format is, on exact
    numbers, the value itself. -/
theorem preserves : Cert.preserves_Kernel_KernelIdeal :=
  IdealRules.truncf_extf.statement Cert.KernelIdeal.S512x512 .f32 .bf16

/-- From memories that agree on the arguments both idealized programs end with the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd := fun c => Cert.PreDecode.decode (hF := Cert.Pre_finite_inputs.Gen.facts) _ _ _ (hpre c)
  have hP := fun c => (hd c).1
  have hI0 := fun c => (hd c).2.1
  have hI1 := fun c => (hd c).2.2
  refine ⟨fun c => fun _ => BirthDeath.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KValue.run m ρ hP hI0 hI1)
    exact funext fun _ => BirthDeath.loss_eq _ _ _ (hP c)
  · refine (θ_run Cert.ReferenceIdeal.defs _ _).mono (fun _ h c => ⟨(h c).1.trans ?_, (h c).2⟩)
      (Cert.ReferenceIdeal.RefValue.run m' ρ'
        (fun c i => by rw [(hagree c).2.1]; exact hI0 c i) (fun c i => by rw [(hagree c).2.2]; exact hI1 c i))
    rw [(hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
